-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000 : Shape := ⟨1, ![50000]⟩
abbrev S2x500000 : Shape := ⟨2, ![2, 500000]⟩
abbrev S2x200000 : Shape := ⟨2, ![2, 200000]⟩
abbrev S128x128 : Shape := ⟨2, ![128, 128]⟩
abbrev S128 : Shape := ⟨1, ![128]⟩
abbrev S50000x128 : Shape := ⟨2, ![50000, 128]⟩
abbrev S_ : Shape := ⟨0, ![]⟩
abbrev S1x500000 : Shape := ⟨2, ![1, 500000]⟩
abbrev S500000 : Shape := ⟨1, ![500000]⟩
abbrev S1x200000 : Shape := ⟨2, ![1, 200000]⟩
abbrev S200000 : Shape := ⟨1, ![200000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000x128 : S_.BroadcastsInDim S50000x128 (![] : Fin 0 → Fin S50000x128.rank)
  reducesTo_S50000x128_S_d0_1 : S50000x128.ReducesTo [0, 1] S_
  bcast_S_S50000 : S_.BroadcastsInDim S50000 (![] : Fin 0 → Fin S50000.rank)
  reducesTo_S50000_S_d0 : S50000.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_
  slices_S2x500000_S1x500000_1_0 : S2x500000.Slices ![1, 0] S1x500000
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_
  slices_S2x200000_S1x200000_1_0 : S2x200000.Slices ![1, 0] S1x200000

variable [Facts]

def fn_part7 {F : FTy → Type} [FloatOps F] (main_arg3 : IVec S2x200000 32) (main_v118 : IVec S_ 1) (main_v122 : IVec S200000 1) : IVec S_ 1 :=
  let main_v123 : IVec S1x200000 32 := (extractStridedSlice S1x200000 ![1, 0] · slices_S2x200000_S1x200000_1_0) main_arg3
  let main_v124 : IVec S200000 32 := shapeCast S200000 main_v123 shapeCasts_S1x200000_S200000
  let main_c_43 : IVec S_ 32 := constantI S_ 32 50000#32
  let main_v125 : IVec S200000 32 := broadcastInDim S200000 ![] bcast_S_S200000 main_c_43
  let main_v126 : IVec S200000 1 := cmpi .slt main_v124 main_v125
  let main_v127 : IVec S200000 1 := andi main_v122 main_v126
  let main_c_44 : IVec S_ 1 := constantI S_ 1 1#1
  let main_v128 : IVec S_ 1 := (fun x v => Host.reduce IntOp.andi x v reducesTo_S200000_S_d0 h_S_) main_v127 main_c_44
  let main_v129 : IVec S_ 1 := andi main_v118 main_v128
  main_v129

def fn_part6 {F : FTy → Type} [FloatOps F] (main_arg3 : IVec S2x200000 32) (main_v96 : IVec S_ 1) (main_v100 : IVec S500000 1) (main_v102 : IVec S500000 32) (main_v103 : IVec S500000 32) : IVec S_ 1 :=
  let main_v104 : IVec S500000 1 := cmpi .slt main_v102 main_v103
  let main_v105 : IVec S500000 1 := andi main_v100 main_v104
  let main_c_38 : IVec S_ 1 := constantI S_ 1 1#1
  let main_v106 : IVec S_ 1 := (fun x v => Host.reduce IntOp.andi x v reducesTo_S500000_S_d0 h_S_) main_v105 main_c_38
  let main_v107 : IVec S_ 1 := andi main_v96 main_v106
  let main_v108 : IVec S1x200000 32 := (extractStridedSlice S1x200000 ![0, 0] · slices_S2x200000_S1x200000_0_0) main_arg3
  let main_v109 : IVec S200000 32 := shapeCast S200000 main_v108 shapeCasts_S1x200000_S200000
  let main_c_39 : IVec S_ 32 := constantI S_ 32 0#32
  let main_v110 : IVec S200000 32 := broadcastInDim S200000 ![] bcast_S_S200000 main_c_39
  let main_v111 : IVec S200000 1 := cmpi .sge main_v109 main_v110
  let main_v112 : IVec S1x200000 32 := (extractStridedSlice S1x200000 ![0, 0] · slices_S2x200000_S1x200000_0_0) main_arg3
  let main_v113 : IVec S200000 32 := shapeCast S200000 main_v112 shapeCasts_S1x200000_S200000
  let main_c_40 : IVec S_ 32 := constantI S_ 32 100000#32
  let main_v114 : IVec S200000 32 := broadcastInDim S200000 ![] bcast_S_S200000 main_c_40
  let main_v115 : IVec S200000 1 := cmpi .slt main_v113 main_v114
  let main_v116 : IVec S200000 1 := andi main_v111 main_v115
  let main_c_41 : IVec S_ 1 := constantI S_ 1 1#1
  let main_v117 : IVec S_ 1 := (fun x v => Host.reduce IntOp.andi x v reducesTo_S200000_S_d0 h_S_) main_v116 main_c_41
  let main_v118 : IVec S_ 1 := andi main_v107 main_v117
  let main_v119 : IVec S1x200000 32 := (extractStridedSlice S1x200000 ![1, 0] · slices_S2x200000_S1x200000_1_0) main_arg3
  let main_v120 : IVec S200000 32 := shapeCast S200000 main_v119 shapeCasts_S1x200000_S200000
  let main_c_42 : IVec S_ 32 := constantI S_ 32 0#32
  let main_v121 : IVec S200000 32 := broadcastInDim S200000 ![] bcast_S_S200000 main_c_42
  let main_v122 : IVec S200000 1 := cmpi .sge main_v120 main_v121
  fn_part7 (F := F) main_arg3 main_v118 main_v122

def fn_part5 {F : FTy → Type} [FloatOps F] (main_arg2 : IVec S2x500000 32) (main_arg3 : IVec S2x200000 32) (main_v78 : IVec S_ 1) (main_v84 : IVec S_ 1) : IVec S_ 1 :=
  let main_v85 : IVec S_ 1 := andi main_v78 main_v84
  let main_v86 : IVec S1x500000 32 := (extractStridedSlice S1x500000 ![0, 0] · slices_S2x500000_S1x500000_0_0) main_arg2
  let main_v87 : IVec S500000 32 := shapeCast S500000 main_v86 shapeCasts_S1x500000_S500000
  let main_c_33 : IVec S_ 32 := constantI S_ 32 0#32
  let main_v88 : IVec S500000 32 := broadcastInDim S500000 ![] bcast_S_S500000 main_c_33
  let main_v89 : IVec S500000 1 := cmpi .sge main_v87 main_v88
  let main_v90 : IVec S1x500000 32 := (extractStridedSlice S1x500000 ![0, 0] · slices_S2x500000_S1x500000_0_0) main_arg2
  let main_v91 : IVec S500000 32 := shapeCast S500000 main_v90 shapeCasts_S1x500000_S500000
  let main_c_34 : IVec S_ 32 := constantI S_ 32 100000#32
  let main_v92 : IVec S500000 32 := broadcastInDim S500000 ![] bcast_S_S500000 main_c_34
  let main_v93 : IVec S500000 1 := cmpi .slt main_v91 main_v92
  let main_v94 : IVec S500000 1 := andi main_v89 main_v93
  let main_c_35 : IVec S_ 1 := constantI S_ 1 1#1
  let main_v95 : IVec S_ 1 := (fun x v => Host.reduce IntOp.andi x v reducesTo_S500000_S_d0 h_S_) main_v94 main_c_35
  let main_v96 : IVec S_ 1 := andi main_v85 main_v95
  let main_v97 : IVec S1x500000 32 := (extractStridedSlice S1x500000 ![1, 0] · slices_S2x500000_S1x500000_1_0) main_arg2
  let main_v98 : IVec S500000 32 := shapeCast S500000 main_v97 shapeCasts_S1x500000_S500000
  let main_c_36 : IVec S_ 32 := constantI S_ 32 0#32
  let main_v99 : IVec S500000 32 := broadcastInDim S500000 ![] bcast_S_S500000 main_c_36
  let main_v100 : IVec S500000 1 := cmpi .sge main_v98 main_v99
  let main_v101 : IVec S1x500000 32 := (extractStridedSlice S1x500000 ![1, 0] · slices_S2x500000_S1x500000_1_0) main_arg2
  let main_v102 : IVec S500000 32 := shapeCast S500000 main_v101 shapeCasts_S1x500000_S500000
  let main_c_37 : IVec S_ 32 := constantI S_ 32 50000#32
  let main_v103 : IVec S500000 32 := broadcastInDim S500000 ![] bcast_S_S500000 main_c_37
  fn_part6 (F := F) main_arg3 main_v96 main_v100 main_v102 main_v103

def fn_part4 {F : FTy → Type} [FloatOps F] (main_arg1 : IVec S50000 32) (main_arg2 : IVec S2x500000 32) (main_arg3 : IVec S2x200000 32) (main_arg17 : FVec F S128 .f32) (main_arg18 : FVec F S128x128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_c_30 : IVec S_ 32 := constantI S_ 32 0#32
  let main_v79 : IVec S50000 32 := broadcastInDim S50000 ![] bcast_S_S50000 main_c_30
  let main_v80 : IVec S50000 1 := cmpi .sge main_arg1 main_v79
  let main_c_31 : IVec S_ 32 := constantI S_ 32 50000#32
  let main_v81 : IVec S50000 32 := broadcastInDim S50000 ![] bcast_S_S50000 main_c_31
  let main_v82 : IVec S50000 1 := cmpi .slt main_arg1 main_v81
  let main_v83 : IVec S50000 1 := andi main_v80 main_v82
  let main_c_32 : IVec S_ 1 := constantI S_ 1 1#1
  let main_v84 : IVec S_ 1 := (fun x v => Host.reduce IntOp.andi x v reducesTo_S50000_S_d0 h_S_) main_v83 main_c_32
  fn_part5 (F := F) main_arg2 main_arg3 main_v78 main_v84

def fn_part3 {F : FTy → Type} [FloatOps F] (main_arg1 : IVec S50000 32) (main_arg2 : IVec S2x500000 32) (main_arg3 : IVec S2x200000 32) (main_arg14 : FVec F S128 .f32) (main_arg15 : FVec F S128x128 .f32) (main_arg16 : FVec F S128x128 .f32) (main_arg17 : FVec F S128 .f32) (main_arg18 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg2 main_arg3 main_arg17 main_arg18 main_v63 main_v67

def fn_part2 {F : FTy → Type} [FloatOps F] (main_arg1 : IVec S50000 32) (main_arg2 : IVec S2x500000 32) (main_arg3 : IVec S2x200000 32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg1 main_arg2 main_arg3 main_arg14 main_arg15 main_arg16 main_arg17 main_arg18 main_v48 main_v49 main_v50

def fn_part1 {F : FTy → Type} [FloatOps F] (main_arg1 : IVec S50000 32) (main_arg2 : IVec S2x500000 32) (main_arg3 : IVec S2x200000 32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg2 main_arg3 main_arg10 main_arg11 main_arg12 main_arg13 main_arg14 main_arg15 main_arg16 main_arg17 main_arg18 main_v33

def fn {F : FTy → Type} [FloatOps F] (main_arg0 : FVec F S100000x128 .f32) (main_arg1 : IVec S50000 32) (main_arg2 : IVec S2x500000 32) (main_arg3 : IVec S2x200000 32) (main_arg4 : FVec F S128x128 .f32) (main_arg5 : FVec F S128 .f32) (main_arg6 : FVec F S50000x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S50000x128 .f32 := Host.absf main_arg6
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg1 main_arg2 main_arg3 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S50000 : Shape := ⟨1, ![50000]⟩
abbrev S2x500000 : Shape := ⟨2, ![2, 500000]⟩
abbrev S2x200000 : Shape := ⟨2, ![2, 200000]⟩
abbrev S128x128 : Shape := ⟨2, ![128, 128]⟩
abbrev S128 : Shape := ⟨1, ![128]⟩
abbrev S50000x128 : Shape := ⟨2, ![50000, 128]⟩
abbrev S1x128 : Shape := ⟨2, ![1, 128]⟩
abbrev S5000x128 : Shape := ⟨2, ![5000, 128]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S1x500000 : Shape := ⟨2, ![1, 500000]⟩
abbrev S500000 : Shape := ⟨1, ![500000]⟩
abbrev S500000x1 : Shape := ⟨2, ![500000, 1]⟩
abbrev S100000 : Shape := ⟨1, ![100000]⟩
abbrev S100000x1 : Shape := ⟨2, ![100000, 1]⟩
abbrev S500000x128 : Shape := ⟨2, ![500000, 128]⟩
abbrev S5000x1 : Shape := ⟨2, ![5000, 1]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 243
  | .vmem => 50
  | .smem => 0
  | _ => 0

abbrev hbmTy0_0 (i : Nat) : BufTy := match i % 128 with
  | 0 => ⟨S100000x128, .f32⟩
  | 1 => ⟨S50000, .i32⟩
  | 2 => ⟨S2x500000, .i32⟩
  | 3 => ⟨S2x200000, .i32⟩
  | 4 => ⟨S128x128, .f32⟩
  | 5 => ⟨S128, .f32⟩
  | 6 => ⟨S50000x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S1x128, .f32⟩
  | 20 => ⟨S100000x128, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S1, .i32⟩
  | 30 => ⟨S_, .i32⟩
  | 31 => ⟨S50000x1, .i32⟩
  | 32 => ⟨S50000x1, .i1⟩
  | 33 => ⟨S1x1, .i32⟩
  | 34 => ⟨S50000x1, .i32⟩
  | 35 => ⟨S50000x1, .i1⟩
  | 36 => ⟨S50000x1, .i1⟩
  | 37 => ⟨S_, .i1⟩
  | 38 => ⟨S50000, .i1⟩
  | 39 => ⟨S50000x128, .f32⟩
  | 40 => ⟨S50000x128, .i1⟩
  | 41 => ⟨S_, .f32⟩
  | 42 => ⟨S50000x128, .f32⟩
  | 43 => ⟨S50000x128, .f32⟩
  | 44 => ⟨S1x500000, .i32⟩
  | 45 => ⟨S500000, .i32⟩
  | 46 => ⟨S1x500000, .i32⟩
  | 47 => ⟨S500000, .i32⟩
  | 48 => ⟨S_, .f32⟩
  | 49 => ⟨S500000, .f32⟩
  | 50 => ⟨S_, .f32⟩
  | 51 => ⟨S50000, .f32⟩
  | 52 => ⟨S500000x1, .i32⟩
  | 53 => ⟨S50000, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S_, .f32⟩
  | 62 => ⟨S500000, .f32⟩
  | 63 => ⟨S_, .f32⟩
  | 64 => ⟨S100000, .f32⟩
  | 65 => ⟨S500000x1, .i32⟩
  | 66 => ⟨S100000, .f32⟩
  | 67 => ⟨S_, .f32⟩
  | 68 => ⟨S100000, .f32⟩
  | 69 => ⟨S100000, .f32⟩
  | 70 => ⟨S_, .f32⟩
  | 71 => ⟨S100000, .f32⟩
  | 72 => ⟨S100000, .f32⟩
  | 73 => ⟨S100000x1, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S1, .i32⟩
  | 83 => ⟨S_, .i32⟩
  | 84 => ⟨S500000x1, .i32⟩
  | 85 => ⟨S500000x1, .i1⟩
  | 86 => ⟨S1x1, .i32⟩
  | 87 => ⟨S500000x1, .i32⟩
  | 88 => ⟨S500000x1, .i1⟩
  | 89 => ⟨S500000x1, .i1⟩
  | 90 => ⟨S_, .i1⟩
  | 91 => ⟨S500000, .i1⟩
  | 92 => ⟨S500000x128, .f32⟩
  | 93 => ⟨S500000x128, .i1⟩
  | 94 => ⟨S_, .f32⟩
  | 95 => ⟨S500000x128, .f32⟩
  | 96 => ⟨S500000x128, .f32⟩
  | 97 => ⟨S_, .f32⟩
  | 98 => ⟨S50000x128, .f32⟩
  | 99 => ⟨S500000x1, .i32⟩
  | 100 => ⟨S50000x128, .f32⟩
  | 101 => ⟨S1x128, .f32⟩
  | 102 => ⟨S50000x128, .f32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S1, .i32⟩
  | 112 => ⟨S_, .i32⟩
  | 113 => ⟨S500000x1, .i32⟩
  | 114 => ⟨S500000x1, .i1⟩
  | 115 => ⟨S1x1, .i32⟩
  | 116 => ⟨S500000x1, .i32⟩
  | 117 => ⟨S500000x1, .i1⟩
  | 118 => ⟨S500000x1, .i1⟩
  | 119 => ⟨S_, .i1⟩
  | 120 => ⟨S500000, .i1⟩
  | 121 => ⟨S500000x128, .f32⟩
  | 122 => ⟨S500000x128, .i1⟩
  | 123 => ⟨S_, .f32⟩
  | 124 => ⟨S500000x128, .f32⟩
  | 125 => ⟨S500000x128, .f32⟩
  | 126 => ⟨S_, .f32⟩
  | 127 => ⟨S100000x128, .f32⟩
  | _ => ⟨S100000x128, .f32⟩

abbrev hbmTy0_1 (i : Nat) : BufTy := match i % 128 with
  | 0 => ⟨S500000x1, .i32⟩
  | 1 => ⟨S100000x128, .f32⟩
  | 2 => ⟨S1x128, .f32⟩
  | 3 => ⟨S100000x128, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S1, .i32⟩
  | 13 => ⟨S_, .i32⟩
  | 14 => ⟨S500000x1, .i32⟩
  | 15 => ⟨S500000x1, .i1⟩
  | 16 => ⟨S1x1, .i32⟩
  | 17 => ⟨S500000x1, .i32⟩
  | 18 => ⟨S500000x1, .i1⟩
  | 19 => ⟨S500000x1, .i1⟩
  | 20 => ⟨S_, .i1⟩
  | 21 => ⟨S500000, .i1⟩
  | 22 => ⟨S500000x128, .f32⟩
  | 23 => ⟨S500000x128, .i1⟩
  | 24 => ⟨S_, .f32⟩
  | 25 => ⟨S500000x128, .f32⟩
  | 26 => ⟨S500000x128, .f32⟩
  | 27 => ⟨S_, .f32⟩
  | 28 => ⟨S50000x128, .f32⟩
  | 29 => ⟨S500000x1, .i32⟩
  | 30 => ⟨S50000x128, .f32⟩
  | 31 => ⟨S1x128, .f32⟩
  | 32 => ⟨S50000x128, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S1, .i32⟩
  | 42 => ⟨S_, .i32⟩
  | 43 => ⟨S500000x1, .i32⟩
  | 44 => ⟨S500000x1, .i1⟩
  | 45 => ⟨S1x1, .i32⟩
  | 46 => ⟨S500000x1, .i32⟩
  | 47 => ⟨S500000x1, .i1⟩
  | 48 => ⟨S500000x1, .i1⟩
  | 49 => ⟨S_, .i1⟩
  | 50 => ⟨S500000, .i1⟩
  | 51 => ⟨S500000x128, .f32⟩
  | 52 => ⟨S500000x128, .i1⟩
  | 53 => ⟨S_, .f32⟩
  | 54 => ⟨S500000x128, .f32⟩
  | 55 => ⟨S500000x128, .f32⟩
  | 56 => ⟨S_, .f32⟩
  | 57 => ⟨S100000x128, .f32⟩
  | 58 => ⟨S500000x1, .i32⟩
  | 59 => ⟨S100000x128, .f32⟩
  | 60 => ⟨S1x128, .f32⟩
  | 61 => ⟨S100000x128, .f32⟩
  | 62 => ⟨S1x200000, .i32⟩
  | 63 => ⟨S200000, .i32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S1, .i32⟩
  | 73 => ⟨S_, .i32⟩
  | 74 => ⟨S200000x1, .i32⟩
  | 75 => ⟨S200000x1, .i1⟩
  | 76 => ⟨S1x1, .i32⟩
  | 77 => ⟨S200000x1, .i32⟩
  | 78 => ⟨S200000x1, .i1⟩
  | 79 => ⟨S200000x1, .i1⟩
  | 80 => ⟨S_, .i1⟩
  | 81 => ⟨S200000, .i1⟩
  | 82 => ⟨S200000x128, .f32⟩
  | 83 => ⟨S200000x128, .i1⟩
  | 84 => ⟨S_, .f32⟩
  | 85 => ⟨S200000x128, .f32⟩
  | 86 => ⟨S200000x128, .f32⟩
  | 87 => ⟨S1x200000, .i32⟩
  | 88 => ⟨S200000, .i32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S1, .i32⟩
  | 98 => ⟨S_, .i32⟩
  | 99 => ⟨S200000x1, .i32⟩
  | 100 => ⟨S200000x1, .i1⟩
  | 101 => ⟨S1x1, .i32⟩
  | 102 => ⟨S200000x1, .i32⟩
  | 103 => ⟨S200000x1, .i1⟩
  | 104 => ⟨S200000x1, .i1⟩
  | 105 => ⟨S_, .i1⟩
  | 106 => ⟨S200000, .i1⟩
  | 107 => ⟨S200000x128, .f32⟩
  | 108 => ⟨S200000x128, .i1⟩
  | 109 => ⟨S_, .f32⟩
  | 110 => ⟨S200000x128, .f32⟩
  | 111 => ⟨S200000x128, .f32⟩
  | 112 => ⟨S200000x128, .f32⟩
  | 113 => ⟨S_, .f32⟩
  | 114 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S128x128, .f32⟩
  | .local _ .vmem, ⟨46, _⟩ => ⟨S1x128, .f32⟩
  | .local _ .vmem, ⟨47, _⟩ => ⟨S128x128, .f32⟩
  | .local _ .vmem, ⟨48, _⟩ => ⟨S5000x128, .f32⟩
  | .local _ .vmem, ⟨49, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_cst_0 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_cst_2 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst_3 : Ref sig .tc := ⟨.hbm, 61, rfl⟩
abbrev main_v16 : Ref sig .tc := ⟨.hbm, 62, rfl⟩
abbrev main_cst_4 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_5 : Ref sig .tc := ⟨.hbm, 67, rfl⟩
abbrev main_v20 : Ref sig .tc := ⟨.hbm, 68, rfl⟩
abbrev main_v21 : Ref sig .tc := ⟨.hbm, 69, rfl⟩
abbrev main_cst_6 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_cst : Ref sig .tc := ⟨.hbm, 94, rfl⟩
abbrev main_call1_v15 : Ref sig .tc := ⟨.hbm, 95, rfl⟩
abbrev main_v25 : Ref sig .tc := ⟨.hbm, 96, rfl⟩
abbrev main_cst_7 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v31 : Ref sig .tc := ⟨.hbm, 125, rfl⟩
abbrev main_cst_8 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v37 : Ref sig .tc := ⟨.hbm, 154, rfl⟩
abbrev main_cst_9 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_call4_c : Ref sig .tc := ⟨.hbm, 161, rfl⟩
abbrev main_call4_v0 : Ref sig .tc := ⟨.hbm, 162, rfl⟩
abbrev main_call4_v1 : Ref sig .tc := ⟨.hbm, 163, rfl⟩
abbrev main_call4_c_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_c_1 : Ref sig .tc := ⟨.hbm, 169, rfl⟩
abbrev main_call4_c_2 : Ref sig .tc := ⟨.hbm, 170, rfl⟩
abbrev main_call4_v6 : Ref sig .tc := ⟨.hbm, 171, rfl⟩
abbrev main_call4_v7 : Ref sig .tc := ⟨.hbm, 172, rfl⟩
abbrev main_call4_v8 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_c_3 : Ref sig .tc := ⟨.hbm, 177, rfl⟩
abbrev main_call4_v12 : Ref sig .tc := ⟨.hbm, 178, rfl⟩
abbrev main_call4_v13 : Ref sig .tc := ⟨.hbm, 179, rfl⟩
abbrev main_call4_v14 : Ref sig .tc := ⟨.hbm, 180, rfl⟩
abbrev main_call4_cst : Ref sig .tc := ⟨.hbm, 181, rfl⟩
abbrev main_call4_v15 : Ref sig .tc := ⟨.hbm, 182, rfl⟩
abbrev main_v43 : Ref sig .tc := ⟨.hbm, 183, rfl⟩
abbrev main_cst_10 : Ref sig .tc := ⟨.hbm, 184, rfl⟩
abbrev main_v44 : Ref sig .tc := ⟨.hbm, 185, rfl⟩
abbrev main_v45 : Ref sig .tc := ⟨.hbm, 186, rfl⟩
abbrev main_v46 : Ref sig .tc := ⟨.hbm, 187, rfl⟩
abbrev main_v47 : Ref sig .tc := ⟨.hbm, 188, rfl⟩
abbrev main_v48 : Ref sig .tc := ⟨.hbm, 189, rfl⟩
abbrev main_v49 : Ref sig .tc := ⟨.hbm, 190, rfl⟩
abbrev main_v50 : Ref sig .tc := ⟨.hbm, 191, rfl⟩
abbrev main_call5_c : Ref sig .tc := ⟨.hbm, 192, rfl⟩
abbrev main_call5_v0 : Ref sig .tc := ⟨.hbm, 193, rfl⟩
abbrev main_call5_v1 : Ref sig .tc := ⟨.hbm, 194, rfl⟩
abbrev main_call5_c_0 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_c_1 : Ref sig .tc := ⟨.hbm, 200, rfl⟩
abbrev main_call5_c_2 : Ref sig .tc := ⟨.hbm, 201, rfl⟩
abbrev main_call5_v6 : Ref sig .tc := ⟨.hbm, 202, rfl⟩
abbrev main_call5_v7 : Ref sig .tc := ⟨.hbm, 203, rfl⟩
abbrev main_call5_v8 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_c_3 : Ref sig .tc := ⟨.hbm, 208, rfl⟩
abbrev main_call5_v12 : Ref sig .tc := ⟨.hbm, 209, rfl⟩
abbrev main_call5_v13 : Ref sig .tc := ⟨.hbm, 210, rfl⟩
abbrev main_call5_v14 : Ref sig .tc := ⟨.hbm, 211, rfl⟩
abbrev main_call5_cst : Ref sig .tc := ⟨.hbm, 212, rfl⟩
abbrev main_call5_v15 : Ref sig .tc := ⟨.hbm, 213, rfl⟩
abbrev main_v51 : Ref sig .tc := ⟨.hbm, 214, rfl⟩
abbrev main_v52 : Ref sig .tc := ⟨.hbm, 215, rfl⟩
abbrev main_v53 : Ref sig .tc := ⟨.hbm, 216, rfl⟩
abbrev main_call6_c : Ref sig .tc := ⟨.hbm, 217, rfl⟩
abbrev main_call6_v0 : Ref sig .tc := ⟨.hbm, 218, rfl⟩
abbrev main_call6_v1 : Ref sig .tc := ⟨.hbm, 219, rfl⟩
abbrev main_call6_c_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_c_1 : Ref sig .tc := ⟨.hbm, 225, rfl⟩
abbrev main_call6_c_2 : Ref sig .tc := ⟨.hbm, 226, rfl⟩
abbrev main_call6_v6 : Ref sig .tc := ⟨.hbm, 227, rfl⟩
abbrev main_call6_v7 : Ref sig .tc := ⟨.hbm, 228, rfl⟩
abbrev main_call6_v8 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_c_3 : Ref sig .tc := ⟨.hbm, 233, rfl⟩
abbrev main_call6_v12 : Ref sig .tc := ⟨.hbm, 234, rfl⟩
abbrev main_call6_v13 : Ref sig .tc := ⟨.hbm, 235, rfl⟩
abbrev main_call6_v14 : Ref sig .tc := ⟨.hbm, 236, rfl⟩
abbrev main_call6_cst : Ref sig .tc := ⟨.hbm, 237, rfl⟩
abbrev main_call6_v15 : Ref sig .tc := ⟨.hbm, 238, rfl⟩
abbrev main_v54 : Ref sig .tc := ⟨.hbm, 239, rfl⟩
abbrev main_v55 : Ref sig .tc := ⟨.hbm, 240, rfl⟩
abbrev main_cst_11 : Ref sig .tc := ⟨.hbm, 241, rfl⟩
abbrev main_v56 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  shapeCasts_S50000_S50000x1 : S50000.ShapeCasts S50000x1
  bcast_S_S100000 : S_.BroadcastsInDim S100000 (![] : Fin 0 → Fin S100000.rank)
  shapeCasts_S100000_S100000x1 : S100000.ShapeCasts S100000x1
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  slices_S2x200000_S1x200000_1_0 : S2x200000.Slices ![1, 0] S1x200000
  reducesTo_S200000x128_S200000_d1 : S200000x128.ReducesTo [1] S200000
  dot_S5000x128_S128x128_S5000x128_1_0_0_1_n_n_wf : DotDims.WF S5000x128 S128x128 S5000x128 [1] [0] [0] [1] [] []
  gather_S50000x128_S50000x1_S50000x128_1_0_n_n_0_1_1128_wf : GatherDims.WF S50000x128 S50000x1 S50000x128 [1] [0] [] [0] [] 1 ![1, 128]
  scatter_S50000_S500000x1_S500000_n_0_0_1_wf : ScatterDims.WF S50000 S500000x1 S500000 [] [0] [0] 1
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v46) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000 : Shape := ⟨1, ![50000]⟩
abbrev S2x500000 : Shape := ⟨2, ![2, 500000]⟩
abbrev S2x200000 : Shape := ⟨2, ![2, 200000]⟩
abbrev S128x128 : Shape := ⟨2, ![128, 128]⟩
abbrev S128 : Shape := ⟨1, ![128]⟩
abbrev S50000x128 : Shape := ⟨2, ![50000, 128]⟩
abbrev S1x128 : Shape := ⟨2, ![1, 128]⟩
abbrev S_ : Shape := ⟨0, ![]⟩
abbrev S50000x1 : Shape := ⟨2, ![50000, 1]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S50000, .i32⟩
  | 2 => ⟨S2x500000, .i32⟩
  | 3 => ⟨S2x200000, .i32⟩
  | 4 => ⟨S128x128, .f32⟩
  | 5 => ⟨S128, .f32⟩
  | 6 => ⟨S50000x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x128, .f32⟩
  | 19 => ⟨S100000x128, .f32⟩
  | 20 => ⟨S1x128, .f32⟩
  | 21 => ⟨S100000x128, .f32⟩
  | 22 => ⟨S100000x128, .f32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x128, .f32⟩
  | 32 => ⟨S1x500000, .i32⟩
  | 33 => ⟨S500000, .i32⟩
  | 34 => ⟨S1x500000, .i32⟩
  | 35 => ⟨S500000, .i32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x128, .f32⟩
  | 45 => ⟨S_, .f32⟩
  | 46 => ⟨S50000x128, .f32⟩
  | 47 => ⟨S500000x1, .i32⟩
  | 48 => ⟨S50000x128, .f32⟩
  | 49 => ⟨S_, .f32⟩
  | 50 => ⟨S500000, .f32⟩
  | 51 => ⟨S_, .f32⟩
  | 52 => ⟨S50000, .f32⟩
  | 53 => ⟨S500000x1, .i32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S50000x128, .f32⟩
  | 66 => ⟨S50000x128, .f32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x128, .f32⟩
  | 76 => ⟨S_, .f32⟩
  | 77 => ⟨S100000x128, .f32⟩
  | 78 => ⟨S500000x1, .i32⟩
  | 79 => ⟨S100000x128, .f32⟩
  | 80 => ⟨S_, .f32⟩
  | 81 => ⟨S500000, .f32⟩
  | 82 => ⟨S_, .f32⟩
  | 83 => ⟨S100000, .f32⟩
  | 84 => ⟨S500000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S100000x128, .f32⟩
  | 98 => ⟨S_, .f32⟩
  | 99 => ⟨S50000x128, .f32⟩
  | 100 => ⟨S50000x128, .f32⟩
  | 101 => ⟨S_, .f32⟩
  | 102 => ⟨S100000x128, .f32⟩
  | 103 => ⟨S100000x128, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x128, .f32⟩
  | 113 => ⟨S_, .f32⟩
  | 114 => ⟨S50000x128, .f32⟩
  | 115 => ⟨S500000x1, .i32⟩
  | 116 => ⟨S50000x128, .f32⟩
  | 117 => ⟨S_, .f32⟩
  | 118 => ⟨S500000, .f32⟩
  | 119 => ⟨S_, .f32⟩
  | 120 => ⟨S50000, .f32⟩
  | 121 => ⟨S500000x1, .i32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x128, .f32⟩
  | _ => ⟨S100000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S50000x128, .f32⟩
  | 6 => ⟨S50000x128, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x128, .f32⟩
  | 16 => ⟨S_, .f32⟩
  | 17 => ⟨S100000x128, .f32⟩
  | 18 => ⟨S500000x1, .i32⟩
  | 19 => ⟨S100000x128, .f32⟩
  | 20 => ⟨S_, .f32⟩
  | 21 => ⟨S500000, .f32⟩
  | 22 => ⟨S_, .f32⟩
  | 23 => ⟨S100000, .f32⟩
  | 24 => ⟨S500000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S100000x128, .f32⟩
  | 37 => ⟨S100000x128, .f32⟩
  | 38 => ⟨S1x200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000x128, .f32⟩
  | 49 => ⟨S1x200000, .i32⟩
  | 50 => ⟨S200000, .i32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x128, .f32⟩
  | 60 => ⟨S200000x128, .f32⟩
  | 61 => ⟨S_, .f32⟩
  | 62 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call0_cst : Ref sig .tc := ⟨.hbm, 98, rfl⟩
abbrev main_call0_v0 : Ref sig .tc := ⟨.hbm, 99, rfl⟩
abbrev main_v65 : Ref sig .tc := ⟨.hbm, 100, rfl⟩
abbrev main_call1_cst : Ref sig .tc := ⟨.hbm, 101, rfl⟩
abbrev main_call1_v0 : Ref sig .tc := ⟨.hbm, 102, rfl⟩
abbrev main_v66 : Ref sig .tc := ⟨.hbm, 103, rfl⟩
abbrev main_c_12 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_14 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_15 : Ref sig .tc := ⟨.hbm, 117, rfl⟩
abbrev main_v77 : Ref sig .tc := ⟨.hbm, 118, rfl⟩
abbrev main_cst_16 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_17 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_18 : Ref sig .tc := ⟨.hbm, 135, rfl⟩
abbrev main_v92 : Ref sig .tc := ⟨.hbm, 136, rfl⟩
abbrev main_v93 : Ref sig .tc := ⟨.hbm, 137, rfl⟩
abbrev main_c_19 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_21 : Ref sig .tc := ⟨.hbm, 148, rfl⟩
abbrev main_v102 : Ref sig .tc := ⟨.hbm, 149, rfl⟩
abbrev main_cst_22 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_24 : Ref sig .tc := ⟨.hbm, 168, rfl⟩
abbrev main_v119 : Ref sig .tc := ⟨.hbm, 169, rfl⟩
abbrev main_v120 : Ref sig .tc := ⟨.hbm, 170, rfl⟩
abbrev main_c_25 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_26 : Ref sig .tc := ⟨.hbm, 179, rfl⟩
abbrev main_v128 : Ref sig .tc := ⟨.hbm, 180, rfl⟩
abbrev main_v129 : Ref sig .tc := ⟨.hbm, 181, rfl⟩
abbrev main_c_27 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_28 : Ref sig .tc := ⟨.hbm, 189, rfl⟩
abbrev main_v136 : Ref sig .tc := ⟨.hbm, 190, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  dot_S100000x128_S128x128_S100000x128_1_0_0_1_n_n_wf : DotDims.WF S100000x128 S128x128 S100000x128 [1] [0] [0] [1] [] []
  gather_S50000x128_S50000x1_S50000x128_1_0_n_n_0_1_1128_wf : GatherDims.WF S50000x128 S50000x1 S50000x128 [1] [0] [] [0] [] 1 ![1, 128]
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.Inv.lean ====
/-
  The interfaces of the value proof, as statements only. The kernel's program runs five regions between stretches of
  host operations; the reference is one line of host operations whose every stage is a named function of the
  arguments. At each region's exit the buffers still to be read hold the reference's corresponding stages:
  the projected document features, the gathered author embeddings, the two index rows, the reciprocal clamped degrees,
  and the layer outputs. Each step from one exit to the next is proved separately against these statements.
-/
import proofs.«417221_j22522808500707_2_alg».proof.Proof.Gen.KernelIdeal.Frame
import proofs.«417221_j22522808500707_2_alg».proof.Proof.Gen.ReferenceIdeal.Read
import Idealize.ShloMosaic.PureOps.Ideal
import Idealize.ShloMosaic.Lib.ValueIdx

set_option maxRecDepth 16384

noncomputable section

namespace Cert.Bridge

open Idealize.ShloMosaic Idealize.ShloMosaic.TcCoe Idealize.SL.Sem Idealize.ShloMosaic.ValueIdx
open Cert.ReferenceIdeal.Read

/-- The kernel program's memory at the ideal instance. -/
abbrev KMem := (ℓ : Loc Cert.KernelIdeal.nD Cert.KernelIdeal.τ Cert.KernelIdeal.sig) → Buf (Elt Ideal) ℓ

variable (m : KMem) (ρ : Dev Cert.KernelIdeal.nD → PrngReg) (c : Dev Cert.KernelIdeal.nD)

/-! ## The argument arrays on device `c` -/
abbrev a0 : (⟨Cert.ReferenceIdeal.S100000x128, .f32⟩ : BufTy).Contents (Elt Ideal) := m ((c.tc : Thread Cert.KernelIdeal.nD Cert.KernelIdeal.τ).loc Cert.KernelIdeal.main_arg0)
abbrev a1 : (⟨Cert.ReferenceIdeal.S50000, .i32⟩ : BufTy).Contents (Elt Ideal) := m ((c.tc : Thread Cert.KernelIdeal.nD Cert.KernelIdeal.τ).loc Cert.KernelIdeal.main_arg1)
abbrev a2 : (⟨Cert.ReferenceIdeal.S2x500000, .i32⟩ : BufTy).Contents (Elt Ideal) := m ((c.tc : Thread Cert.KernelIdeal.nD Cert.KernelIdeal.τ).loc Cert.KernelIdeal.main_arg2)
abbrev a3 : (⟨Cert.ReferenceIdeal.S2x200000, .i32⟩ : BufTy).Contents (Elt Ideal) := m ((c.tc : Thread Cert.KernelIdeal.nD Cert.KernelIdeal.τ).loc Cert.KernelIdeal.main_arg3)
abbrev a4 : (⟨Cert.ReferenceIdeal.S128x128, .f32⟩ : BufTy).Contents (Elt Ideal) := m ((c.tc : Thread Cert.KernelIdeal.nD Cert.KernelIdeal.τ).loc Cert.KernelIdeal.main_arg4)
abbrev a5 : (⟨Cert.ReferenceIdeal.S128, .f32⟩ : BufTy).Contents (Elt Ideal) := m ((c.tc : Thread Cert.KernelIdeal.nD Cert.KernelIdeal.τ).loc Cert.KernelIdeal.main_arg5)
abbrev a6 : (⟨Cert.ReferenceIdeal.S50000x128, .f32⟩ : BufTy).Contents (Elt Ideal) := m ((c.tc : Thread Cert.KernelIdeal.nD Cert.KernelIdeal.τ).loc Cert.KernelIdeal.main_arg6)
abbrev a7 : (⟨Cert.ReferenceIdeal.S128x128, .f32⟩ : BufTy).Contents (Elt Ideal) := m ((c.tc : Thread Cert.KernelIdeal.nD Cert.KernelIdeal.τ).loc Cert.KernelIdeal.main_arg7)
abbrev a8 : (⟨Cert.ReferenceIdeal.S128, .f32⟩ : BufTy).Contents (Elt Ideal) := m ((c.tc : Thread Cert.KernelIdeal.nD Cert.KernelIdeal.τ).loc Cert.KernelIdeal.main_arg8)
abbrev a9 : (⟨Cert.ReferenceIdeal.S128x128, .f32⟩ : BufTy).Contents (Elt Ideal) := m ((c.tc : Thread Cert.KernelIdeal.nD Cert.KernelIdeal.τ).loc Cert.KernelIdeal.main_arg9)
abbrev a10 : (⟨Cert.ReferenceIdeal.S128x128, .f32⟩ : BufTy).Contents (Elt Ideal) := m ((c.tc : Thread Cert.KernelIdeal.nD Cert.KernelIdeal.τ).loc Cert.KernelIdeal.main_arg10)
abbrev a11 : (⟨Cert.ReferenceIdeal.S128, .f32⟩ : BufTy).Contents (Elt Ideal) := m ((c.tc : Thread Cert.KernelIdeal.nD Cert.KernelIdeal.τ).loc Cert.KernelIdeal.main_arg11)
abbrev a12 : (⟨Cert.ReferenceIdeal.S128x128, .f32⟩ : BufTy).Contents (Elt Ideal) := m ((c.tc : Thread Cert.KernelIdeal.nD Cert.KernelIdeal.τ).loc Cert.KernelIdeal.main_arg12)
abbrev a13 : (⟨Cert.ReferenceIdeal.S128x128, .f32⟩ : BufTy).Contents (Elt Ideal) := m ((c.tc : Thread Cert.KernelIdeal.nD Cert.KernelIdeal.τ).loc Cert.KernelIdeal.main_arg13)
abbrev a14 : (⟨Cert.ReferenceIdeal.S128, .f32⟩ : BufTy).Contents (Elt Ideal) := m ((c.tc : Thread Cert.KernelIdeal.nD Cert.KernelIdeal.τ).loc Cert.KernelIdeal.main_arg14)
abbrev a15 : (⟨Cert.ReferenceIdeal.S128x128, .f32⟩ : BufTy).Contents (Elt Ideal) := m ((c.tc : Thread Cert.KernelIdeal.nD Cert.KernelIdeal.τ).loc Cert.KernelIdeal.main_arg15)
abbrev a16 : (⟨Cert.ReferenceIdeal.S128x128, .f32⟩ : BufTy).Contents (Elt Ideal) := m ((c.tc : Thread Cert.KernelIdeal.nD Cert.KernelIdeal.τ).loc Cert.KernelIdeal.main_arg16)
abbrev a17 : (⟨Cert.ReferenceIdeal.S128, .f32⟩ : BufTy).Contents (Elt Ideal) := m ((c.tc : Thread Cert.KernelIdeal.nD Cert.KernelIdeal.τ).loc Cert.KernelIdeal.main_arg17)
abbrev a18 : (⟨Cert.ReferenceIdeal.S128x128, .f32⟩ : BufTy).Contents (Elt Ideal) := m ((c.tc : Thread Cert.KernelIdeal.nD Cert.KernelIdeal.τ).loc Cert.KernelIdeal.main_arg18)

/-! ## The reference's stages at those arguments -/
/-- Projected document features, [100000, 128]. -/
abbrev xdoc := val_main_v3 (F := Ideal) (a0 m c) (a4 m c) (a5 m c)
/-- Gathered author embeddings, [50000, 128]. -/
abbrev xauth := val_main_v10 (F := Ideal) (a1 m c) (a6 m c)
/-- Edge sources (documents) and destinations (authors), [500000] each. -/
abbrev esrc := val_main_v12 (F := Ideal) (a2 m c)
abbrev edst := val_main_v14 (F := Ideal) (a2 m c)
/-- In-degree clamped below by one: of authors [50000], of documents [100000]. -/
abbrev degA := val_main_v30 (F := Ideal) (a2 m c)
abbrev degD := val_main_v55 (F := Ideal) (a2 m c)
/-- Layer one, after the rectifier: authors [50000, 128], documents [100000, 128]. -/
abbrev hA := val_main_v65 (F := Ideal) (a0 m c) (a1 m c) (a2 m c) (a4 m c) (a5 m c) (a6 m c) (a7 m c) (a8 m c) (a9 m c)
abbrev hD := val_main_v66 (F := Ideal) (a0 m c) (a1 m c) (a2 m c) (a4 m c) (a5 m c) (a6 m c) (a10 m c) (a11 m c) (a12 m c)
/-- Layer two: authors, documents. -/
abbrev oA := val_main_v91 (F := Ideal) (a0 m c) (a1 m c) (a2 m c) (a4 m c) (a5 m c) (a6 m c) (a7 m c) (a8 m c) (a9 m c) (a10 m c) (a11 m c) (a12 m c) (a13 m c) (a14 m c) (a15 m c)
abbrev oD := val_main_v116 (F := Ideal) (a0 m c) (a1 m c) (a2 m c) (a4 m c) (a5 m c) (a6 m c) (a7 m c) (a8 m c) (a9 m c) (a10 m c) (a11 m c) (a12 m c) (a16 m c) (a17 m c) (a18 m c)
/-- Label rows, [200000] each, and the scores. -/
abbrev lab0 := val_main_v118 (F := Ideal) (a3 m c)
abbrev lab1 := val_main_v127 (F := Ideal) (a3 m c)
abbrev score := val_main_v136 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)

/-! ## Every index names a row of the array it indexes -/
structure IdxOk : Prop where
  author : ∀ i, 0 ≤ (a1 m c i).toInt ∧ (a1 m c i).toInt < 50000
  src : ∀ i, 0 ≤ (esrc m c i).toInt ∧ (esrc m c i).toInt < 100000
  dst : ∀ i, 0 ≤ (edst m c i).toInt ∧ (edst m c i).toInt < 50000
  lab0 : ∀ i, 0 ≤ (lab0 m c i).toInt ∧ (lab0 m c i).toInt < 100000
  lab1 : ∀ i, 0 ≤ (lab1 m c i).toInt ∧ (lab1 m c i).toInt < 50000

/-! ## What the live buffers hold at each region's exit -/
section
open Cert.KernelIdeal Cert.KernelIdeal.Gen
local notation "at2" => W2 (F := Ideal) m ρ c
local notation "at7" => W7 (F := Ideal) m ρ c
local notation "at10" => W10 (F := Ideal) m ρ c
local notation "at13" => W13 (F := Ideal) m ρ c
local notation "at16" => W16 (F := Ideal) m ρ c
local notation "at21" => W21 (F := Ideal) m ρ c

/-- After region 0. -/
structure Inv1 : Prop where
  arg1 : at2 (Proc.devRef .tc main_arg1) = a1 m c
  arg2 : at2 (Proc.devRef .tc main_arg2) = a2 m c
  arg3 : at2 (Proc.devRef .tc main_arg3) = a3 m c
  arg6 : at2 (Proc.devRef .tc main_arg6) = a6 m c
  arg7 : at2 (Proc.devRef .tc main_arg7) = a7 m c
  arg8 : at2 (Proc.devRef .tc main_arg8) = a8 m c
  arg9 : at2 (Proc.devRef .tc main_arg9) = a9 m c
  arg10 : at2 (Proc.devRef .tc main_arg10) = a10 m c
  arg11 : at2 (Proc.devRef .tc main_arg11) = a11 m c
  arg12 : at2 (Proc.devRef .tc main_arg12) = a12 m c
  arg13 : at2 (Proc.devRef .tc main_arg13) = a13 m c
  arg14 : at2 (Proc.devRef .tc main_arg14) = a14 m c
  arg15 : at2 (Proc.devRef .tc main_arg15) = a15 m c
  arg16 : at2 (Proc.devRef .tc main_arg16) = a16 m c
  arg17 : at2 (Proc.devRef .tc main_arg17) = a17 m c
  arg18 : at2 (Proc.devRef .tc main_arg18) = a18 m c
  xdoc : at2 (Proc.devRef .tc main_v1) = xdoc m c

/-- After region 1. -/
structure Inv2 : Prop where
  arg3 : at7 (Proc.devRef .tc main_arg3) = a3 m c
  arg10 : at7 (Proc.devRef .tc main_arg10) = a10 m c
  arg11 : at7 (Proc.devRef .tc main_arg11) = a11 m c
  arg12 : at7 (Proc.devRef .tc main_arg12) = a12 m c
  arg13 : at7 (Proc.devRef .tc main_arg13) = a13 m c
  arg14 : at7 (Proc.devRef .tc main_arg14) = a14 m c
  arg15 : at7 (Proc.devRef .tc main_arg15) = a15 m c
  arg16 : at7 (Proc.devRef .tc main_arg16) = a16 m c
  arg17 : at7 (Proc.devRef .tc main_arg17) = a17 m c
  arg18 : at7 (Proc.devRef .tc main_arg18) = a18 m c
  xdoc : at7 (Proc.devRef .tc main_v1) = xdoc m c
  xauth : at7 (Proc.devRef .tc main_v2) = xauth m c
  src : at7 (Proc.devRef .tc main_v4) = esrc m c
  dst : at7 (Proc.devRef .tc main_v6) = edst m c
  invA : ∀ p : Fin 50000, at7 (Proc.devRef .tc main_v15) (ix2 p (0 : Fin 1)) = Ideal.div 1 (degA m c (ix1 p))
  invD : ∀ p : Fin 100000, at7 (Proc.devRef .tc main_v24) (ix2 p (0 : Fin 1)) = Ideal.div 1 (degD m c (ix1 p))
  hA : at7 (Proc.devRef .tc main_v30) = hA m c

/-- After region 2. -/
structure Inv3 : Prop where
  arg3 : at10 (Proc.devRef .tc main_arg3) = a3 m c
  arg13 : at10 (Proc.devRef .tc main_arg13) = a13 m c
  arg14 : at10 (Proc.devRef .tc main_arg14) = a14 m c
  arg15 : at10 (Proc.devRef .tc main_arg15) = a15 m c
  arg16 : at10 (Proc.devRef .tc main_arg16) = a16 m c
  arg17 : at10 (Proc.devRef .tc main_arg17) = a17 m c
  arg18 : at10 (Proc.devRef .tc main_arg18) = a18 m c
  src : at10 (Proc.devRef .tc main_v4) = esrc m c
  dst : at10 (Proc.devRef .tc main_v6) = edst m c
  invA : ∀ p : Fin 50000, at10 (Proc.devRef .tc main_v15) (ix2 p (0 : Fin 1)) = Ideal.div 1 (degA m c (ix1 p))
  invD : ∀ p : Fin 100000, at10 (Proc.devRef .tc main_v24) (ix2 p (0 : Fin 1)) = Ideal.div 1 (degD m c (ix1 p))
  hA : at10 (Proc.devRef .tc main_v30) = hA m c
  hD : at10 (Proc.devRef .tc main_v36) = hD m c

/-- After region 3. -/
structure Inv4 : Prop where
  arg3 : at13 (Proc.devRef .tc main_arg3) = a3 m c
  arg16 : at13 (Proc.devRef .tc main_arg16) = a16 m c
  arg17 : at13 (Proc.devRef .tc main_arg17) = a17 m c
  arg18 : at13 (Proc.devRef .tc main_arg18) = a18 m c
  src : at13 (Proc.devRef .tc main_v4) = esrc m c
  dst : at13 (Proc.devRef .tc main_v6) = edst m c
  invD : ∀ p : Fin 100000, at13 (Proc.devRef .tc main_v24) (ix2 p (0 : Fin 1)) = Ideal.div 1 (degD m c (ix1 p))
  hA : at13 (Proc.devRef .tc main_v30) = hA m c
  hD : at13 (Proc.devRef .tc main_v36) = hD m c
  oA : at13 (Proc.devRef .tc main_v42) = oA m c

/-- After region 4. -/
structure Inv5 : Prop where
  arg3 : at16 (Proc.devRef .tc main_arg3) = a3 m c
  oA : at16 (Proc.devRef .tc main_v42) = oA m c
  oD : at16 (Proc.devRef .tc main_v48) = oD m c

/-- At the return: the result buffer holds the reference's scores. -/
def Final : Prop := at21 (Proc.devRef .tc main_v56) = score m c

end

end Cert.Bridge

end
-- ==== Proof.Pay.lean ====
/-
  The three kernel bodies read at one entry, over the extended reals. A change of float format is the identity and a
  matrix product into a zero accumulator is the plain sum over the contracted axis, so entry (p, q) of a block is:
  for the projection, the row of x against the column of w plus the bias; for a layer, the row of the aggregate scaled
  by that row's reciprocal degree against the column of the first weight, plus the bias, plus the row of the
  destination features against the column of the second weight, and for the first layer the larger of that and zero.
-/
import proofs.«417221_j22522808500707_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Bridge.Pay

open Cert.KernelIdeal Cert.KernelIdeal.Gen Idealize.ShloMosaic Idealize.ShloMosaic.TcCoe Idealize.ShloMosaic.ValueIdx

/-- The left operand's index of the product keeps the result's row. -/
theorem lhs_ax0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's index of the product has the contracted coordinate on its second axis. -/
theorem lhs_ax1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's index of the product has the contracted coordinate on its first axis. -/
theorem rhs_ax0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's index of the product keeps the result's column. -/
theorem rhs_ax1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into a zero accumulator, read at (p, q): the row of the left against the column of the right. -/
theorem mm_at {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q) = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- A one-row block spread down the rows, read at (p, q), is the row at q. -/
theorem brow_at {α : Type} (b : S1x128.Idx → α) (h : S1x128.Broadcasts S5000x128) (p : Fin 5000) (q : Fin 128) :
    broadcastTo S5000x128 b h (ix2 p q) = b (ix2 (0 : Fin 1) q) :=
  broadcastTo_apply b h (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A one-column block spread across the columns, read at (p, q), is the column at p. -/
theorem bcol_at {α : Type} (s : S5000x1.Idx → α) (h : S5000x1.Broadcasts S5000x128) (p : Fin 5000) (q : Fin 128) :
    broadcastTo S5000x128 s h (ix2 p q) = s (ix2 p (0 : Fin 1)) :=
  broadcastTo_apply s h (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- The projection's block at (p, q). -/
theorem lin_at (x : Vec Ideal S5000x128 .f32) (w : Vec Ideal S128x128 .f32) (b : Vec Ideal S1x128 .f32) (p : Fin 5000) (q : Fin 128) :
    k0_pay1 (F := Ideal) x w b (ix2 p q) = (∑ k : Fin 128, x (ix2 p k) * w (ix2 k q)) + b (ix2 (0 : Fin 1) q) := by
  unfold k0_pay1
  simp only [shapeCast_self]
  rw [addf_apply, mm_at, brow_at]
  simp only [truncf_apply]

/-- A second-layer block at (p, q): the sum itself. -/
theorem sage_at (a : Vec Ideal S5000x128 .f32) (s : Vec Ideal S5000x1 .f32) (x : Vec Ideal S5000x128 .f32)
    (wl wr : Vec Ideal S128x128 .f32) (bl : Vec Ideal S1x128 .f32) (p : Fin 5000) (q : Fin 128) :
    k3_pay1 (F := Ideal) a s x wl wr bl (ix2 p q) = ((∑ k : Fin 128, (a (ix2 p k) * s (ix2 p (0 : Fin 1))) * wl (ix2 k q)) + bl (ix2 (0 : Fin 1) q)) + ∑ k : Fin 128, x (ix2 p k) * wr (ix2 k q) := by
  unfold k3_pay1
  simp only [shapeCast_self]
  rw [addf_apply, addf_apply, mm_at, mm_at, brow_at]
  simp only [truncf_apply, mulf_apply, bcol_at]

/-- A first-layer block at (p, q): the rectified sum. -/
theorem sageRelu_at (a : Vec Ideal S5000x128 .f32) (s : Vec Ideal S5000x1 .f32) (x : Vec Ideal S5000x128 .f32)
    (wl wr : Vec Ideal S128x128 .f32) (bl : Vec Ideal S1x128 .f32) (p : Fin 5000) (q : Fin 128) :
    k1_pay1 (F := Ideal) a s x wl wr bl (ix2 p q) = max (((∑ k : Fin 128, (a (ix2 p k) * s (ix2 p (0 : Fin 1))) * wl (ix2 k q)) + bl (ix2 (0 : Fin 1) q)) + ∑ k : Fin 128, x (ix2 p k) * wr (ix2 k q)) 0 := by
  have h : k1_pay1 (F := Ideal) a s x wl wr bl (ix2 p q)
      = max (k3_pay1 (F := Ideal) a s x wl wr bl (ix2 p q)) (Ideal.ofBits .f32 0x00000000#32) := rfl
  rw [h, sage_at, Ideal.ofBits_zero_f32]

/-- The two first-layer bodies are one term, and so are the two second-layer bodies. -/
theorem k2_eq_k1 : @k2_pay1 Ideal _ = @k1_pay1 Ideal _ := rfl
theorem k4_eq_k3 : @k4_pay1 Ideal _ = @k3_pay1 Ideal _ := rfl

end Cert.Bridge.Pay

end
-- ==== Proof.Reg0.lean ====
/-
  Region 0's output array after the region, entry by entry, from the arrays the region is entered with: the projected features.
  Every grid point writes one block of 5000 rows; the blocks tile the 100000 rows, and the block that holds row p is
  point p / 5000, so the array's entry (p, q) is the body's entry (p mod 5000, q) of the blocks at that point.
-/
import proofs.«417221_j22522808500707_2_alg».proof.Proof.Gen.KernelIdeal.Frame
import proofs.«417221_j22522808500707_2_alg».proof.Proof.Pay
import Idealize.ShloMosaic.Lib.ValueIdx
import Idealize.ShloMosaic.Lib.Pipeline.Value

set_option maxRecDepth 16384

noncomputable section

namespace Cert.Bridge.Reg0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- `main_arg0` as the region finds it. -/
abbrev xs (c : Dev nD) : Vec Ideal S100000x128 .f32 := V c main_arg0
/-- `main_arg4` as the region finds it. -/
abbrev wt (c : Dev nD) : Vec Ideal S128x128 .f32 := V c main_arg4
/-- `main_v0` as the region finds it. -/
abbrev bias (c : Dev nD) : Vec Ideal S1x128 .f32 := V c main_v0

/-- The output array after the region, at its literal type. -/
abbrev outArr (c : Dev nD) : Vec Ideal S100000x128 .f32 := (dat0 (F := Ideal) V c).arrAt 3 cfg0.N

/-! ## The windows stage the arrays named above -/

example : Pipeline.arrRef spec0 0 = main_arg0 := rfl
example : Pipeline.arrRef spec0 1 = main_arg4 := rfl
example : Pipeline.arrRef spec0 2 = main_v0 := rfl
example : Pipeline.arrRef spec0 3 = main_v1 := rfl

/-! ## The whole array as one function of the index -/

/-- The projected features: row p of the features against column q of the weight, plus the bias at q. -/
abbrev proj (X : Vec Ideal S100000x128 .f32) (W : Vec Ideal S128x128 .f32) (B : Vec Ideal S1x128 .f32) :
    Vec Ideal S100000x128 .f32 :=
  fun i => (∑ k : Fin 128, X (ix2 (i 0) k) * W (ix2 k (i 1))) + B (ix2 (0 : Fin 1) (i 1))

/-- The two zero offsets, spelt as a vector or as a constant function. -/
theorem zero_off : (![0, 0] : Fin 2 → Nat) = fun _ => 0 := funext fun a => by fin_cases a <;> rfl

/-- The printed index maps over the grid: the row-blocked windows sit at block (t, 0), the small ones at block (0, 0). -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- One entry of a block of the body's payload is the projected features' entry, once the feature block's row is the
    array's row, the weight and bias blocks are the whole arrays, and the column is the same. -/
theorem block_entry (X : Vec Ideal S100000x128 .f32) (W : Vec Ideal S128x128 .f32) (B : Vec Ideal S1x128 .f32)
    (x : Vec Ideal S5000x128 .f32) (w : Vec Ideal S128x128 .f32) (b : Vec Ideal S1x128 .f32)
    (j : S5000x128.Idx) (i : S100000x128.Idx)
    (hx : ∀ k : Fin 128, x (ix2 (j 0) k) = X (ix2 (i 0) k)) (hw : w = W) (hb : b = B) (hq : j 1 = i 1) :
    k0_pay1 (F := Ideal) x w b j = proj X W B i := by
  subst hw hb
  have e : k0_pay1 (F := Ideal) x w b j = k0_pay1 (F := Ideal) x w b (ix2 (j 0) (j 1)) := congrArg _ (eq_ix2 j)
  refine e.trans ((Pay.lin_at x w b (j 0) (j 1)).trans ?_)
  show _ = (∑ k : Fin 128, X (ix2 (i 0) k) * w (ix2 k (i 1))) + b (ix2 (0 : Fin 1) (i 1))
  refine congrArg₂ (· + ·) (Finset.sum_congr rfl fun k _ => ?_) (congrArg (fun r => b (ix2 (0 : Fin 1) r)) hq)
  exact congrArg₂ (· * ·) (hx k) (congrArg (fun r => w (ix2 k r)) hq)

/-- What point t writes back is block t of the projected features of the arrays as the region finds them. -/
theorem flushed_eq (c : Dev nD) (t : Fin cfg0.N) :
    (dat0 (F := Ideal) V c).flushed 3 t
      = ((cfg0.win 3).blk t).view.read (Elt Ideal) (proj (xs V c) (wt V c) (bias V c)) := by
  show (cfg0.win 3).cut (grid0.coords t) ((dat0 (F := Ideal) V c).after 3 t) = _
  rw [after0_3]
  unfold out0_3
  rw [View.canon_unit_zero zero_off]
  simp only [View.ld_unit_zero (S := S5000x128) zero_off, View.ld_unit_zero (S := S128x128) zero_off,
    View.ld_unit_zero (S := S1x128) zero_off]
  obtain ⟨e00, e01, e10, e11, e20, e21, e30, e31⟩ := index_facts t
  funext j
  show k0_pay1 (F := Ideal) (iblk0 V c 0 t) (iblk0 V c 1 t) (iblk0 V c 2 t) j
    = proj (xs V c) (wt V c) (bias V c) (((cfg0.win 3).blk t).view.emb j)
  have hj0 : (j 0).val < 5000 := (j 0).isLt
  have hj1 : (j 1).val < 128 := (j 1).isLt
  refine block_entry (xs V c) (wt V c) (bias V c) (iblk0 V c 0 t) (iblk0 V c 1 t) (iblk0 V c 2 t) j
    (((cfg0.win 3).blk t).view.emb j) ?_ ?_ ?_ ?_
  · intro k
    show V c main_arg0 (((cfg0.win 0).blk t).view.emb (ix2 (j 0) k))
      = V c main_arg0 (ix2 ((((cfg0.win 3).blk t).view.emb j) 0) k)
    refine congrArg _ ?_
    funext a; apply Fin.ext
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * k.val = k.val
      omega
  · funext y
    show V c main_arg4 (((cfg0.win 1).blk t).view.emb y) = V c main_arg4 y
    refine congrArg _ ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v0 (((cfg0.win 2).blk t).view.emb y) = V c main_v0 y
    refine congrArg _ ?_
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  · apply Fin.ext
    show (j 1).val = win0_3.index t (1 : Fin 2) * 128 + 1 * (j 1).val
    omega

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every index of the array is in the block of the point its row divided by 5000 names. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_3 _, ?_⟩
  obtain ⟨e00, e01, e10, e11, e20, e21, e30, e31⟩ := index_facts ⟨(i 0).val / 5000, ht⟩
  have e30' : win0_3.index ⟨(i 0).val / 5000, ht⟩ (0 : Fin 2) = (i 0).val / 5000 := e30
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- The output array after the region is the projected features. -/
theorem out_eq (c : Dev nD) : outArr V c = proj (xs V c) (wt V c) (bias V c) :=
  (dat0 (F := Ideal) V c).arrAt_eq_of_cover 3 (proj (xs V c) (wt V c) (bias V c)) (fun t _ => flushed_eq V c t) covered

/-- The output array at (p, q). -/
theorem out_at (c : Dev nD) (p : Fin 100000) (q : Fin 128) :
    outArr V c (ix2 p q) = (∑ k : Fin 128, xs V c (ix2 p k) * wt V c (ix2 k q)) + bias V c (ix2 (0 : Fin 1) q) := by
  rw [out_eq]

end Cert.Bridge.Reg0

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.Step0.lean ====
/-
  From the launch to region 0's exit. The one host operation before the region reshapes the projection's bias to a
  row; the region writes the projected document features: entry (p, q) is the row p of the documents against column q
  of the weight, plus the bias at q — the reference's matrix product plus its broadcast bias, read at (p, q). Every
  argument the later stretches read is untouched: the reshape writes its own buffer and the region writes its output.
-/
import proofs.«417221_j22522808500707_2_alg».proof.Proof.Inv
import proofs.«417221_j22522808500707_2_alg».proof.Proof.Reg0
import proofs.«417221_j22522808500707_2_alg».proof.Proof.LibTRef
import Idealize.ShloMosaic.Lib.StableHlo.Run
import Idealize.ShloMosaic.Lib.ValueIdx
import Idealize.ShloMosaic.Lib.Pipeline.Value

set_option maxRecDepth 16384

noncomputable section

namespace Cert.Bridge.Step0

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

/-- The documents, the projection's weight and its bias as a row, as region 0 finds them. -/
theorem xs_eq : Cert.Bridge.Reg0.xs (V1 (F := Ideal) m ρ) c = a0 m c := by
  dsimp only [Cert.Bridge.Reg0.xs, V1, W1]; after_results
theorem wt_eq : Cert.Bridge.Reg0.wt (V1 (F := Ideal) m ρ) c = a4 m c := by
  dsimp only [Cert.Bridge.Reg0.wt, V1, W1]; after_results
theorem bias_eq : Cert.Bridge.Reg0.bias (V1 (F := Ideal) m ρ) c = shapeCast S1x128 (a5 m c) shapeCasts_S128_S1x128 := by
  dsimp only [Cert.Bridge.Reg0.bias, V1, W1]; after_results; rfl

/-- The projected features at region 0's exit are the reference's. -/
theorem xdoc_eq : W2 (F := Ideal) m ρ c (Proc.devRef .tc main_v1) = xdoc m c := by
  refine (W2_arr m ρ c 3).trans ?_
  funext i
  obtain ⟨p, q, rfl⟩ : ∃ (p : Fin 100000) (q : Fin 128), i = ix2 p q := ⟨i 0, i 1, eq_ix2 i⟩
  refine (Cert.Bridge.Reg0.out_at (V1 (F := Ideal) m ρ) c p q).trans ?_
  rw [xs_eq, wt_eq, bias_eq]
  -- the reshaped bias at (0, q) is the bias at q: the two indices have the same row-major position
  have hb : shapeCast S1x128 (a5 m c) shapeCasts_S128_S1x128 (ix2 (0 : Fin 1) q) = a5 m c (ix1 q) :=
    shapeCast_apply _ _ _ (ix1 q) (by rw [Shape.rowMajor_val_one, Shape.rowMajor_val_two]; simp)
  rw [hb]
  -- the reference at (p, q): its product is the sum over the contracted axis, its bias is broadcast along the rows
  show _ = val_main_v3 (F := Ideal) (a0 m c) (a4 m c) (a5 m c) (ix2 p q)
  rw [val_main_v3_apply, val_main_v0_apply, val_main_v2_apply, val_main_v1_apply]
  have el : ∀ k : Fin 128, lidx_main_v0 (ix2 p q) k = ix2 p k := fun k => funext fun a => Fin.ext (by
    match a with
    | ⟨0, _⟩ => rfl
    | ⟨1, _⟩ => rfl)
  have er : ∀ k : Fin 128, ridx_main_v0 (ix2 p q) k = ix2 k q := fun k => funext fun a => Fin.ext (by
    match a with
    | ⟨0, _⟩ => rfl
    | ⟨1, _⟩ => rfl)
  have eb : idx_main_v1 (idx_main_v2 (ix2 p q)) = ix1 q := funext fun a => Fin.ext (by
    match a with
    | ⟨0, _⟩ => rfl)
  simp only [el, er, eb]
  rfl

theorem inv1 : Inv1 m ρ c where
  arg1 := (W2_of_ne m ρ c main_arg1 (by decide)).trans (by dsimp only [W1]; after_results)
  arg2 := (W2_of_ne m ρ c main_arg2 (by decide)).trans (by dsimp only [W1]; after_results)
  arg3 := (W2_of_ne m ρ c main_arg3 (by decide)).trans (by dsimp only [W1]; after_results)
  arg6 := (W2_of_ne m ρ c main_arg6 (by decide)).trans (by dsimp only [W1]; after_results)
  arg7 := (W2_of_ne m ρ c main_arg7 (by decide)).trans (by dsimp only [W1]; after_results)
  arg8 := (W2_of_ne m ρ c main_arg8 (by decide)).trans (by dsimp only [W1]; after_results)
  arg9 := (W2_of_ne m ρ c main_arg9 (by decide)).trans (by dsimp only [W1]; after_results)
  arg10 := (W2_of_ne m ρ c main_arg10 (by decide)).trans (by dsimp only [W1]; after_results)
  arg11 := (W2_of_ne m ρ c main_arg11 (by decide)).trans (by dsimp only [W1]; after_results)
  arg12 := (W2_of_ne m ρ c main_arg12 (by decide)).trans (by dsimp only [W1]; after_results)
  arg13 := (W2_of_ne m ρ c main_arg13 (by decide)).trans (by dsimp only [W1]; after_results)
  arg14 := (W2_of_ne m ρ c main_arg14 (by decide)).trans (by dsimp only [W1]; after_results)
  arg15 := (W2_of_ne m ρ c main_arg15 (by decide)).trans (by dsimp only [W1]; after_results)
  arg16 := (W2_of_ne m ρ c main_arg16 (by decide)).trans (by dsimp only [W1]; after_results)
  arg17 := (W2_of_ne m ρ c main_arg17 (by decide)).trans (by dsimp only [W1]; after_results)
  arg18 := (W2_of_ne m ρ c main_arg18 (by decide)).trans (by dsimp only [W1]; after_results)
  xdoc := xdoc_eq m ρ c

end Cert.Bridge.Step0

end
-- ==== Proof.Take.lean ====
/-
  The kernel's row gathers. Each is a stretch of host operations that wraps a negative index by the table's height,
  gathers the rows, and replaces by a fill row every row whose wrapped index falls outside the table. When every
  index already names a row, the wrap changes nothing and the test passes on every row, so the stretch leaves exactly
  the gathered rows. The reference wraps the same way and gathers with no test; its wrap is the identity too.
-/
import proofs.«417221_j22522808500707_2_alg».proof.Proof.Gen.KernelIdeal.Frame
import proofs.«417221_j22522808500707_2_alg».proof.Proof.LibTRef
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.Bridge.Take

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]

/-- A signed compare of a word against zero, when the word is non-negative, is the bit 0. -/
theorem slt_zero_bit (a z : BitVec 32) (hz : z = 0#32) (h : 0 ≤ a.toInt) : IntOp.cmpi .slt a z = 0#1 := by
  subst hz
  unfold IntOp.cmpi
  have : a.slt 0#32 = false := by
    simp only [BitVec.slt, BitVec.toInt_zero, decide_eq_false_iff_not, not_lt]
    exact h
  rw [this]; rfl

/-- Wrapping a non-negative index by adding the table's height to the negative ones changes nothing. -/
theorem wrap_id {s : Shape} (idx zero hgt : IVec s 32) (hz : ∀ i, zero i = 0#32) (h : ∀ i, 0 ≤ (idx i).toInt) :
    select (cmpi .slt idx zero) (addi idx hgt) idx = idx := by
  funext i
  rw [select_apply]
  have hb : cmpi .slt idx zero i = 0#1 := slt_zero_bit (idx i) (zero i) (hz i) (h i)
  rw [hb, select_zero]

/-- The two range tests of a word between two bounds, and-ed, are the bit 1. -/
theorem inrange_bit (a lo hi : BitVec 32) (h1 : lo.toInt ≤ a.toInt) (h2 : a.toInt ≤ hi.toInt) :
    IntOp.andi (IntOp.cmpi .sge a lo) (IntOp.cmpi .sle a hi) = 1#1 := by
  have e1 : lo.sle a = true := by simp only [BitVec.sle, decide_eq_true_eq]; exact h1
  have e2 : a.sle hi = true := by simp only [BitVec.sle, decide_eq_true_eq]; exact h2
  have c1 : IntOp.cmpi .sge a lo = 1#1 := by
    show BitVec.ofBool (lo.sle a) = 1#1
    rw [e1]; rfl
  have c2 : IntOp.cmpi .sle a hi = 1#1 := by
    show BitVec.ofBool (a.sle hi) = 1#1
    rw [e2]; rfl
  rw [c1, c2]; decide

/-- An and-reduction of all-ones bits from the bit 1 is the bit 1, along any axes. -/
theorem reduce_and_ones {s t u : Shape} {axes : List (Fin s.rank)} (x : IVec s 1) (init : IVec u 1) (h : s.ReducesTo axes t) (hu : 0 < u.numel)
    (hx : ∀ i, x i = 1#1) (hi : ∀ k, init k = 1#1) (j : t.Idx) : Host.reduce IntOp.andi x init h hu j = 1#1 := by
  classical
  rw [Host.reduce_eq_fold, hi]
  induction (Finset.univ.filter fun i => h.drop i = j) using Finset.cons_induction with
  | empty => rfl
  | cons a S ha ih => rw [Finset.fold_cons, ih, hx]; rfl

/-- The whole gather stretch over any shapes: with every index inside the table, the wrapped index is the index and the
    validity mask is all ones, so the masked gather is the gather. -/
theorem take_core {α : Type} {s c r tb z o oo : Shape} (idx : IVec s 32) (x : tb.Idx → α) (fill : r.Idx → α) (hgt top : BitVec 32)
    (dz : Fin z.rank → Fin s.rank) (bz : z.BroadcastsInDim s dz)
    (dc : Fin s.rank → Fin c.rank) (bc : s.BroadcastsInDim c dc)
    (dzc : Fin z.rank → Fin c.rank) (bzc : z.BroadcastsInDim c dzc)
    (doo : Fin o.rank → Fin oo.rank) (boo : o.BroadcastsInDim oo doo)
    (dooc : Fin oo.rank → Fin c.rank) (booc : oo.BroadcastsInDim c dooc)
    (axes : List (Fin c.rank)) (red : c.ReducesTo axes s) (hz : 0 < z.numel)
    (dr : Fin s.rank → Fin r.rank) (br : s.BroadcastsInDim r dr)
    (g : GatherDims tb c r)
    (hlo : ∀ i, 0 ≤ (idx i).toInt) (hhi : ∀ i, (idx i).toInt ≤ top.toInt) :
    select
        (broadcastInDim r dr br
          (Host.reduce IntOp.andi
            (andi
              (cmpi .sge
                (broadcastInDim c dc bc
                  (select (cmpi .slt idx (broadcastInDim s dz bz (constantI z 32 0#32)))
                    (addi idx (broadcastInDim s dz bz (constantI z 32 hgt))) idx))
                (broadcastInDim c dzc bzc (constantI z 32 0#32)))
              (cmpi .sle
                (broadcastInDim c dc bc
                  (select (cmpi .slt idx (broadcastInDim s dz bz (constantI z 32 0#32)))
                    (addi idx (broadcastInDim s dz bz (constantI z 32 hgt))) idx))
                (broadcastInDim c dooc booc (broadcastInDim oo doo boo (constantI o 32 top)))))
            (constantI z 1 1#1) red hz))
        (Host.gather g x
          (broadcastInDim c dc bc
            (select (cmpi .slt idx (broadcastInDim s dz bz (constantI z 32 0#32)))
              (addi idx (broadcastInDim s dz bz (constantI z 32 hgt))) idx)))
        fill
      = Host.gather g x (broadcastInDim c dc bc idx) := by
  rw [wrap_id idx (broadcastInDim s dz bz (constantI z 32 0#32)) (broadcastInDim s dz bz (constantI z 32 hgt)) (fun _ => rfl) hlo]
  funext j
  rw [select_apply]
  have hm : broadcastInDim r dr br
          (Host.reduce IntOp.andi
            (andi
              (cmpi .sge (broadcastInDim c dc bc idx) (broadcastInDim c dzc bzc (constantI z 32 0#32)))
              (cmpi .sle (broadcastInDim c dc bc idx)
                (broadcastInDim c dooc booc (broadcastInDim oo doo boo (constantI o 32 top)))))
            (constantI z 1 1#1) red hz) j = 1#1 := by
    unfold broadcastInDim
    refine reduce_and_ones _ _ red hz (fun i => ?_) (fun _ => rfl) _
    exact inrange_bit _ _ _ (hlo _) (hhi _)
  rw [hm, select_one]

set_option maxHeartbeats 4000000 in
/-- Rows of `main_arg6` at the indices `main_arg1`, each in [0, 50000). -/
theorem take_author (V : Valuation τ sig (Elt F))
    (h : ∀ i : S50000.Idx, 0 ≤ ((V (Proc.devRef .tc main_arg1) : IVec S50000 32) i).toInt ∧ ((V (Proc.devRef .tc main_arg1) : IVec S50000 32) i).toInt < 50000) :
    StableHlo.after (hostOps1 (F := F)) V (Proc.devRef .tc main_v2)
      = Host.gather gather_S50000x128_S50000x1_S50000x128_1_0_n_n_0_1_1128 (V (Proc.devRef .tc main_arg6)) (broadcastInDim S50000x1 ![0] bcast_S50000_S50000x1_0 (V (Proc.devRef .tc main_arg1))) := by
  after_results
  simp only [StableHlo.TRef.ofBuf_toBuf]
  -- the contents of the index row and of the table, read at their own types, are themselves
  have eidx : (TRef.of main_arg1 rfl (by decide) rfl : TRef sig ⟨S50000, .i32⟩).ofBuf (V (Proc.devRef .tc main_arg1))
      = (V (Proc.devRef .tc main_arg1) : IVec S50000 32) := rfl
  have etbl : (TRef.of main_arg6 rfl (by decide) rfl : TRef sig ⟨S50000x128, .f32⟩).ofBuf (V (Proc.devRef .tc main_arg6))
      = V (Proc.devRef .tc main_arg6) := rfl
  rw [eidx, etbl]
  -- and so is the result, written at its own type
  have eres : ∀ v : (⟨S50000x128, .f32⟩ : BufTy).Contents (Elt F),
      (TRef.of main_v2 rfl (by decide) rfl : TRef sig ⟨S50000x128, .f32⟩).toBuf v = v := fun _ => rfl
  rw [eres]
  have top : (49999#32 : BitVec 32).toInt = 49999 := by decide
  exact take_core (α := Elt F .f32) (s := S50000) (c := S50000x1) (r := S50000x128) (tb := S50000x128) (z := S_) (o := S1) (oo := S1x1)
    (V (Proc.devRef .tc main_arg1)) (V (Proc.devRef .tc main_arg6)) _ 50000#32 49999#32
    ![] bcast_S_S50000 ![0] bcast_S50000_S50000x1_0 ![] bcast_S_S50000x1 ![1] bcast_S1_S1x1_1 ![0, 1] bcast_S1x1_S50000x1_0_1
    [1] reducesTo_S50000x1_S50000_d1 h_S_ ![0] bcast_S50000_S50000x128_0
    gather_S50000x128_S50000x1_S50000x128_1_0_n_n_0_1_1128
    (fun i => (h i).1) (fun i => by have := (h i).2; omega)

set_option maxHeartbeats 4000000 in
/-- Rows of `main_v1` at the indices `main_v4`, each in [0, 100000). -/
theorem take_xdoc_src (V : Valuation τ sig (Elt F))
    (h : ∀ i : S500000.Idx, 0 ≤ ((V (Proc.devRef .tc main_v4) : IVec S500000 32) i).toInt ∧ ((V (Proc.devRef .tc main_v4) : IVec S500000 32) i).toInt < 100000) :
    StableHlo.after (hostOps1_2 (F := F)) V (Proc.devRef .tc main_v25)
      = Host.gather gather_S100000x128_S500000x1_S500000x128_1_0_n_n_0_1_1128 (V (Proc.devRef .tc main_v1)) (broadcastInDim S500000x1 ![0] bcast_S500000_S500000x1_0 (V (Proc.devRef .tc main_v4))) := by
  after_results
  simp only [StableHlo.TRef.ofBuf_toBuf]
  -- the contents of the index row and of the table, read at their own types, are themselves
  have eidx : (TRef.of main_v4 rfl (by decide) rfl : TRef sig ⟨S500000, .i32⟩).ofBuf (V (Proc.devRef .tc main_v4))
      = (V (Proc.devRef .tc main_v4) : IVec S500000 32) := rfl
  have etbl : (TRef.of main_v1 rfl (by decide) rfl : TRef sig ⟨S100000x128, .f32⟩).ofBuf (V (Proc.devRef .tc main_v1))
      = V (Proc.devRef .tc main_v1) := rfl
  rw [eidx, etbl]
  -- and so is the result, written at its own type
  have eres : ∀ v : (⟨S500000x128, .f32⟩ : BufTy).Contents (Elt F),
      (TRef.of main_v25 rfl (by decide) rfl : TRef sig ⟨S500000x128, .f32⟩).toBuf v = v := fun _ => rfl
  rw [eres]
  have top : (99999#32 : BitVec 32).toInt = 99999 := by decide
  exact take_core (α := Elt F .f32) (s := S500000) (c := S500000x1) (r := S500000x128) (tb := S100000x128) (z := S_) (o := S1) (oo := S1x1)
    (V (Proc.devRef .tc main_v4)) (V (Proc.devRef .tc main_v1)) _ 100000#32 99999#32
    ![] bcast_S_S500000 ![0] bcast_S500000_S500000x1_0 ![] bcast_S_S500000x1 ![1] bcast_S1_S1x1_1 ![0, 1] bcast_S1x1_S500000x1_0_1
    [1] reducesTo_S500000x1_S500000_d1 h_S_ ![0] bcast_S500000_S500000x128_0
    gather_S100000x128_S500000x1_S500000x128_1_0_n_n_0_1_1128
    (fun i => (h i).1) (fun i => by have := (h i).2; omega)

set_option maxHeartbeats 4000000 in
/-- Rows of `main_v2` at the indices `main_v6`, each in [0, 50000). -/
theorem take_xauth_dst (V : Valuation τ sig (Elt F))
    (h : ∀ i : S500000.Idx, 0 ≤ ((V (Proc.devRef .tc main_v6) : IVec S500000 32) i).toInt ∧ ((V (Proc.devRef .tc main_v6) : IVec S500000 32) i).toInt < 50000) :
    StableHlo.after (hostOps2 (F := F)) V (Proc.devRef .tc main_v31)
      = Host.gather gather_S50000x128_S500000x1_S500000x128_1_0_n_n_0_1_1128 (V (Proc.devRef .tc main_v2)) (broadcastInDim S500000x1 ![0] bcast_S500000_S500000x1_0 (V (Proc.devRef .tc main_v6))) := by
  after_results
  simp only [StableHlo.TRef.ofBuf_toBuf]
  -- the contents of the index row and of the table, read at their own types, are themselves
  have eidx : (TRef.of main_v6 rfl (by decide) rfl : TRef sig ⟨S500000, .i32⟩).ofBuf (V (Proc.devRef .tc main_v6))
      = (V (Proc.devRef .tc main_v6) : IVec S500000 32) := rfl
  have etbl : (TRef.of main_v2 rfl (by decide) rfl : TRef sig ⟨S50000x128, .f32⟩).ofBuf (V (Proc.devRef .tc main_v2))
      = V (Proc.devRef .tc main_v2) := rfl
  rw [eidx, etbl]
  -- and so is the result, written at its own type
  have eres : ∀ v : (⟨S500000x128, .f32⟩ : BufTy).Contents (Elt F),
      (TRef.of main_v31 rfl (by decide) rfl : TRef sig ⟨S500000x128, .f32⟩).toBuf v = v := fun _ => rfl
  rw [eres]
  have top : (49999#32 : BitVec 32).toInt = 49999 := by decide
  exact take_core (α := Elt F .f32) (s := S500000) (c := S500000x1) (r := S500000x128) (tb := S50000x128) (z := S_) (o := S1) (oo := S1x1)
    (V (Proc.devRef .tc main_v6)) (V (Proc.devRef .tc main_v2)) _ 50000#32 49999#32
    ![] bcast_S_S500000 ![0] bcast_S500000_S500000x1_0 ![] bcast_S_S500000x1 ![1] bcast_S1_S1x1_1 ![0, 1] bcast_S1x1_S500000x1_0_1
    [1] reducesTo_S500000x1_S500000_d1 h_S_ ![0] bcast_S500000_S500000x128_0
    gather_S50000x128_S500000x1_S500000x128_1_0_n_n_0_1_1128
    (fun i => (h i).1) (fun i => by have := (h i).2; omega)

set_option maxHeartbeats 4000000 in
/-- Rows of `main_v36` at the indices `main_v4`, each in [0, 100000). -/
theorem take_hD_src (V : Valuation τ sig (Elt F))
    (h : ∀ i : S500000.Idx, 0 ≤ ((V (Proc.devRef .tc main_v4) : IVec S500000 32) i).toInt ∧ ((V (Proc.devRef .tc main_v4) : IVec S500000 32) i).toInt < 100000) :
    StableHlo.after (hostOps3 (F := F)) V (Proc.devRef .tc main_v37)
      = Host.gather gather_S100000x128_S500000x1_S500000x128_1_0_n_n_0_1_1128 (V (Proc.devRef .tc main_v36)) (broadcastInDim S500000x1 ![0] bcast_S500000_S500000x1_0 (V (Proc.devRef .tc main_v4))) := by
  after_results
  simp only [StableHlo.TRef.ofBuf_toBuf]
  -- the contents of the index row and of the table, read at their own types, are themselves
  have eidx : (TRef.of main_v4 rfl (by decide) rfl : TRef sig ⟨S500000, .i32⟩).ofBuf (V (Proc.devRef .tc main_v4))
      = (V (Proc.devRef .tc main_v4) : IVec S500000 32) := rfl
  have etbl : (TRef.of main_v36 rfl (by decide) rfl : TRef sig ⟨S100000x128, .f32⟩).ofBuf (V (Proc.devRef .tc main_v36))
      = V (Proc.devRef .tc main_v36) := rfl
  rw [eidx, etbl]
  -- and so is the result, written at its own type
  have eres : ∀ v : (⟨S500000x128, .f32⟩ : BufTy).Contents (Elt F),
      (TRef.of main_v37 rfl (by decide) rfl : TRef sig ⟨S500000x128, .f32⟩).toBuf v = v := fun _ => rfl
  rw [eres]
  have top : (99999#32 : BitVec 32).toInt = 99999 := by decide
  exact take_core (α := Elt F .f32) (s := S500000) (c := S500000x1) (r := S500000x128) (tb := S100000x128) (z := S_) (o := S1) (oo := S1x1)
    (V (Proc.devRef .tc main_v4)) (V (Proc.devRef .tc main_v36)) _ 100000#32 99999#32
    ![] bcast_S_S500000 ![0] bcast_S500000_S500000x1_0 ![] bcast_S_S500000x1 ![1] bcast_S1_S1x1_1 ![0, 1] bcast_S1x1_S500000x1_0_1
    [1] reducesTo_S500000x1_S500000_d1 h_S_ ![0] bcast_S500000_S500000x128_0
    gather_S100000x128_S500000x1_S500000x128_1_0_n_n_0_1_1128
    (fun i => (h i).1) (fun i => by have := (h i).2; omega)

set_option maxHeartbeats 4000000 in
/-- Rows of `main_v30` at the indices `main_v6`, each in [0, 50000). -/
theorem take_hA_dst (V : Valuation τ sig (Elt F))
    (h : ∀ i : S500000.Idx, 0 ≤ ((V (Proc.devRef .tc main_v6) : IVec S500000 32) i).toInt ∧ ((V (Proc.devRef .tc main_v6) : IVec S500000 32) i).toInt < 50000) :
    StableHlo.after (hostOps4 (F := F)) V (Proc.devRef .tc main_v43)
      = Host.gather gather_S50000x128_S500000x1_S500000x128_1_0_n_n_0_1_1128 (V (Proc.devRef .tc main_v30)) (broadcastInDim S500000x1 ![0] bcast_S500000_S500000x1_0 (V (Proc.devRef .tc main_v6))) := by
  after_results
  simp only [StableHlo.TRef.ofBuf_toBuf]
  -- the contents of the index row and of the table, read at their own types, are themselves
  have eidx : (TRef.of main_v6 rfl (by decide) rfl : TRef sig ⟨S500000, .i32⟩).ofBuf (V (Proc.devRef .tc main_v6))
      = (V (Proc.devRef .tc main_v6) : IVec S500000 32) := rfl
  have etbl : (TRef.of main_v30 rfl (by decide) rfl : TRef sig ⟨S50000x128, .f32⟩).ofBuf (V (Proc.devRef .tc main_v30))
      = V (Proc.devRef .tc main_v30) := rfl
  rw [eidx, etbl]
  -- and so is the result, written at its own type
  have eres : ∀ v : (⟨S500000x128, .f32⟩ : BufTy).Contents (Elt F),
      (TRef.of main_v43 rfl (by decide) rfl : TRef sig ⟨S500000x128, .f32⟩).toBuf v = v := fun _ => rfl
  rw [eres]
  have top : (49999#32 : BitVec 32).toInt = 49999 := by decide
  exact take_core (α := Elt F .f32) (s := S500000) (c := S500000x1) (r := S500000x128) (tb := S50000x128) (z := S_) (o := S1) (oo := S1x1)
    (V (Proc.devRef .tc main_v6)) (V (Proc.devRef .tc main_v30)) _ 50000#32 49999#32
    ![] bcast_S_S500000 ![0] bcast_S500000_S500000x1_0 ![] bcast_S_S500000x1 ![1] bcast_S1_S1x1_1 ![0, 1] bcast_S1x1_S500000x1_0_1
    [1] reducesTo_S500000x1_S500000_d1 h_S_ ![0] bcast_S500000_S500000x128_0
    gather_S50000x128_S500000x1_S500000x128_1_0_n_n_0_1_1128
    (fun i => (h i).1) (fun i => by have := (h i).2; omega)

set_option maxHeartbeats 4000000 in
/-- Rows of `main_v48` at the indices `main_v50`, each in [0, 100000). -/
theorem take_oD_lab0 (V : Valuation τ sig (Elt F))
    (h : ∀ i : S200000.Idx, 0 ≤ ((V (Proc.devRef .tc main_v50) : IVec S200000 32) i).toInt ∧ ((V (Proc.devRef .tc main_v50) : IVec S200000 32) i).toInt < 100000) :
    StableHlo.after (hostOps5_1 (F := F)) V (Proc.devRef .tc main_v51)
      = Host.gather gather_S100000x128_S200000x1_S200000x128_1_0_n_n_0_1_1128 (V (Proc.devRef .tc main_v48)) (broadcastInDim S200000x1 ![0] bcast_S200000_S200000x1_0 (V (Proc.devRef .tc main_v50))) := by
  after_results
  simp only [StableHlo.TRef.ofBuf_toBuf]
  -- the contents of the index row and of the table, read at their own types, are themselves
  have eidx : (TRef.of main_v50 rfl (by decide) rfl : TRef sig ⟨S200000, .i32⟩).ofBuf (V (Proc.devRef .tc main_v50))
      = (V (Proc.devRef .tc main_v50) : IVec S200000 32) := rfl
  have etbl : (TRef.of main_v48 rfl (by decide) rfl : TRef sig ⟨S100000x128, .f32⟩).ofBuf (V (Proc.devRef .tc main_v48))
      = V (Proc.devRef .tc main_v48) := rfl
  rw [eidx, etbl]
  -- and so is the result, written at its own type
  have eres : ∀ v : (⟨S200000x128, .f32⟩ : BufTy).Contents (Elt F),
      (TRef.of main_v51 rfl (by decide) rfl : TRef sig ⟨S200000x128, .f32⟩).toBuf v = v := fun _ => rfl
  rw [eres]
  have top : (99999#32 : BitVec 32).toInt = 99999 := by decide
  exact take_core (α := Elt F .f32) (s := S200000) (c := S200000x1) (r := S200000x128) (tb := S100000x128) (z := S_) (o := S1) (oo := S1x1)
    (V (Proc.devRef .tc main_v50)) (V (Proc.devRef .tc main_v48)) _ 100000#32 99999#32
    ![] bcast_S_S200000 ![0] bcast_S200000_S200000x1_0 ![] bcast_S_S200000x1 ![1] bcast_S1_S1x1_1 ![0, 1] bcast_S1x1_S200000x1_0_1
    [1] reducesTo_S200000x1_S200000_d1 h_S_ ![0] bcast_S200000_S200000x128_0
    gather_S100000x128_S200000x1_S200000x128_1_0_n_n_0_1_1128
    (fun i => (h i).1) (fun i => by have := (h i).2; omega)

set_option maxHeartbeats 4000000 in
/-- Rows of `main_v42` at the indices `main_v53`, each in [0, 50000). -/
theorem take_oA_lab1 (V : Valuation τ sig (Elt F))
    (h : ∀ i : S200000.Idx, 0 ≤ ((V (Proc.devRef .tc main_v53) : IVec S200000 32) i).toInt ∧ ((V (Proc.devRef .tc main_v53) : IVec S200000 32) i).toInt < 50000) :
    StableHlo.after (hostOps5_3 (F := F)) V (Proc.devRef .tc main_v54)
      = Host.gather gather_S50000x128_S200000x1_S200000x128_1_0_n_n_0_1_1128 (V (Proc.devRef .tc main_v42)) (broadcastInDim S200000x1 ![0] bcast_S200000_S200000x1_0 (V (Proc.devRef .tc main_v53))) := by
  after_results
  simp only [StableHlo.TRef.ofBuf_toBuf]
  -- the contents of the index row and of the table, read at their own types, are themselves
  have eidx : (TRef.of main_v53 rfl (by decide) rfl : TRef sig ⟨S200000, .i32⟩).ofBuf (V (Proc.devRef .tc main_v53))
      = (V (Proc.devRef .tc main_v53) : IVec S200000 32) := rfl
  have etbl : (TRef.of main_v42 rfl (by decide) rfl : TRef sig ⟨S50000x128, .f32⟩).ofBuf (V (Proc.devRef .tc main_v42))
      = V (Proc.devRef .tc main_v42) := rfl
  rw [eidx, etbl]
  -- and so is the result, written at its own type
  have eres : ∀ v : (⟨S200000x128, .f32⟩ : BufTy).Contents (Elt F),
      (TRef.of main_v54 rfl (by decide) rfl : TRef sig ⟨S200000x128, .f32⟩).toBuf v = v := fun _ => rfl
  rw [eres]
  have top : (49999#32 : BitVec 32).toInt = 49999 := by decide
  exact take_core (α := Elt F .f32) (s := S200000) (c := S200000x1) (r := S200000x128) (tb := S50000x128) (z := S_) (o := S1) (oo := S1x1)
    (V (Proc.devRef .tc main_v53)) (V (Proc.devRef .tc main_v42)) _ 50000#32 49999#32
    ![] bcast_S_S200000 ![0] bcast_S200000_S200000x1_0 ![] bcast_S_S200000x1 ![1] bcast_S1_S1x1_1 ![0, 1] bcast_S1x1_S200000x1_0_1
    [1] reducesTo_S200000x1_S200000_d1 h_S_ ![0] bcast_S200000_S200000x128_0
    gather_S50000x128_S200000x1_S200000x128_1_0_n_n_0_1_1128
    (fun i => (h i).1) (fun i => by have := (h i).2; omega)

end Cert.Bridge.Take

end
-- ==== Proof.LibIdealDiv.lean ====
/-
  Over the extended reals, with the convention that a quotient by zero is an infinity by the sign of the numerator and
  every other quotient is the product with the inverse: dividing by a nonzero d is multiplying by the quotient of one
  by d. A number clamped below by one is at least one, so it is not zero.
-/
import Idealize.ShloMosaic.PureOps.Ideal

namespace Idealize.ShloMosaic.Ideal

/-- Multiplying by `1 / d` is dividing by `d`, for every nonzero `d` (finite or not). -/
theorem mul_div_one_eq_div (x d : EReal) (hd : d ≠ 0) : x * Ideal.div 1 d = Ideal.div x d := by
  unfold Ideal.div
  rw [if_neg hd, if_neg hd, one_mul]

/-- A value clamped below by one is not zero. -/
theorem max_one_ne_zero (d : EReal) : max d 1 ≠ 0 :=
  (lt_of_lt_of_le zero_lt_one (le_max_right d 1)).ne'

/-- The single-precision word of one denotes one. -/
theorem ofBits_one_f32 : Ideal.ofBits .f32 0x3F800000#32 = 1 := by
  simp [Ideal.ofBits, Ideal.ieee, -EReal.coe_mul]; norm_num

end Idealize.ShloMosaic.Ideal
-- ==== Proof.Step1a.lean ====
/-
  From region 0's exit to region 1's entry: the four stretches of host operations between the two regions. The host
  gathers the author embeddings, cuts the edge list into its two rows, counts each node's edges and takes the
  reciprocal of the count clamped below by one, gathers the document features along the edges and sums them per author.

  The gathers and scatter-adds are never read at an index: the kernel's and the reference's are the same operation on
  arrays shown equal as arrays, the reference's wrap of a non-negative index being the identity. Every buffer a stretch
  of host operations does not write is carried across it from the list of the buffers it does write.
-/
import proofs.«417221_j22522808500707_2_alg».proof.Proof.Inv
import proofs.«417221_j22522808500707_2_alg».proof.Proof.Take
import proofs.«417221_j22522808500707_2_alg».proof.Proof.LibTRef
import proofs.«417221_j22522808500707_2_alg».proof.Proof.LibIdealDiv
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.Bridge.Step1

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

/-! ## What each stretch of host operations writes, and what it therefore leaves alone -/

/-- The buffers the author gather's stretch writes. -/
abbrev wrA : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v2]
/-- The buffers the index rows' and degrees' stretch writes. -/
abbrev wrB : List (Ref sig .tc) :=
  [main_v3, main_v4, main_v5, main_v6, main_cst, main_v7, main_cst_0, main_v8, main_v9, main_v10, main_cst_1, main_v11, main_v12,
   main_cst_2, main_v13, main_v14, main_v15, main_cst_3, main_v16, main_cst_4, main_v17, main_v18, main_v19, main_cst_5, main_v20,
   main_v21, main_cst_6, main_v22, main_v23, main_v24]
/-- The buffers the document gather's stretch writes. -/
abbrev wrC : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v25]
/-- The buffers the aggregate's stretch writes. -/
abbrev wrD : List (Ref sig .tc) := [main_cst_7, main_v26, main_v27, main_v28, main_v29]

theorem wrA_writes : (hostOps1 (F := Ideal)).Forall fun op => op.writes ⊆ (wrA.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wrB_writes : (hostOps1_1 (F := Ideal)).Forall fun op => op.writes ⊆ (wrB.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wrC_writes : (hostOps1_2 (F := Ideal)).Forall fun op => op.writes ⊆ (wrC.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wrD_writes : (hostOps1_3 (F := Ideal)).Forall fun op => op.writes ⊆ (wrD.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A buffer a stretch does not write holds after it what it held before. -/
theorem keepA (r : Ref sig .tc) (h : r ∉ wrA) :
    W3 (F := Ideal) m ρ c (Proc.devRef .tc r) = W2 (F := Ideal) m ρ c (Proc.devRef .tc r) :=
  StableHlo.after_of_writes_sub hostOps1 _ wrA_writes h
theorem keepB (r : Ref sig .tc) (h : r ∉ wrB) :
    W4 (F := Ideal) m ρ c (Proc.devRef .tc r) = W3 (F := Ideal) m ρ c (Proc.devRef .tc r) :=
  StableHlo.after_of_writes_sub hostOps1_1 _ wrB_writes h
theorem keepC (r : Ref sig .tc) (h : r ∉ wrC) :
    W5 (F := Ideal) m ρ c (Proc.devRef .tc r) = W4 (F := Ideal) m ρ c (Proc.devRef .tc r) :=
  StableHlo.after_of_writes_sub hostOps1_2 _ wrC_writes h
theorem keepD (r : Ref sig .tc) (h : r ∉ wrD) :
    W6 (F := Ideal) m ρ c (Proc.devRef .tc r) = W5 (F := Ideal) m ρ c (Proc.devRef .tc r) :=
  StableHlo.after_of_writes_sub hostOps1_3 _ wrD_writes h

/-- A buffer none of the four stretches writes holds at region 1's entry what it held at region 0's exit. -/
theorem keepAll (r : Ref sig .tc) (hA : r ∉ wrA) (hB : r ∉ wrB) (hC : r ∉ wrC) (hD : r ∉ wrD) :
    W6 (F := Ideal) m ρ c (Proc.devRef .tc r) = W2 (F := Ideal) m ρ c (Proc.devRef .tc r) :=
  (keepD m ρ c r hD).trans ((keepC m ρ c r hC).trans ((keepB m ρ c r hB).trans (keepA m ρ c r hA)))

/-- An argument region 1 does not stage holds at its exit what it held at region 0's exit. -/
theorem arg_through (r : Ref sig .tc) (h7 : ∀ w, Pipeline.arrRef spec1 w ≠ r) (hA : r ∉ wrA) (hB : r ∉ wrB) (hC : r ∉ wrC) (hD : r ∉ wrD) :
    W7 (F := Ideal) m ρ c (Proc.devRef .tc r) = W2 (F := Ideal) m ρ c (Proc.devRef .tc r) :=
  (W7_of_ne m ρ c r h7).trans (keepAll m ρ c r hA hB hC hD)

/-! ## The index rows and the reciprocal clamped degrees, as the second stretch leaves them -/

/-- The edge sources: row 0 of the edge list. -/
theorem src_W4 (h : Inv1 m ρ c) : W4 (F := Ideal) m ρ c (Proc.devRef .tc main_v4) = esrc m c := by
  dsimp only [W4]
  after_results
  rw [h.arg2]
  rfl

/-- The edge destinations: row 1 of the edge list. -/
theorem dst_W4 (h : Inv1 m ρ c) : W4 (F := Ideal) m ρ c (Proc.devRef .tc main_v6) = edst m c := by
  dsimp only [W4]
  after_results
  rw [h.arg2]
  rfl

/-- The column of reciprocals of a degree vector, as the kernel's host operations build it: ones over the degrees, as a column. -/
def recipA (d : Vec Ideal S50000 .f32) : Vec Ideal S50000x1 .f32 :=
  shapeCast S50000x1 (Host.divf (F := Ideal) (broadcastInDim S50000 ![] bcast_S_S50000 (constant (F := Ideal) S_ .f32 0x3F800000#32)) d) shapeCasts_S50000_S50000x1
def recipD (d : Vec Ideal S100000 .f32) : Vec Ideal S100000x1 .f32 :=
  shapeCast S100000x1 (Host.divf (F := Ideal) (broadcastInDim S100000 ![] bcast_S_S100000 (constant (F := Ideal) S_ .f32 0x3F800000#32)) d) shapeCasts_S100000_S100000x1

/-- Entry (p, 0) of the column is one over entry p of the degrees. -/
theorem recipA_at (d : Vec Ideal S50000 .f32) (p : Fin 50000) : recipA d (ix2 p (0 : Fin 1)) = Ideal.div 1 (d (ix1 p)) := by
  unfold recipA
  refine (shapeCast_apply _ shapeCasts_S50000_S50000x1 (ix2 p (0 : Fin 1)) (ix1 p) (by
    rw [Shape.rowMajor_val_one, Shape.rowMajor_val_two]; show p.val = p.val * 1 + 0; omega)).trans ?_
  show Ideal.div (broadcastInDim S50000 ![] bcast_S_S50000 (constant (F := Ideal) S_ .f32 0x3F800000#32) (ix1 p)) (d (ix1 p)) = _
  rw [broadcastInDim_apply _ bcast_S_S50000 (constant (F := Ideal) S_ .f32 0x3F800000#32) (ix1 p) ix0 (fun a => a.elim0)]
  rw [constant_apply, Ideal.ofBits_one_f32]
theorem recipD_at (d : Vec Ideal S100000 .f32) (p : Fin 100000) : recipD d (ix2 p (0 : Fin 1)) = Ideal.div 1 (d (ix1 p)) := by
  unfold recipD
  refine (shapeCast_apply _ shapeCasts_S100000_S100000x1 (ix2 p (0 : Fin 1)) (ix1 p) (by
    rw [Shape.rowMajor_val_one, Shape.rowMajor_val_two]; show p.val = p.val * 1 + 0; omega)).trans ?_
  show Ideal.div (broadcastInDim S100000 ![] bcast_S_S100000 (constant (F := Ideal) S_ .f32 0x3F800000#32) (ix1 p)) (d (ix1 p)) = _
  rw [broadcastInDim_apply _ bcast_S_S100000 (constant (F := Ideal) S_ .f32 0x3F800000#32) (ix1 p) ix0 (fun a => a.elim0)]
  rw [constant_apply, Ideal.ofBits_one_f32]

/-- The authors' column: the reciprocals of the reference's clamped author degrees. -/
theorem rA_W4 (h : Inv1 m ρ c) : W4 (F := Ideal) m ρ c (Proc.devRef .tc main_v15) = recipA (degA m c) := by
  dsimp only [W4]
  after_results
  rw [h.arg2]
  rfl

/-- The documents' column: the reciprocals of the reference's clamped document degrees. -/
theorem rD_W4 (h : Inv1 m ρ c) : W4 (F := Ideal) m ρ c (Proc.devRef .tc main_v24) = recipD (degD m c) := by
  dsimp only [W4]
  after_results
  rw [h.arg2]
  rfl

/-! ## The gathered rows and the aggregate -/

/-- The reference's gathered author embeddings: its wrap of the author indices changes nothing, none being negative. -/
theorem xauth_ref (hi : IdxOk m c) :
    xauth m c = Host.gather gather_S50000x128_S50000x1_S50000x128_1_0_n_n_0_1_1128 (a6 m c)
      (broadcastInDim S50000x1 ![0] bcast_S50000_S50000x1_0 (a1 m c)) := by
  show val_main_v10 (F := Ideal) (a1 m c) (a6 m c) = _
  unfold val_main_v10 val_main_v9
  rw [show val_main_v8 (F := Ideal) (a1 m c) = a1 m c from
    Take.wrap_id (a1 m c) (val_main_v4 (F := Ideal)) (val_main_v6 (F := Ideal))
      (fun i => by rw [val_main_v4_apply, val_main_c_apply]) (fun i => (hi.author i).1)]
  rfl

/-- The author embeddings after the first stretch are the reference's. -/
theorem xauth_W3 (h : Inv1 m ρ c) (hi : IdxOk m c) : W3 (F := Ideal) m ρ c (Proc.devRef .tc main_v2) = xauth m c := by
  have ha : ∀ i : S50000.Idx, 0 ≤ ((W2 (F := Ideal) m ρ c (Proc.devRef .tc main_arg1) : IVec S50000 32) i).toInt
      ∧ ((W2 (F := Ideal) m ρ c (Proc.devRef .tc main_arg1) : IVec S50000 32) i).toInt < 50000 := by
    rw [h.arg1]; exact hi.author
  refine (Take.take_author (F := Ideal) (W2 m ρ c) ha).trans ?_
  rw [h.arg6, h.arg1]
  exact (xauth_ref m c hi).symm

/-- The reference's aggregate: its wrap of the edge sources changes nothing, so it is the scatter-add, along the edge
    destinations, of the document features' rows at the edge sources. -/
theorem agg_ref (hi : IdxOk m c) :
    val_main_v24 (F := Ideal) (a0 m c) (a2 m c) (a4 m c) (a5 m c)
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 (edst m c))
          (Host.gather gather_S100000x128_S500000x1_S500000x128_1_0_n_n_0_1_1128 (xdoc m c)
            (broadcastInDim S500000x1 ![0] bcast_S500000_S500000x1_0 (esrc m c))) := by
  unfold val_main_v24 val_main_v21 val_main_v20
  rw [show val_main_v19 (F := Ideal) (a2 m c) = esrc m c from
    Take.wrap_id (esrc m c) (val_main_v15 (F := Ideal)) (val_main_v17 (F := Ideal))
      (fun i => by rw [val_main_v15_apply, val_main_c_1_apply]) (fun i => (hi.src i).1)]
  rfl

/-- What the last stretch leaves in the aggregate's buffer and in the bias row's, from any contents. -/
theorem agg_after (V : Valuation τ sig (Elt Ideal)) :
    StableHlo.after (hostOps1_3 (F := Ideal)) V (Proc.devRef .tc main_v28)
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 (V (Proc.devRef .tc main_v6)))
          (V (Proc.devRef .tc main_v25)) := by
  after_results
theorem bias_after (V : Valuation τ sig (Elt Ideal)) :
    StableHlo.after (hostOps1_3 (F := Ideal)) V (Proc.devRef .tc main_v29)
      = shapeCast S1x128 (V (Proc.devRef .tc main_arg8)) shapeCasts_S128_S1x128 := by
  after_results
  rfl

/-- The document features' rows at the edge sources, after the third stretch. -/
theorem rows_W5 (h : Inv1 m ρ c) (hi : IdxOk m c) :
    W5 (F := Ideal) m ρ c (Proc.devRef .tc main_v25)
      = Host.gather gather_S100000x128_S500000x1_S500000x128_1_0_n_n_0_1_1128 (xdoc m c)
          (broadcastInDim S500000x1 ![0] bcast_S500000_S500000x1_0 (esrc m c)) := by
  have hs : ∀ i : S500000.Idx, 0 ≤ ((W4 (F := Ideal) m ρ c (Proc.devRef .tc main_v4) : IVec S500000 32) i).toInt
      ∧ ((W4 (F := Ideal) m ρ c (Proc.devRef .tc main_v4) : IVec S500000 32) i).toInt < 100000 := by
    rw [src_W4 m ρ c h]; exact hi.src
  refine (Take.take_xdoc_src (F := Ideal) (W4 m ρ c) hs).trans ?_
  rw [src_W4 m ρ c h, (keepB m ρ c main_v1 (by decide)).trans ((keepA m ρ c main_v1 (by decide)).trans h.xdoc)]

/-- The aggregate at region 1's entry is the reference's. -/
theorem agg_W6 (h : Inv1 m ρ c) (hi : IdxOk m c) :
    W6 (F := Ideal) m ρ c (Proc.devRef .tc main_v28) = val_main_v24 (F := Ideal) (a0 m c) (a2 m c) (a4 m c) (a5 m c) := by
  refine (agg_after (W5 m ρ c)).trans ?_
  rw [rows_W5 m ρ c h hi, (keepC m ρ c main_v6 (by decide)).trans (dst_W4 m ρ c h)]
  exact (agg_ref m c hi).symm

end Cert.Bridge.Step1

end
-- ==== Proof.Reg1.lean ====
/-
  Region 1's output array after the region, entry by entry, from the arrays the region is entered with: a first-layer output.
  Every grid point writes one block of 5000 rows; the blocks tile the 50000 rows, and the block that holds row p is
  point p / 5000, so the array's entry (p, q) is the body's entry (p mod 5000, q) of the blocks at that point.
-/
import proofs.«417221_j22522808500707_2_alg».proof.Proof.Gen.KernelIdeal.Frame
import proofs.«417221_j22522808500707_2_alg».proof.Proof.Pay
import Idealize.ShloMosaic.Lib.ValueIdx
import Idealize.ShloMosaic.Lib.Pipeline.Value

set_option maxRecDepth 16384

noncomputable section

namespace Cert.Bridge.Reg1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- `main_v28` as the region finds it. -/
abbrev agg (c : Dev nD) : Vec Ideal S50000x128 .f32 := V c main_v28
/-- `main_v15` as the region finds it. -/
abbrev rdeg (c : Dev nD) : Vec Ideal S50000x1 .f32 := V c main_v15
/-- `main_v2` as the region finds it. -/
abbrev xd (c : Dev nD) : Vec Ideal S50000x128 .f32 := V c main_v2
/-- `main_arg7` as the region finds it. -/
abbrev wl (c : Dev nD) : Vec Ideal S128x128 .f32 := V c main_arg7
/-- `main_arg9` as the region finds it. -/
abbrev wr (c : Dev nD) : Vec Ideal S128x128 .f32 := V c main_arg9
/-- `main_v29` as the region finds it. -/
abbrev bias (c : Dev nD) : Vec Ideal S1x128 .f32 := V c main_v29

/-- The output array after the region, at its literal type. -/
abbrev outArr (c : Dev nD) : Vec Ideal S50000x128 .f32 := (dat1 (F := Ideal) V c).arrAt 6 cfg1.N

/-- The two zero offsets of a whole-block access, as the constant function. -/
theorem zero_off : (![0, 0] : Fin 2 → Nat) = fun _ => 0 := funext fun a => by fin_cases a <;> rfl

/-- The layer's value at row `p` and column `q` of six whole arrays: row `p` of the aggregate, scaled by that row's
    reciprocal degree, against column `q` of the first weight, plus the bias, plus row `p` of the destination features
    against column `q` of the second weight; the larger of that and zero. -/
def layer (a : Vec Ideal S50000x128 .f32) (s : Vec Ideal S50000x1 .f32) (x : Vec Ideal S50000x128 .f32)
    (w₁ w₂ : Vec Ideal S128x128 .f32) (b : Vec Ideal S1x128 .f32) (p : Fin 50000) (q : Fin 128) : Elt Ideal .f32 :=
  max (((∑ k : Fin 128, (a (ix2 p k) * s (ix2 p (0 : Fin 1))) * w₁ (ix2 k q)) + b (ix2 (0 : Fin 1) q)) + ∑ k : Fin 128, x (ix2 p k) * w₂ (ix2 k q)) 0

/-- The whole output as one function of the index. -/
abbrev layerArr (a : Vec Ideal S50000x128 .f32) (s : Vec Ideal S50000x1 .f32) (x : Vec Ideal S50000x128 .f32)
    (w₁ w₂ : Vec Ideal S128x128 .f32) (b : Vec Ideal S1x128 .f32) : Vec Ideal S50000x128 .f32 :=
  fun i => layer a s x w₁ w₂ b (i 0) (i 1)

/-- A block's entry is the layer's value at the array's row the block's row sits at: the body's entry (p, q) of blocks
    whose rows `p` are the arrays' rows `P`. -/
theorem block_at (a : Vec Ideal S50000x128 .f32) (s : Vec Ideal S50000x1 .f32) (x : Vec Ideal S50000x128 .f32)
    (w₁ w₂ : Vec Ideal S128x128 .f32) (b : Vec Ideal S1x128 .f32)
    (a' : Vec Ideal S5000x128 .f32) (s' : Vec Ideal S5000x1 .f32) (x' : Vec Ideal S5000x128 .f32)
    (w₁' w₂' : Vec Ideal S128x128 .f32) (b' : Vec Ideal S1x128 .f32)
    (p : Fin 5000) (q : Fin 128) (P : Fin 50000)
    (ha : ∀ k : Fin 128, a' (ix2 p k) = a (ix2 P k))
    (hs : s' (ix2 p (0 : Fin 1)) = s (ix2 P (0 : Fin 1)))
    (hx : ∀ k : Fin 128, x' (ix2 p k) = x (ix2 P k))
    (hw₁ : ∀ k : Fin 128, w₁' (ix2 k q) = w₁ (ix2 k q))
    (hw₂ : ∀ k : Fin 128, w₂' (ix2 k q) = w₂ (ix2 k q))
    (hb : b' (ix2 (0 : Fin 1) q) = b (ix2 (0 : Fin 1) q)) :
    k1_pay1 (F := Ideal) a' s' x' w₁' w₂' b' (ix2 p q) = layer a s x w₁ w₂ b P q := by
  rw [Pay.sageRelu_at]
  unfold layer
  simp only [ha, hs, hx, hw₁, hw₂, hb]

/-- The printed index maps over the grid: the three row-blocked inputs and the output sit at block row `t`, block
    column 0; the three small arrays are staged whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 10 :=
  (by decide +kernel : ∀ t : Fin grid1.N, _)

/-- Where the blocks' entries sit in their arrays at point `t`: a block's coordinate is the block index times the
    block's size plus the coordinate inside the block. Window by window. -/
theorem emb_agg (t : Fin cfg1.N) (p : Fin 5000) (k : Fin 128) (P : Fin 50000) (hP : P.val = t.val * 5000 + p.val) :
    ((cfg1.win 0).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win1_0.index t (0 : Fin 2) * 5000 + 1 * p.val = P.val; omega
  | ⟨1, _⟩ => show win1_0.index t (1 : Fin 2) * 128 + 1 * k.val = k.val; omega

theorem emb_xd (t : Fin cfg1.N) (p : Fin 5000) (k : Fin 128) (P : Fin 50000) (hP : P.val = t.val * 5000 + p.val) :
    ((cfg1.win 1).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win1_1.index t (0 : Fin 2) * 5000 + 1 * p.val = P.val; omega
  | ⟨1, _⟩ => show win1_1.index t (1 : Fin 2) * 128 + 1 * k.val = k.val; omega

theorem emb_rdeg (t : Fin cfg1.N) (p : Fin 5000) (k : Fin 1) (P : Fin 50000) (hP : P.val = t.val * 5000 + p.val) :
    ((cfg1.win 2).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win1_2.index t (0 : Fin 2) * 5000 + 1 * p.val = P.val; omega
  | ⟨1, _⟩ => show win1_2.index t (1 : Fin 2) * 1 + 1 * k.val = k.val; omega

theorem emb_wl (t : Fin cfg1.N) (k : Fin 128) (q : Fin 128) :
    ((cfg1.win 3).blk t).view.emb (ix2 k q) = ix2 k q := by
  obtain ⟨e00, e01, e10, e11, e20, e21, e30, e31, e40, e41, e50, e51, e60, e61, ht⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb_bias (t : Fin cfg1.N) (k : Fin 1) (q : Fin 128) :
    ((cfg1.win 4).blk t).view.emb (ix2 k q) = ix2 k q := by
  obtain ⟨e00, e01, e10, e11, e20, e21, e30, e31, e40, e41, e50, e51, e60, e61, ht⟩ := idx_facts t
  funext a; apply Fin.ext
  match a with
  | ⟨0, _⟩ => show win1_4.index t (0 : Fin 2) * 1 + 1 * k.val = k.val; omega
  | ⟨1, _⟩ => show win1_4.index t (1 : Fin 2) * 128 + 1 * q.val = q.val; omega

theorem emb_wr (t : Fin cfg1.N) (k : Fin 128) (q : Fin 128) :
    ((cfg1.win 5).blk t).view.emb (ix2 k q) = ix2 k q := by
  obtain ⟨e00, e01, e10, e11, e20, e21, e30, e31, e40, e41, e50, e51, e60, e61, ht⟩ := idx_facts t
  funext a; apply Fin.ext
  match a with
  | ⟨0, _⟩ => show win1_5.index t (0 : Fin 2) * 128 + 1 * k.val = k.val; omega
  | ⟨1, _⟩ => show win1_5.index t (1 : Fin 2) * 128 + 1 * q.val = q.val; omega

theorem emb_out (t : Fin cfg1.N) (p : Fin 5000) (k : Fin 128) (P : Fin 50000) (hP : P.val = t.val * 5000 + p.val) :
    ((cfg1.win 6).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win1_6.index t (0 : Fin 2) * 5000 + 1 * p.val = P.val; omega
  | ⟨1, _⟩ => show win1_6.index t (1 : Fin 2) * 128 + 1 * k.val = k.val; omega

/-- What point `t` writes back is block `t` of the layer of the arrays the region finds. -/
theorem flushed_eq (c : Dev nD) (t : Fin cfg1.N) :
    (dat1 (F := Ideal) V c).flushed 6 t = ((cfg1.win 6).blk t).view.read (Elt Ideal) (layerArr (agg V c) (rdeg V c) (xd V c) (wl V c) (wr V c) (bias V c)) := by
  show (cfg1.win 6).cut (grid1.coords t) ((dat1 (F := Ideal) V c).after 6 t) = _
  rw [after1_6]
  unfold out1_6
  rw [View.canon_unit_zero zero_off]
  simp only [View.ld_unit_zero (S := S5000x128) zero_off, View.ld_unit_zero (S := S5000x1) zero_off,
    View.ld_unit_zero (S := S128x128) zero_off, View.ld_unit_zero (S := S1x128) zero_off]
  have ht : t.val < 10 := (idx_facts t).2.2.2.2.2.2.2.2.2.2.2.2.2.2
  funext j
  obtain ⟨p, q, rfl⟩ : ∃ (p : Fin 5000) (q : Fin 128), j = ix2 p q := ⟨j 0, j 1, eq_ix2 j⟩
  have hP : ((⟨t.val * 5000 + p.val, by omega⟩ : Fin 50000)).val = t.val * 5000 + p.val := rfl
  refine (block_at (agg V c) (rdeg V c) (xd V c) (wl V c) (wr V c) (bias V c)
    (iblk1 V c 0 t) (iblk1 V c 2 t) (iblk1 V c 1 t) (iblk1 V c 3 t) (iblk1 V c 5 t) (iblk1 V c 4 t) p q
    ⟨t.val * 5000 + p.val, by omega⟩ ?_ ?_ ?_ ?_ ?_ ?_).trans ?_
  · intro k
    show V c main_v28 (((cfg1.win 0).blk t).view.emb (ix2 p k)) = V c main_v28 (ix2 _ k)
    rw [emb_agg t p k _ hP]
  · show V c main_v15 (((cfg1.win 2).blk t).view.emb (ix2 p (0 : Fin 1))) = V c main_v15 (ix2 _ (0 : Fin 1))
    rw [emb_rdeg t p 0 _ hP]
  · intro k
    show V c main_v2 (((cfg1.win 1).blk t).view.emb (ix2 p k)) = V c main_v2 (ix2 _ k)
    rw [emb_xd t p k _ hP]
  · intro k
    show V c main_arg7 (((cfg1.win 3).blk t).view.emb (ix2 k q)) = V c main_arg7 (ix2 k q)
    rw [emb_wl t k q]
  · intro k
    show V c main_arg9 (((cfg1.win 5).blk t).view.emb (ix2 k q)) = V c main_arg9 (ix2 k q)
    rw [emb_wr t k q]
  · show V c main_v29 (((cfg1.win 4).blk t).view.emb (ix2 (0 : Fin 1) q)) = V c main_v29 (ix2 (0 : Fin 1) q)
    rw [emb_bias t 0 q]
  · show layer _ _ _ _ _ _ _ _ = layerArr (agg V c) (rdeg V c) (xd V c) (wl V c) (wr V c) (bias V c) (((cfg1.win 6).blk t).view.emb (ix2 p q))
    rw [emb_out t p q _ hP]

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v30).slice (win1_6.rect t)).set ↔ _
  rw [View.set_slice_whole, Rect.mem_set_unit]
  exact Iff.rfl

/-- The blocks tile the rows: row `r` is in the block of point `r / 5000`, and every point writes its block back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 5000 < cfg1.N := by rw [show cfg1.N = 10 from N_1]; omega
  obtain ⟨e00, e01, e10, e11, e20, e21, e30, e31, e40, e41, e50, e51, e60, e61, ht⟩ := idx_facts ⟨(i 0).val / 5000, hN⟩
  have q0 : win1_6.index ⟨(i 0).val / 5000, hN⟩ (0 : Fin 2) = (i 0).val / 5000 := e60
  refine ⟨⟨(i 0).val / 5000, hN⟩, flush1_6 _, ?_⟩
  rw [mem_blk]
  intro a
  match a with
  | ⟨0, _⟩ => show win1_6.index ⟨(i 0).val / 5000, hN⟩ (0 : Fin 2) * 5000 ≤ (i 0).val ∧ (i 0).val < win1_6.index ⟨(i 0).val / 5000, hN⟩ (0 : Fin 2) * 5000 + 5000; omega
  | ⟨1, _⟩ => show win1_6.index ⟨(i 0).val / 5000, hN⟩ (1 : Fin 2) * 128 ≤ (i 1).val ∧ (i 1).val < win1_6.index ⟨(i 0).val / 5000, hN⟩ (1 : Fin 2) * 128 + 128; omega

/-- The output array after the region is the layer of the arrays the region finds. -/
theorem out_eq (c : Dev nD) :
    outArr V c = layerArr (agg V c) (rdeg V c) (xd V c) (wl V c) (wr V c) (bias V c) :=
  (dat1 (F := Ideal) V c).arrAt_eq_of_cover 6 (layerArr (agg V c) (rdeg V c) (xd V c) (wl V c) (wr V c) (bias V c))
    (fun t _ => flushed_eq V c t) cover

/-- The output array at (p, q). -/
theorem out_at (c : Dev nD) (p : Fin 50000) (q : Fin 128) :
    outArr V c (ix2 p q) = max (((∑ k : Fin 128, (agg V c (ix2 p k) * rdeg V c (ix2 p (0 : Fin 1))) * wl V c (ix2 k q)) + bias V c (ix2 (0 : Fin 1) q)) + ∑ k : Fin 128, xd V c (ix2 p k) * wr V c (ix2 k q)) 0 := by
  rw [out_eq]
  show layer (agg V c) (rdeg V c) (xd V c) (wl V c) (wr V c) (bias V c) p q = _
  unfold layer
  rfl

end Cert.Bridge.Reg1

end
-- ==== Proof.Step1.lean ====
/-
  From region 0's exit to region 1's. The host gathers the author embeddings, cuts the edge list into its two rows,
  counts each node's edges and takes the reciprocal of the count clamped below by one, gathers the document features
  along the edges and sums them per author; region 1 then writes the first layer's author output. Its entry (p, q) is
  the aggregate's row p scaled by the reciprocal clamped degree against the first weight, plus the bias, plus the
  author's own row against the second weight, rectified: the reference's quotient by the clamped degree is that product,
  since the clamped degree is at least one and so is not zero.

  What the host stretches leave at region 1's entry is read in the module this one imports; here are the reference's
  layer at an entry, the region's inputs as the reference's stages, and the step from the one exit to the next.
-/
import proofs.«417221_j22522808500707_2_alg».proof.Proof.Step1a
import proofs.«417221_j22522808500707_2_alg».proof.Proof.Reg1
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.Bridge.Step1

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

/-! ## The reference's first author layer at an entry -/

/-- The clamped author degree is not zero: it is a maximum with one. -/
theorem degA_ne_zero (p : Fin 50000) : degA m c (ix1 p) ≠ 0 := by
  show val_main_v30 (F := Ideal) (a2 m c) (ix1 p) ≠ 0
  rw [val_main_v30_apply, val_main_v29_apply, val_main_cst_5_apply, Ideal.maximumf_def, Ideal.ofBits_def, Ideal.ofBits_one_f32]
  exact Ideal.max_one_ne_zero _

/-- An entry of the reference's scaled aggregate: the aggregate's entry divided by the clamped degree of its row, which
    is the product with the reciprocal, the clamped degree not being zero. -/
theorem scaled_at (p : Fin 50000) (k : Fin 128) :
    val_main_v33 (F := Ideal) (a0 m c) (a2 m c) (a4 m c) (a5 m c) (ix2 p k)
      = val_main_v24 (F := Ideal) (a0 m c) (a2 m c) (a4 m c) (a5 m c) (ix2 p k) * Ideal.div 1 (degA m c (ix1 p)) := by
  have ed : idx_main_v31 (idx_main_v32 (ix2 p k)) = ix1 p := funext fun a => Fin.ext (by
    match a with
    | ⟨0, _⟩ => rfl)
  rw [val_main_v33_apply, val_main_v32_apply, val_main_v31_apply, ed, Ideal.hostDivf_def]
  exact (Ideal.mul_div_one_eq_div _ _ (degA_ne_zero m c p)).symm

/-- Entry (p, q) of the reference's author layer: the scaled aggregate's row p against column q of the first weight,
    plus the bias at q, plus the author's own row against column q of the second weight; the larger of that and zero. -/
theorem hA_at (p : Fin 50000) (q : Fin 128) :
    hA m c (ix2 p q)
      = max (((∑ k : Fin 128, (val_main_v24 (F := Ideal) (a0 m c) (a2 m c) (a4 m c) (a5 m c) (ix2 p k) * Ideal.div 1 (degA m c (ix1 p))) * a7 m c (ix2 k q))
              + a8 m c (ix1 q)) + ∑ k : Fin 128, xauth m c (ix2 p k) * a9 m c (ix2 k q)) 0 := by
  show val_main_v65 (F := Ideal) (a0 m c) (a1 m c) (a2 m c) (a4 m c) (a5 m c) (a6 m c) (a7 m c) (a8 m c) (a9 m c) (ix2 p q) = _
  rw [val_main_v65_apply, val_main_v39_apply, val_main_v37_apply, val_main_v34_apply, val_main_v38_apply, val_main_v36_apply,
    val_main_v35_apply, val_main_call0_v0_apply, val_main_call0_cst_apply]
  have el : ∀ k : Fin 128, lidx_main_v34 (ix2 p q) k = ix2 p k := fun k => funext fun a => Fin.ext (by
    match a with
    | ⟨0, _⟩ => rfl
    | ⟨1, _⟩ => rfl)
  have er : ∀ k : Fin 128, ridx_main_v34 (ix2 p q) k = ix2 k q := fun k => funext fun a => Fin.ext (by
    match a with
    | ⟨0, _⟩ => rfl
    | ⟨1, _⟩ => rfl)
  have el' : ∀ k : Fin 128, lidx_main_v38 (ix2 p q) k = ix2 p k := fun k => funext fun a => Fin.ext (by
    match a with
    | ⟨0, _⟩ => rfl
    | ⟨1, _⟩ => rfl)
  have er' : ∀ k : Fin 128, ridx_main_v38 (ix2 p q) k = ix2 k q := fun k => funext fun a => Fin.ext (by
    match a with
    | ⟨0, _⟩ => rfl
    | ⟨1, _⟩ => rfl)
  have eb : idx_main_v35 (idx_main_v36 (ix2 p q)) = ix1 q := funext fun a => Fin.ext (by
    match a with
    | ⟨0, _⟩ => rfl)
  simp only [el, er, el', er', eb, scaled_at m c p]
  rw [Ideal.maximumf_def, Ideal.addf_def, Ideal.addf_def, Ideal.ofBits_def, Ideal.ofBits_zero_f32]

/-! ## Region 1's entry, as the region's own names for it -/

theorem agg_in (h : Inv1 m ρ c) (hi : IdxOk m c) :
    Cert.Bridge.Reg1.agg (V6 (F := Ideal) m ρ) c = val_main_v24 (F := Ideal) (a0 m c) (a2 m c) (a4 m c) (a5 m c) :=
  agg_W6 m ρ c h hi
theorem rdeg_in (h : Inv1 m ρ c) : Cert.Bridge.Reg1.rdeg (V6 (F := Ideal) m ρ) c = recipA (degA m c) :=
  (keepD m ρ c main_v15 (by decide)).trans ((keepC m ρ c main_v15 (by decide)).trans (rA_W4 m ρ c h))
theorem xd_in (h : Inv1 m ρ c) (hi : IdxOk m c) : Cert.Bridge.Reg1.xd (V6 (F := Ideal) m ρ) c = xauth m c :=
  (keepD m ρ c main_v2 (by decide)).trans ((keepC m ρ c main_v2 (by decide)).trans
    ((keepB m ρ c main_v2 (by decide)).trans (xauth_W3 m ρ c h hi)))
theorem wl_in (h : Inv1 m ρ c) : Cert.Bridge.Reg1.wl (V6 (F := Ideal) m ρ) c = a7 m c :=
  (keepAll m ρ c main_arg7 (by decide) (by decide) (by decide) (by decide)).trans h.arg7
theorem wr_in (h : Inv1 m ρ c) : Cert.Bridge.Reg1.wr (V6 (F := Ideal) m ρ) c = a9 m c :=
  (keepAll m ρ c main_arg9 (by decide) (by decide) (by decide) (by decide)).trans h.arg9
theorem bias_in (h : Inv1 m ρ c) :
    Cert.Bridge.Reg1.bias (V6 (F := Ideal) m ρ) c = shapeCast S1x128 (a8 m c) shapeCasts_S128_S1x128 := by
  refine (bias_after (W5 m ρ c)).trans ?_
  rw [(keepC m ρ c main_arg8 (by decide)).trans ((keepB m ρ c main_arg8 (by decide)).trans
    ((keepA m ρ c main_arg8 (by decide)).trans h.arg8))]

/-! ## Region 1's exit -/

/-- The author embeddings, staged by the region as an input, are at its exit what they were at its entry. -/
theorem xauth_W7 (h : Inv1 m ρ c) (hi : IdxOk m c) : W7 (F := Ideal) m ρ c (Proc.devRef .tc main_v2) = xauth m c :=
  ((W7_arr m ρ c 1).trans (((dat1 (V6 m ρ) c).arrAt_in 1 rfl _).trans (A_eq1 (V6 m ρ) c 1))).trans (xd_in m ρ c h hi)

/-- The authors' reciprocal column, staged by the region as an input, likewise. -/
theorem rA_W7 (h : Inv1 m ρ c) : W7 (F := Ideal) m ρ c (Proc.devRef .tc main_v15) = recipA (degA m c) :=
  ((W7_arr m ρ c 2).trans (((dat1 (V6 m ρ) c).arrAt_in 2 rfl _).trans (A_eq1 (V6 m ρ) c 2))).trans (rdeg_in m ρ c h)

/-- The documents' reciprocal column, which the region does not stage. -/
theorem rD_W7 (h : Inv1 m ρ c) : W7 (F := Ideal) m ρ c (Proc.devRef .tc main_v24) = recipD (degD m c) :=
  (W7_of_ne m ρ c main_v24 (by decide)).trans ((keepD m ρ c main_v24 (by decide)).trans
    ((keepC m ρ c main_v24 (by decide)).trans (rD_W4 m ρ c h)))

/-- The region's output is the reference's first author layer: entry by entry, the region's value with each input
    replaced by the reference's stage it holds, the quotient by the clamped degree being the product with its reciprocal. -/
theorem hA_W7 (h : Inv1 m ρ c) (hi : IdxOk m c) : W7 (F := Ideal) m ρ c (Proc.devRef .tc main_v30) = hA m c := by
  refine (W7_arr m ρ c 6).trans ?_
  funext i
  obtain ⟨p, q, rfl⟩ : ∃ (p : Fin 50000) (q : Fin 128), i = ix2 p q := ⟨i 0, i 1, eq_ix2 i⟩
  refine (Cert.Bridge.Reg1.out_at (V6 (F := Ideal) m ρ) c p q).trans ?_
  rw [agg_in m ρ c h hi, rdeg_in m ρ c h, xd_in m ρ c h hi, wl_in m ρ c h, wr_in m ρ c h, bias_in m ρ c h, recipA_at]
  -- the reshaped bias at (0, q) is the bias at q: the two indices have the same row-major position
  have hb : shapeCast S1x128 (a8 m c) shapeCasts_S128_S1x128 (ix2 (0 : Fin 1) q) = a8 m c (ix1 q) :=
    shapeCast_apply _ _ _ (ix1 q) (by rw [Shape.rowMajor_val_one, Shape.rowMajor_val_two]; simp)
  rw [hb]
  exact (hA_at m c p q).symm

theorem inv2 (h : Inv1 m ρ c) (hi : IdxOk m c) : Inv2 m ρ c where
  arg3 := (arg_through m ρ c main_arg3 (by decide) (by decide) (by decide) (by decide) (by decide)).trans h.arg3
  arg10 := (arg_through m ρ c main_arg10 (by decide) (by decide) (by decide) (by decide) (by decide)).trans h.arg10
  arg11 := (arg_through m ρ c main_arg11 (by decide) (by decide) (by decide) (by decide) (by decide)).trans h.arg11
  arg12 := (arg_through m ρ c main_arg12 (by decide) (by decide) (by decide) (by decide) (by decide)).trans h.arg12
  arg13 := (arg_through m ρ c main_arg13 (by decide) (by decide) (by decide) (by decide) (by decide)).trans h.arg13
  arg14 := (arg_through m ρ c main_arg14 (by decide) (by decide) (by decide) (by decide) (by decide)).trans h.arg14
  arg15 := (arg_through m ρ c main_arg15 (by decide) (by decide) (by decide) (by decide) (by decide)).trans h.arg15
  arg16 := (arg_through m ρ c main_arg16 (by decide) (by decide) (by decide) (by decide) (by decide)).trans h.arg16
  arg17 := (arg_through m ρ c main_arg17 (by decide) (by decide) (by decide) (by decide) (by decide)).trans h.arg17
  arg18 := (arg_through m ρ c main_arg18 (by decide) (by decide) (by decide) (by decide) (by decide)).trans h.arg18
  xdoc := (arg_through m ρ c main_v1 (by decide) (by decide) (by decide) (by decide) (by decide)).trans h.xdoc
  xauth := xauth_W7 m ρ c h hi
  src := (W7_of_ne m ρ c main_v4 (by decide)).trans ((keepD m ρ c main_v4 (by decide)).trans
    ((keepC m ρ c main_v4 (by decide)).trans (src_W4 m ρ c h)))
  dst := (W7_of_ne m ρ c main_v6 (by decide)).trans ((keepD m ρ c main_v6 (by decide)).trans
    ((keepC m ρ c main_v6 (by decide)).trans (dst_W4 m ρ c h)))
  invA := fun p => by rw [rA_W7 m ρ c h]; exact recipA_at _ p
  invD := fun p => by rw [rD_W7 m ρ c h]; exact recipD_at _ p
  hA := hA_W7 m ρ c h hi

end Cert.Bridge.Step1

end
-- ==== Proof.Reg2.lean ====
/-
  Region 2's output array after the region, entry by entry, from the arrays the region is entered with: a first-layer output.
  Every grid point writes one block of 5000 rows; the blocks tile the 100000 rows, and the block that holds row p is
  point p / 5000, so the array's entry (p, q) is the body's entry (p mod 5000, q) of the blocks at that point.
-/
import proofs.«417221_j22522808500707_2_alg».proof.Proof.Gen.KernelIdeal.Frame
import proofs.«417221_j22522808500707_2_alg».proof.Proof.Pay
import Idealize.ShloMosaic.Lib.ValueIdx
import Idealize.ShloMosaic.Lib.Pipeline.Value

set_option maxRecDepth 16384

noncomputable section

namespace Cert.Bridge.Reg2

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- `main_v34` as the region finds it. -/
abbrev agg (c : Dev nD) : Vec Ideal S100000x128 .f32 := V c main_v34
/-- `main_v24` as the region finds it. -/
abbrev rdeg (c : Dev nD) : Vec Ideal S100000x1 .f32 := V c main_v24
/-- `main_v1` as the region finds it. -/
abbrev xd (c : Dev nD) : Vec Ideal S100000x128 .f32 := V c main_v1
/-- `main_arg10` as the region finds it. -/
abbrev wl (c : Dev nD) : Vec Ideal S128x128 .f32 := V c main_arg10
/-- `main_arg12` as the region finds it. -/
abbrev wr (c : Dev nD) : Vec Ideal S128x128 .f32 := V c main_arg12
/-- `main_v35` as the region finds it. -/
abbrev bias (c : Dev nD) : Vec Ideal S1x128 .f32 := V c main_v35

/-- The output array after the region, at its literal type. -/
abbrev outArr (c : Dev nD) : Vec Ideal S100000x128 .f32 := (dat2 (F := Ideal) V c).arrAt 6 cfg2.N

/-! ## Which array each window stages -/

example : Pipeline.arrRef spec2 0 = main_v34 := rfl
example : Pipeline.arrRef spec2 1 = main_v1 := rfl
example : Pipeline.arrRef spec2 2 = main_v24 := rfl
example : Pipeline.arrRef spec2 3 = main_arg10 := rfl
example : Pipeline.arrRef spec2 4 = main_v35 := rfl
example : Pipeline.arrRef spec2 5 = main_arg12 := rfl

/-! ## The layer as one function of the whole arrays -/

/-- The rectified first-layer sum at every entry of the 100000 x 128 array. -/
def layer (a : Vec Ideal S100000x128 .f32) (s : Vec Ideal S100000x1 .f32) (x : Vec Ideal S100000x128 .f32)
    (w₁ w₂ : Vec Ideal S128x128 .f32) (b : Vec Ideal S1x128 .f32) : Vec Ideal S100000x128 .f32 :=
  fun i => max (((∑ k : Fin 128, (a (ix2 (i 0) k) * s (ix2 (i 0) (0 : Fin 1))) * w₁ (ix2 k (i 1))) + b (ix2 (0 : Fin 1) (i 1)))
    + ∑ k : Fin 128, x (ix2 (i 0) k) * w₂ (ix2 k (i 1))) 0

/-! ## The index maps over the grid -/

/-- The body's whole-block rectangles start at zero on both axes. -/
theorem zero_offs : (![0, 0] : Fin 2 → Nat) = fun _ => 0 := funext fun a => by fin_cases a <;> rfl

/-- Decided once over the 20 points: a row-blocked window's block index is the point on the row axis and zero on the
    column axis; a whole-array window's block index is zero on both. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## The blocks at a point, each at its literal type -/

/-- The aggregate's block at point t. -/
abbrev aggBlk (c : Dev nD) (t : Fin cfg2.N) : Vec Ideal S5000x128 .f32 := iblk2 (F := Ideal) V c 0 t
/-- The destination features' block at point t. -/
abbrev xdBlk (c : Dev nD) (t : Fin cfg2.N) : Vec Ideal S5000x128 .f32 := iblk2 (F := Ideal) V c 1 t
/-- The reciprocal degrees' block at point t. -/
abbrev rdegBlk (c : Dev nD) (t : Fin cfg2.N) : Vec Ideal S5000x1 .f32 := iblk2 (F := Ideal) V c 2 t
/-- The first weight's block at point t. -/
abbrev wlBlk (c : Dev nD) (t : Fin cfg2.N) : Vec Ideal S128x128 .f32 := iblk2 (F := Ideal) V c 3 t
/-- The bias's block at point t. -/
abbrev biasBlk (c : Dev nD) (t : Fin cfg2.N) : Vec Ideal S1x128 .f32 := iblk2 (F := Ideal) V c 4 t
/-- The second weight's block at point t. -/
abbrev wrBlk (c : Dev nD) (t : Fin cfg2.N) : Vec Ideal S128x128 .f32 := iblk2 (F := Ideal) V c 5 t

/-- Row r of the aggregate's block at point t is row 5000 t + r of the array. -/
theorem aggBlk_at (c : Dev nD) (t : Fin cfg2.N) (r : Fin 5000) (k : Fin 128) (p : Fin 100000)
    (hp : p.val = t.val * 5000 + r.val) : aggBlk V c t (ix2 r k) = agg V c (ix2 p k) := by
  obtain ⟨e0, e1, -⟩ := block_index t
  show V c main_v34 (((cfg2.win 0).blk t).view.emb (ix2 r k)) = V c main_v34 (ix2 p k)
  refine congrArg (V c main_v34) ?_
  funext a; apply Fin.ext
  match a with
  | ⟨0, _⟩ => show win2_0.index t (0 : Fin 2) * 5000 + 1 * r.val = p.val; omega
  | ⟨1, _⟩ => show win2_0.index t (1 : Fin 2) * 128 + 1 * k.val = k.val; omega

/-- Row r of the destination features' block at point t is row 5000 t + r of the array. -/
theorem xdBlk_at (c : Dev nD) (t : Fin cfg2.N) (r : Fin 5000) (k : Fin 128) (p : Fin 100000)
    (hp : p.val = t.val * 5000 + r.val) : xdBlk V c t (ix2 r k) = xd V c (ix2 p k) := by
  obtain ⟨-, -, e0, e1, -⟩ := block_index t
  show V c main_v1 (((cfg2.win 1).blk t).view.emb (ix2 r k)) = V c main_v1 (ix2 p k)
  refine congrArg (V c main_v1) ?_
  funext a; apply Fin.ext
  match a with
  | ⟨0, _⟩ => show win2_1.index t (0 : Fin 2) * 5000 + 1 * r.val = p.val; omega
  | ⟨1, _⟩ => show win2_1.index t (1 : Fin 2) * 128 + 1 * k.val = k.val; omega

/-- Row r of the reciprocal degrees' block at point t is row 5000 t + r of the array. -/
theorem rdegBlk_at (c : Dev nD) (t : Fin cfg2.N) (r : Fin 5000) (p : Fin 100000)
    (hp : p.val = t.val * 5000 + r.val) : rdegBlk V c t (ix2 r (0 : Fin 1)) = rdeg V c (ix2 p (0 : Fin 1)) := by
  obtain ⟨-, -, -, -, e0, e1, -⟩ := block_index t
  show V c main_v24 (((cfg2.win 2).blk t).view.emb (ix2 r (0 : Fin 1))) = V c main_v24 (ix2 p (0 : Fin 1))
  refine congrArg (V c main_v24) ?_
  funext a; apply Fin.ext
  match a with
  | ⟨0, _⟩ => show win2_2.index t (0 : Fin 2) * 5000 + 1 * r.val = p.val; omega
  | ⟨1, _⟩ => show win2_2.index t (1 : Fin 2) * 1 + 1 * 0 = 0; omega

/-- The first weight's block is the whole array at every point. -/
theorem wlBlk_eq (c : Dev nD) (t : Fin cfg2.N) : wlBlk V c t = wl V c := by
  obtain ⟨-, -, -, -, -, -, e0, e1, -⟩ := block_index t
  funext y
  show V c main_arg10 (((cfg2.win 3).blk t).view.emb y) = V c main_arg10 y
  refine congrArg (V c main_arg10) ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias's block is the whole array at every point. -/
theorem biasBlk_eq (c : Dev nD) (t : Fin cfg2.N) : biasBlk V c t = bias V c := by
  obtain ⟨-, -, -, -, -, -, -, -, e0, e1, -⟩ := block_index t
  funext y
  show V c main_v35 (((cfg2.win 4).blk t).view.emb y) = V c main_v35 y
  refine congrArg (V c main_v35) ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The second weight's block is the whole array at every point. -/
theorem wrBlk_eq (c : Dev nD) (t : Fin cfg2.N) : wrBlk V c t = wr V c := by
  obtain ⟨-, -, -, -, -, -, -, -, -, -, e0, e1, -⟩ := block_index t
  funext y
  show V c main_arg12 (((cfg2.win 5).blk t).view.emb y) = V c main_arg12 y
  refine congrArg (V c main_arg12) ?_
  funext a; apply Fin.ext
  match a with
  | ⟨0, _⟩ => show win2_5.index t (0 : Fin 2) * 128 + 1 * (y 0).val = (y 0).val; omega
  | ⟨1, _⟩ => show win2_5.index t (1 : Fin 2) * 128 + 1 * (y 1).val = (y 1).val; omega

/-! ## What a point writes back -/

/-- The body's entry j of the blocks at point t is the layer's entry at j's place in the array: row 5000 t + j's row,
    the same column. -/
theorem body_at (c : Dev nD) (t : Fin cfg2.N) (j : S5000x128.Idx) (i : S100000x128.Idx)
    (h0 : (i 0).val = t.val * 5000 + (j 0).val) (h1 : (i 1).val = (j 1).val) :
    k2_pay1 (F := Ideal) (aggBlk V c t) (rdegBlk V c t) (xdBlk V c t) (wlBlk V c t) (wrBlk V c t) (biasBlk V c t) j
      = layer (agg V c) (rdeg V c) (xd V c) (wl V c) (wr V c) (bias V c) i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hp : p.val = t.val * 5000 + r.val := h0
  have hq : q' = q := Fin.ext h1
  subst hq
  have h := Pay.sageRelu_at (aggBlk V c t) (rdegBlk V c t) (xdBlk V c t) (wlBlk V c t) (wrBlk V c t) (biasBlk V c t) r q'
  rw [← Pay.k2_eq_k1] at h
  refine h.trans ?_
  show _ = max (((∑ k : Fin 128, (agg V c (ix2 p k) * rdeg V c (ix2 p (0 : Fin 1))) * wl V c (ix2 k q')) + bias V c (ix2 (0 : Fin 1) q'))
    + ∑ k : Fin 128, xd V c (ix2 p k) * wr V c (ix2 k q')) 0
  rw [wlBlk_eq V c t, wrBlk_eq V c t, biasBlk_eq V c t, rdegBlk_at V c t r p hp]
  simp only [aggBlk_at V c t r _ p hp, xdBlk_at V c t r _ p hp]

/-- What point t writes back is block t of the layer of the arrays the region is entered with. -/
theorem flushed_eq (c : Dev nD) (t : Fin cfg2.N) :
    (dat2 (F := Ideal) V c).flushed 6 t
      = ((cfg2.win 6).blk t).view.read (Elt Ideal) (layer (agg V c) (rdeg V c) (xd V c) (wl V c) (wr V c) (bias V c)) := by
  show (cfg2.win 6).cut (grid2.coords t) ((dat2 (F := Ideal) V c).after 6 t) = _
  rw [after2_6]
  unfold out2_6
  rw [View.canon_unit_zero zero_offs]
  simp only [View.ld_unit_zero (S := S5000x128) zero_offs, View.ld_unit_zero (S := S5000x1) zero_offs,
    View.ld_unit_zero (S := S128x128) zero_offs, View.ld_unit_zero (S := S1x128) zero_offs]
  obtain ⟨-, -, -, -, -, -, -, -, -, -, -, -, e0, e1⟩ := block_index t
  funext j
  refine body_at V c t j (((cfg2.win 6).blk t).view.emb j) ?_ ?_
  · show win2_6.index t (0 : Fin 2) * 5000 + 1 * (j 0).val = t.val * 5000 + (j 0).val; omega
  · show win2_6.index t (1 : Fin 2) * 128 + 1 * (j 1).val = (j 1).val; omega

/-! ## The blocks cover the array -/

/-- An index of the array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v36).slice (win2_6.rect t)).set ↔ _
  rw [View.set_slice_whole, Rect.mem_set_unit]
  exact Iff.rfl

/-- Row p lies in the block of point p / 5000, which is written back. -/
theorem covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : (i 0).val / 5000 < cfg2.N := by
    show (i 0).val / 5000 < grid2.N
    rw [N_2]; omega
  obtain ⟨-, -, -, -, -, -, -, -, -, -, -, -, e0, e1⟩ := block_index ⟨(i 0).val / 5000, hN⟩
  have e0' : win2_6.index ⟨(i 0).val / 5000, hN⟩ (0 : Fin 2) = (i 0).val / 5000 := e0
  refine ⟨⟨(i 0).val / 5000, hN⟩, flush2_6 _, ?_⟩
  rw [mem_blk]
  intro a
  match a with
  | ⟨0, _⟩ =>
    show win2_6.index ⟨(i 0).val / 5000, hN⟩ (0 : Fin 2) * 5000 ≤ (i 0).val
      ∧ (i 0).val < win2_6.index ⟨(i 0).val / 5000, hN⟩ (0 : Fin 2) * 5000 + 5000
    omega
  | ⟨1, _⟩ =>
    show win2_6.index ⟨(i 0).val / 5000, hN⟩ (1 : Fin 2) * 128 ≤ (i 1).val
      ∧ (i 1).val < win2_6.index ⟨(i 0).val / 5000, hN⟩ (1 : Fin 2) * 128 + 128
    omega

/-! ## The array after the region -/

/-- The output array after the region is the layer of the arrays the region is entered with. -/
theorem out_eq (c : Dev nD) :
    outArr V c = layer (agg V c) (rdeg V c) (xd V c) (wl V c) (wr V c) (bias V c) :=
  (dat2 (F := Ideal) V c).arrAt_eq_of_cover 6 (layer (agg V c) (rdeg V c) (xd V c) (wl V c) (wr V c) (bias V c))
    (fun t _ => flushed_eq V c t) covered

/-- The output array at (p, q). -/
theorem out_at (c : Dev nD) (p : Fin 100000) (q : Fin 128) :
    outArr V c (ix2 p q) = max (((∑ k : Fin 128, (agg V c (ix2 p k) * rdeg V c (ix2 p (0 : Fin 1))) * wl V c (ix2 k q)) + bias V c (ix2 (0 : Fin 1) q)) + ∑ k : Fin 128, xd V c (ix2 p k) * wr V c (ix2 k q)) 0 :=
  congrFun (out_eq V c) (ix2 p q)

end Cert.Bridge.Reg2

end
-- ==== Proof.Step2.lean ====
/-
  From region 1's exit to region 2's: the author embeddings gathered along the edges and summed per document, then the
  first layer's document output, the same expression over the documents' arrays.
-/
import proofs.«417221_j22522808500707_2_alg».proof.Proof.Inv
import proofs.«417221_j22522808500707_2_alg».proof.Proof.Step1
import proofs.«417221_j22522808500707_2_alg».proof.Proof.Take
import proofs.«417221_j22522808500707_2_alg».proof.Proof.LibTRef
import proofs.«417221_j22522808500707_2_alg».proof.Proof.LibIdealDiv
import proofs.«417221_j22522808500707_2_alg».proof.Proof.Reg2
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.Bridge.Step2

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

/-! ## What the two host stretches write -/

/-- Every buffer the gather stretch writes: its own temporaries and the gathered rows. -/
def wrote8 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v31]

theorem wrote8_sub : (hostOps2 (F := Ideal) : List (HloOp τ sig (Elt Ideal))).Forall
    fun op => op.writes ⊆ (wrote8.map (Proc.devRef (τ := τ) .tc)).toFinset := by
  simp only [hostOps2, List.Forall, StableHlo.nullary_writes, StableHlo.unary_writes, StableHlo.binary_writes,
    StableHlo.ternary_writes, Finset.singleton_subset_iff]
  repeat' apply And.intro
  all_goals exact List.mem_toFinset.mpr (List.mem_map_of_mem (by decide))

/-- Every buffer the scatter stretch writes. -/
def wrote9 : List (Ref sig .tc) := [main_cst_8, main_v32, main_v33, main_v34, main_v35]

theorem wrote9_sub : (hostOps2_1 (F := Ideal) : List (HloOp τ sig (Elt Ideal))).Forall
    fun op => op.writes ⊆ (wrote9.map (Proc.devRef (τ := τ) .tc)).toFinset := by
  simp only [hostOps2_1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer the gather stretch does not write is as region 1 left it. -/
theorem keep8 (r : Ref sig .tc) (hr : r ∉ wrote8) :
    W8 (F := Ideal) m ρ c (Proc.devRef .tc r) = W7 (F := Ideal) m ρ c (Proc.devRef .tc r) :=
  StableHlo.after_of_writes_sub _ _ wrote8_sub hr

/-- A buffer the scatter stretch does not write is as the gather stretch left it. -/
theorem keep9 (r : Ref sig .tc) (hr : r ∉ wrote9) :
    W9 (F := Ideal) m ρ c (Proc.devRef .tc r) = W8 (F := Ideal) m ρ c (Proc.devRef .tc r) :=
  StableHlo.after_of_writes_sub _ _ wrote9_sub hr

/-- A buffer neither stretch writes enters region 2 as region 1 left it. -/
theorem keep (r : Ref sig .tc) (h8 : r ∉ wrote8) (h9 : r ∉ wrote9) :
    W9 (F := Ideal) m ρ c (Proc.devRef .tc r) = W7 (F := Ideal) m ρ c (Proc.devRef .tc r) :=
  (keep9 m ρ c r h9).trans (keep8 m ρ c r h8)

/-! ## The gather -/

/-- An index array equal to one whose entries all lie in [0, n) has its entries in [0, n). -/
theorem bounds_of_eq {s : Shape} (u v : IVec s 32) (n : Int) (e : u = v)
    (hv : ∀ i, 0 ≤ (v i).toInt ∧ (v i).toInt < n) : ∀ i, 0 ≤ (u i).toInt ∧ (u i).toInt < n := e ▸ hv

/-- The reference's wrapped destinations are the destinations: none is negative. -/
theorem wrap_dst (hi : IdxOk m c) : val_main_v44 (F := Ideal) (a2 m c) = edst m c := by
  unfold val_main_v44 val_main_v41 val_main_v43
  exact Take.wrap_id _ _ _ (fun i => by rw [val_main_v40_apply]; rfl) (fun i => (hi.dst i).1)

/-- The author embeddings gathered along the edges are the reference's. -/
theorem gathered_eq (h : Inv2 m ρ c) (hi : IdxOk m c) :
    W8 (F := Ideal) m ρ c (Proc.devRef .tc main_v31) = val_main_v46 (F := Ideal) (a1 m c) (a2 m c) (a6 m c) := by
  refine (Take.take_xauth_dst (V := W7 (F := Ideal) m ρ c) (bounds_of_eq _ _ 50000 h.dst hi.dst)).trans ?_
  rw [h.xauth, h.dst]
  unfold val_main_v46 val_main_v45
  rw [wrap_dst m c hi]
  rfl

/-! ## The scatter stretch, from any contents -/

/-- The stretch sums the rows of `main_v31` into the rows of a zero array named by `main_v4`. -/
theorem summed_read (V : Valuation τ sig (Elt Ideal)) :
    StableHlo.after (hostOps2_1 (F := Ideal)) V (Proc.devRef .tc main_v34)
      = Host.scatterAdd scatter_S100000x128_S500000x1_S500000x128_1_0_0_1
          (broadcastInDim S100000x128 ![] bcast_S_S100000x128 (constant (F := Ideal) S_ .f32 0x00000000#32))
          (broadcastInDim S500000x1 ![0] bcast_S500000_S500000x1_0 (V (Proc.devRef .tc main_v4)))
          (V (Proc.devRef .tc main_v31)) := by
  after_results

/-- The stretch reshapes the bias `main_arg11` to a row. -/
theorem row_read (V : Valuation τ sig (Elt Ideal)) :
    StableHlo.after (hostOps2_1 (F := Ideal)) V (Proc.devRef .tc main_v35)
      = shapeCast S1x128 (V (Proc.devRef .tc main_arg11)) shapeCasts_S128_S1x128 := by
  after_results; rfl

/-! ## The arrays region 2 is entered with -/

/-- The per-document sums of the gathered author embeddings are the reference's. -/
theorem agg_eq (h : Inv2 m ρ c) (hi : IdxOk m c) :
    Reg2.agg (V9 (F := Ideal) m ρ) c = val_main_v49 (F := Ideal) (a1 m c) (a2 m c) (a6 m c) := by
  refine (summed_read (W8 (F := Ideal) m ρ c)).trans ?_
  rw [gathered_eq m ρ c h hi, keep8 m ρ c main_v4 (by decide), h.src]
  rfl

/-- The reciprocal clamped degree of document p. -/
theorem rdeg_at (h : Inv2 m ρ c) (p : Fin 100000) :
    Reg2.rdeg (V9 (F := Ideal) m ρ) c (ix2 p (0 : Fin 1)) = Ideal.div 1 (degD m c (ix1 p)) :=
  (congrFun (keep m ρ c main_v24 (by decide) (by decide)) (ix2 p (0 : Fin 1))).trans (h.invD p)

/-- The projected document features, the two weights and the bias as a row. -/
theorem xd_eq (h : Inv2 m ρ c) : Reg2.xd (V9 (F := Ideal) m ρ) c = xdoc m c :=
  (keep m ρ c main_v1 (by decide) (by decide)).trans h.xdoc
theorem wl_eq (h : Inv2 m ρ c) : Reg2.wl (V9 (F := Ideal) m ρ) c = a10 m c :=
  (keep m ρ c main_arg10 (by decide) (by decide)).trans h.arg10
theorem wr_eq (h : Inv2 m ρ c) : Reg2.wr (V9 (F := Ideal) m ρ) c = a12 m c :=
  (keep m ρ c main_arg12 (by decide) (by decide)).trans h.arg12
theorem bias_eq (h : Inv2 m ρ c) :
    Reg2.bias (V9 (F := Ideal) m ρ) c = shapeCast S1x128 (a11 m c) shapeCasts_S128_S1x128 :=
  (row_read (W8 (F := Ideal) m ρ c)).trans
    (congrArg (fun x => shapeCast S1x128 x shapeCasts_S128_S1x128) ((keep8 m ρ c main_arg11 (by decide)).trans h.arg11))

/-! ## What region 2 leaves untouched -/

/-- A buffer that neither stretch writes and region 2 does not stage leaves region 2 as it left region 1. -/
theorem carried (r : Ref sig .tc) (hw : ∀ w, Pipeline.arrRef spec2 w ≠ r) (h8 : r ∉ wrote8) (h9 : r ∉ wrote9) :
    W10 (F := Ideal) m ρ c (Proc.devRef .tc r) = W7 (F := Ideal) m ρ c (Proc.devRef .tc r) :=
  (W10_of_ne m ρ c r hw).trans (keep m ρ c r h8 h9)

/-- The reciprocal clamped degrees of the documents are staged as an input and leave region 2 as they entered it. -/
theorem rdegD_carried :
    W10 (F := Ideal) m ρ c (Proc.devRef .tc main_v24) = W7 (F := Ideal) m ρ c (Proc.devRef .tc main_v24) :=
  ((W10_arr m ρ c 2).trans (((dat2 (V9 m ρ) c).arrAt_in 2 rfl _).trans (A_eq2 (V9 m ρ) c 2))).trans
    (keep m ρ c main_v24 (by decide) (by decide))

/-! ## The first layer's document output -/

/-- A degree clamped below by one is not zero. -/
theorem degD_ne_zero (p : Fin 100000) : degD m c (ix1 p) ≠ 0 := by
  show val_main_v55 (F := Ideal) (a2 m c) (ix1 p) ≠ 0
  rw [val_main_v55_apply, val_main_v54_apply, val_main_cst_11_apply, Ideal.maximumf_def, Ideal.ofBits_def,
    Ideal.ofBits_one_f32]
  exact Ideal.max_one_ne_zero _

/-- An entry of the reference's scaled per-document sums: the sum's entry divided by the clamped degree of its row. -/
theorem scaled_at (p : Fin 100000) (k : Fin 128) :
    val_main_v58 (F := Ideal) (a1 m c) (a2 m c) (a6 m c) (ix2 p k)
      = Ideal.div (val_main_v49 (F := Ideal) (a1 m c) (a2 m c) (a6 m c) (ix2 p k)) (degD m c (ix1 p)) := by
  have ed : idx_main_v56 (idx_main_v57 (ix2 p k)) = ix1 p := funext fun a => Fin.ext (by
    match a with
    | ⟨0, _⟩ => rfl)
  rw [val_main_v58_apply, val_main_v57_apply, val_main_v56_apply, ed, Ideal.hostDivf_def]

/-- The reference's first-layer document output at (p, q): row p of the per-document sums divided by the clamped
    degree against column q of the first weight, plus the bias at q, plus row p of the projected features against
    column q of the second weight, rectified. -/
theorem hD_at (p : Fin 100000) (q : Fin 128) :
    hD m c (ix2 p q)
      = max (((∑ k : Fin 128, Ideal.div (val_main_v49 (F := Ideal) (a1 m c) (a2 m c) (a6 m c) (ix2 p k)) (degD m c (ix1 p))
                * a10 m c (ix2 k q)) + a11 m c (ix1 q))
          + ∑ k : Fin 128, xdoc m c (ix2 p k) * a12 m c (ix2 k q)) 0 := by
  show val_main_v66 (F := Ideal) (a0 m c) (a1 m c) (a2 m c) (a4 m c) (a5 m c) (a6 m c) (a10 m c) (a11 m c) (a12 m c) (ix2 p q) = _
  rw [val_main_v66_apply, val_main_v64_apply, val_main_v62_apply, val_main_v59_apply, val_main_v63_apply,
    val_main_v61_apply, val_main_v60_apply, val_main_call1_v0_apply, val_main_call1_cst_apply]
  have el : ∀ k : Fin 128, lidx_main_v59 (ix2 p q) k = ix2 p k := fun k => funext fun a => Fin.ext (by
    match a with
    | ⟨0, _⟩ => rfl
    | ⟨1, _⟩ => rfl)
  have er : ∀ k : Fin 128, ridx_main_v59 (ix2 p q) k = ix2 k q := fun k => funext fun a => Fin.ext (by
    match a with
    | ⟨0, _⟩ => rfl
    | ⟨1, _⟩ => rfl)
  have el' : ∀ k : Fin 128, lidx_main_v63 (ix2 p q) k = ix2 p k := fun k => funext fun a => Fin.ext (by
    match a with
    | ⟨0, _⟩ => rfl
    | ⟨1, _⟩ => rfl)
  have er' : ∀ k : Fin 128, ridx_main_v63 (ix2 p q) k = ix2 k q := fun k => funext fun a => Fin.ext (by
    match a with
    | ⟨0, _⟩ => rfl
    | ⟨1, _⟩ => rfl)
  have eb : idx_main_v60 (idx_main_v61 (ix2 p q)) = ix1 q := funext fun a => Fin.ext (by
    match a with
    | ⟨0, _⟩ => rfl)
  simp only [el, er, el', er', eb, scaled_at m c p]
  rw [Ideal.maximumf_def, Ideal.addf_def, Ideal.addf_def, Ideal.ofBits_def, Ideal.ofBits_zero_f32]

/-- The first layer's document output at region 2's exit is the reference's. -/
theorem hD_eq (h : Inv2 m ρ c) (hi : IdxOk m c) :
    W10 (F := Ideal) m ρ c (Proc.devRef .tc main_v36) = hD m c := by
  refine (W10_arr m ρ c 6).trans ?_
  funext i
  obtain ⟨p, q, rfl⟩ : ∃ (p : Fin 100000) (q : Fin 128), i = ix2 p q := ⟨i 0, i 1, eq_ix2 i⟩
  refine (Cert.Bridge.Reg2.out_at (V9 (F := Ideal) m ρ) c p q).trans ?_
  rw [agg_eq m ρ c h hi, rdeg_at m ρ c h p, xd_eq m ρ c h, wl_eq m ρ c h, wr_eq m ρ c h, bias_eq m ρ c h]
  -- the reshaped bias at (0, q) is the bias at q: the two indices have the same row-major position
  have hb : shapeCast S1x128 (a11 m c) shapeCasts_S128_S1x128 (ix2 (0 : Fin 1) q) = a11 m c (ix1 q) :=
    shapeCast_apply _ _ _ (ix1 q) (by rw [Shape.rowMajor_val_one, Shape.rowMajor_val_two]; simp)
  rw [hb, hD_at m c p q]
  -- scaling by the reciprocal of the clamped degree is dividing by it
  simp only [fun x : EReal => Ideal.mul_div_one_eq_div x _ (degD_ne_zero m c p)]

theorem inv3 (h : Inv2 m ρ c) (hi : IdxOk m c) : Inv3 m ρ c where
  arg3 := (carried m ρ c main_arg3 (by decide) (by decide) (by decide)).trans h.arg3
  arg13 := (carried m ρ c main_arg13 (by decide) (by decide) (by decide)).trans h.arg13
  arg14 := (carried m ρ c main_arg14 (by decide) (by decide) (by decide)).trans h.arg14
  arg15 := (carried m ρ c main_arg15 (by decide) (by decide) (by decide)).trans h.arg15
  arg16 := (carried m ρ c main_arg16 (by decide) (by decide) (by decide)).trans h.arg16
  arg17 := (carried m ρ c main_arg17 (by decide) (by decide) (by decide)).trans h.arg17
  arg18 := (carried m ρ c main_arg18 (by decide) (by decide) (by decide)).trans h.arg18
  src := (carried m ρ c main_v4 (by decide) (by decide) (by decide)).trans h.src
  dst := (carried m ρ c main_v6 (by decide) (by decide) (by decide)).trans h.dst
  invA := fun p => (congrFun (carried m ρ c main_v15 (by decide) (by decide) (by decide)) (ix2 p (0 : Fin 1))).trans (h.invA p)
  invD := fun p => (congrFun (rdegD_carried m ρ c) (ix2 p (0 : Fin 1))).trans (h.invD p)
  hA := (carried m ρ c main_v30 (by decide) (by decide) (by decide)).trans h.hA
  hD := hD_eq m ρ c h hi

end Cert.Bridge.Step2

end
-- ==== Proof.Reg3.lean ====
/-
  Region 3's output array after the region, entry by entry, from the arrays the region is entered with: a second-layer output.
  Every grid point writes one block of 5000 rows; the blocks tile the 50000 rows, and the block that holds row p is
  point p / 5000, so the array's entry (p, q) is the body's entry (p mod 5000, q) of the blocks at that point.
-/
import proofs.«417221_j22522808500707_2_alg».proof.Proof.Gen.KernelIdeal.Frame
import proofs.«417221_j22522808500707_2_alg».proof.Proof.Pay
import Idealize.ShloMosaic.Lib.ValueIdx
import Idealize.ShloMosaic.Lib.Pipeline.Value

set_option maxRecDepth 16384

noncomputable section

namespace Cert.Bridge.Reg3

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- `main_v40` as the region finds it. -/
abbrev agg (c : Dev nD) : Vec Ideal S50000x128 .f32 := V c main_v40
/-- `main_v15` as the region finds it. -/
abbrev rdeg (c : Dev nD) : Vec Ideal S50000x1 .f32 := V c main_v15
/-- `main_v30` as the region finds it. -/
abbrev xd (c : Dev nD) : Vec Ideal S50000x128 .f32 := V c main_v30
/-- `main_arg13` as the region finds it. -/
abbrev wl (c : Dev nD) : Vec Ideal S128x128 .f32 := V c main_arg13
/-- `main_arg15` as the region finds it. -/
abbrev wr (c : Dev nD) : Vec Ideal S128x128 .f32 := V c main_arg15
/-- `main_v41` as the region finds it. -/
abbrev bias (c : Dev nD) : Vec Ideal S1x128 .f32 := V c main_v41

/-- The output array after the region, at its literal type. -/
abbrev outArr (c : Dev nD) : Vec Ideal S50000x128 .f32 := (dat3 (F := Ideal) V c).arrAt 6 cfg3.N

/-- The two zero offsets of a whole-block access, as the constant function. -/
theorem zero_off : (![0, 0] : Fin 2 → Nat) = fun _ => 0 := funext fun a => by fin_cases a <;> rfl

/-- The layer's value at row `p` and column `q` of six whole arrays: row `p` of the aggregate, scaled by that row's
    reciprocal degree, against column `q` of the first weight, plus the bias, plus row `p` of the destination features
    against column `q` of the second weight. -/
def layer (a : Vec Ideal S50000x128 .f32) (s : Vec Ideal S50000x1 .f32) (x : Vec Ideal S50000x128 .f32)
    (w₁ w₂ : Vec Ideal S128x128 .f32) (b : Vec Ideal S1x128 .f32) (p : Fin 50000) (q : Fin 128) : Elt Ideal .f32 :=
  ((∑ k : Fin 128, (a (ix2 p k) * s (ix2 p (0 : Fin 1))) * w₁ (ix2 k q)) + b (ix2 (0 : Fin 1) q)) + ∑ k : Fin 128, x (ix2 p k) * w₂ (ix2 k q)

/-- The whole output as one function of the index. -/
abbrev layerArr (a : Vec Ideal S50000x128 .f32) (s : Vec Ideal S50000x1 .f32) (x : Vec Ideal S50000x128 .f32)
    (w₁ w₂ : Vec Ideal S128x128 .f32) (b : Vec Ideal S1x128 .f32) : Vec Ideal S50000x128 .f32 :=
  fun i => layer a s x w₁ w₂ b (i 0) (i 1)

/-- A block's entry is the layer's value at the array's row the block's row sits at: the body's entry (p, q) of blocks
    whose rows `p` are the arrays' rows `P`. -/
theorem block_at (a : Vec Ideal S50000x128 .f32) (s : Vec Ideal S50000x1 .f32) (x : Vec Ideal S50000x128 .f32)
    (w₁ w₂ : Vec Ideal S128x128 .f32) (b : Vec Ideal S1x128 .f32)
    (a' : Vec Ideal S5000x128 .f32) (s' : Vec Ideal S5000x1 .f32) (x' : Vec Ideal S5000x128 .f32)
    (w₁' w₂' : Vec Ideal S128x128 .f32) (b' : Vec Ideal S1x128 .f32)
    (p : Fin 5000) (q : Fin 128) (P : Fin 50000)
    (ha : ∀ k : Fin 128, a' (ix2 p k) = a (ix2 P k))
    (hs : s' (ix2 p (0 : Fin 1)) = s (ix2 P (0 : Fin 1)))
    (hx : ∀ k : Fin 128, x' (ix2 p k) = x (ix2 P k))
    (hw₁ : ∀ k : Fin 128, w₁' (ix2 k q) = w₁ (ix2 k q))
    (hw₂ : ∀ k : Fin 128, w₂' (ix2 k q) = w₂ (ix2 k q))
    (hb : b' (ix2 (0 : Fin 1) q) = b (ix2 (0 : Fin 1) q)) :
    k3_pay1 (F := Ideal) a' s' x' w₁' w₂' b' (ix2 p q) = layer a s x w₁ w₂ b P q := by
  rw [Pay.sage_at]
  unfold layer
  simp only [ha, hs, hx, hw₁, hw₂, hb]

/-- The printed index maps over the grid: the three row-blocked inputs and the output sit at block row `t`, block
    column 0; the three small arrays are staged whole. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ t.val < 10 :=
  (by decide +kernel : ∀ t : Fin grid3.N, _)

/-- Where the blocks' entries sit in their arrays at point `t`: a block's coordinate is the block index times the
    block's size plus the coordinate inside the block. Window by window. -/
theorem emb_agg (t : Fin cfg3.N) (p : Fin 5000) (k : Fin 128) (P : Fin 50000) (hP : P.val = t.val * 5000 + p.val) :
    ((cfg3.win 0).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win3_0.index t (0 : Fin 2) * 5000 + 1 * p.val = P.val; omega
  | ⟨1, _⟩ => show win3_0.index t (1 : Fin 2) * 128 + 1 * k.val = k.val; omega

theorem emb_xd (t : Fin cfg3.N) (p : Fin 5000) (k : Fin 128) (P : Fin 50000) (hP : P.val = t.val * 5000 + p.val) :
    ((cfg3.win 1).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win3_1.index t (0 : Fin 2) * 5000 + 1 * p.val = P.val; omega
  | ⟨1, _⟩ => show win3_1.index t (1 : Fin 2) * 128 + 1 * k.val = k.val; omega

theorem emb_rdeg (t : Fin cfg3.N) (p : Fin 5000) (k : Fin 1) (P : Fin 50000) (hP : P.val = t.val * 5000 + p.val) :
    ((cfg3.win 2).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win3_2.index t (0 : Fin 2) * 5000 + 1 * p.val = P.val; omega
  | ⟨1, _⟩ => show win3_2.index t (1 : Fin 2) * 1 + 1 * k.val = k.val; omega

theorem emb_wl (t : Fin cfg3.N) (k : Fin 128) (q : Fin 128) :
    ((cfg3.win 3).blk t).view.emb (ix2 k q) = ix2 k q := by
  obtain ⟨e00, e01, e10, e11, e20, e21, e30, e31, e40, e41, e50, e51, e60, e61, ht⟩ := idx_facts t
  funext a; apply Fin.ext
  match a with
  | ⟨0, _⟩ => show win3_3.index t (0 : Fin 2) * 128 + 1 * k.val = k.val; omega
  | ⟨1, _⟩ => show win3_3.index t (1 : Fin 2) * 128 + 1 * q.val = q.val; omega

theorem emb_bias (t : Fin cfg3.N) (k : Fin 1) (q : Fin 128) :
    ((cfg3.win 4).blk t).view.emb (ix2 k q) = ix2 k q := by
  obtain ⟨e00, e01, e10, e11, e20, e21, e30, e31, e40, e41, e50, e51, e60, e61, ht⟩ := idx_facts t
  funext a; apply Fin.ext
  match a with
  | ⟨0, _⟩ => show win3_4.index t (0 : Fin 2) * 1 + 1 * k.val = k.val; omega
  | ⟨1, _⟩ => show win3_4.index t (1 : Fin 2) * 128 + 1 * q.val = q.val; omega

theorem emb_wr (t : Fin cfg3.N) (k : Fin 128) (q : Fin 128) :
    ((cfg3.win 5).blk t).view.emb (ix2 k q) = ix2 k q := by
  obtain ⟨e00, e01, e10, e11, e20, e21, e30, e31, e40, e41, e50, e51, e60, e61, ht⟩ := idx_facts t
  funext a; apply Fin.ext
  match a with
  | ⟨0, _⟩ => show win3_5.index t (0 : Fin 2) * 128 + 1 * k.val = k.val; omega
  | ⟨1, _⟩ => show win3_5.index t (1 : Fin 2) * 128 + 1 * q.val = q.val; omega

theorem emb_out (t : Fin cfg3.N) (p : Fin 5000) (k : Fin 128) (P : Fin 50000) (hP : P.val = t.val * 5000 + p.val) :
    ((cfg3.win 6).blk t).view.emb (ix2 p k) = ix2 P k := by
  obtain ⟨e00, e01, e10, e11, e20, e21, e30, e31, e40, e41, e50, e51, e60, e61, ht⟩ := idx_facts t
  funext a; apply Fin.ext
  match a with
  | ⟨0, _⟩ => show win3_6.index t (0 : Fin 2) * 5000 + 1 * p.val = P.val; omega
  | ⟨1, _⟩ => show win3_6.index t (1 : Fin 2) * 128 + 1 * k.val = k.val; omega

/-- What point `t` writes back is block `t` of the layer of the arrays the region finds. -/
theorem flushed_eq (c : Dev nD) (t : Fin cfg3.N) :
    (dat3 (F := Ideal) V c).flushed 6 t = ((cfg3.win 6).blk t).view.read (Elt Ideal) (layerArr (agg V c) (rdeg V c) (xd V c) (wl V c) (wr V c) (bias V c)) := by
  show (cfg3.win 6).cut (grid3.coords t) ((dat3 (F := Ideal) V c).after 6 t) = _
  rw [after3_6]
  unfold out3_6
  rw [View.canon_unit_zero zero_off]
  simp only [View.ld_unit_zero (S := S5000x128) zero_off, View.ld_unit_zero (S := S5000x1) zero_off,
    View.ld_unit_zero (S := S128x128) zero_off, View.ld_unit_zero (S := S1x128) zero_off]
  have ht : t.val < 10 := (idx_facts t).2.2.2.2.2.2.2.2.2.2.2.2.2.2
  funext j
  obtain ⟨p, q, rfl⟩ : ∃ (p : Fin 5000) (q : Fin 128), j = ix2 p q := ⟨j 0, j 1, eq_ix2 j⟩
  have hP : ((⟨t.val * 5000 + p.val, by omega⟩ : Fin 50000)).val = t.val * 5000 + p.val := rfl
  refine (block_at (agg V c) (rdeg V c) (xd V c) (wl V c) (wr V c) (bias V c)
    (iblk3 V c 0 t) (iblk3 V c 2 t) (iblk3 V c 1 t) (iblk3 V c 3 t) (iblk3 V c 5 t) (iblk3 V c 4 t) p q
    ⟨t.val * 5000 + p.val, by omega⟩ ?_ ?_ ?_ ?_ ?_ ?_).trans ?_
  · intro k
    show V c main_v40 (((cfg3.win 0).blk t).view.emb (ix2 p k)) = V c main_v40 (ix2 _ k)
    rw [emb_agg t p k _ hP]
  · show V c main_v15 (((cfg3.win 2).blk t).view.emb (ix2 p (0 : Fin 1))) = V c main_v15 (ix2 _ (0 : Fin 1))
    rw [emb_rdeg t p 0 _ hP]
  · intro k
    show V c main_v30 (((cfg3.win 1).blk t).view.emb (ix2 p k)) = V c main_v30 (ix2 _ k)
    rw [emb_xd t p k _ hP]
  · intro k
    show V c main_arg13 (((cfg3.win 3).blk t).view.emb (ix2 k q)) = V c main_arg13 (ix2 k q)
    rw [emb_wl t k q]
  · intro k
    show V c main_arg15 (((cfg3.win 5).blk t).view.emb (ix2 k q)) = V c main_arg15 (ix2 k q)
    rw [emb_wr t k q]
  · show V c main_v41 (((cfg3.win 4).blk t).view.emb (ix2 (0 : Fin 1) q)) = V c main_v41 (ix2 (0 : Fin 1) q)
    rw [emb_bias t 0 q]
  · show layer _ _ _ _ _ _ _ _ = layerArr (agg V c) (rdeg V c) (xd V c) (wl V c) (wr V c) (bias V c) (((cfg3.win 6).blk t).view.emb (ix2 p q))
    rw [emb_out t p q _ hP]

/-- An index of the array is in point `t`'s block iff each coordinate is in the block's range on its axis. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v42).slice (win3_6.rect t)).set ↔ _
  rw [View.set_slice_whole, Rect.mem_set_unit]
  exact Iff.rfl

/-- The blocks tile the rows: row `r` is in the block of point `r / 5000`, and every point writes its block back. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : (i 0).val / 5000 < cfg3.N := by rw [show cfg3.N = 10 from N_3]; omega
  obtain ⟨e00, e01, e10, e11, e20, e21, e30, e31, e40, e41, e50, e51, e60, e61, ht⟩ := idx_facts ⟨(i 0).val / 5000, hN⟩
  have q0 : win3_6.index ⟨(i 0).val / 5000, hN⟩ (0 : Fin 2) = (i 0).val / 5000 := e60
  refine ⟨⟨(i 0).val / 5000, hN⟩, flush3_6 _, ?_⟩
  rw [mem_blk]
  intro a
  match a with
  | ⟨0, _⟩ => show win3_6.index ⟨(i 0).val / 5000, hN⟩ (0 : Fin 2) * 5000 ≤ (i 0).val ∧ (i 0).val < win3_6.index ⟨(i 0).val / 5000, hN⟩ (0 : Fin 2) * 5000 + 5000; omega
  | ⟨1, _⟩ => show win3_6.index ⟨(i 0).val / 5000, hN⟩ (1 : Fin 2) * 128 ≤ (i 1).val ∧ (i 1).val < win3_6.index ⟨(i 0).val / 5000, hN⟩ (1 : Fin 2) * 128 + 128; omega

/-- The output array after the region is the layer of the arrays the region finds. -/
theorem out_eq (c : Dev nD) :
    outArr V c = layerArr (agg V c) (rdeg V c) (xd V c) (wl V c) (wr V c) (bias V c) :=
  (dat3 (F := Ideal) V c).arrAt_eq_of_cover 6 (layerArr (agg V c) (rdeg V c) (xd V c) (wl V c) (wr V c) (bias V c))
    (fun t _ => flushed_eq V c t) cover

/-- The output array at (p, q). -/
theorem out_at (c : Dev nD) (p : Fin 50000) (q : Fin 128) :
    outArr V c (ix2 p q) = ((∑ k : Fin 128, (agg V c (ix2 p k) * rdeg V c (ix2 p (0 : Fin 1))) * wl V c (ix2 k q)) + bias V c (ix2 (0 : Fin 1) q)) + ∑ k : Fin 128, xd V c (ix2 p k) * wr V c (ix2 k q) := by
  rw [out_eq]
  show layer (agg V c) (rdeg V c) (xd V c) (wl V c) (wr V c) (bias V c) p q = _
  unfold layer
  rfl

end Cert.Bridge.Reg3

end
-- ==== Proof.Step3.lean ====
/-
  From region 2's exit to region 3's: the first layer's document output gathered along the edges and summed per author,
  then the second layer's author output, the first layer's expression without the rectifier.
-/
import proofs.«417221_j22522808500707_2_alg».proof.Proof.Inv
import proofs.«417221_j22522808500707_2_alg».proof.Proof.Step2
import proofs.«417221_j22522808500707_2_alg».proof.Proof.Take
import proofs.«417221_j22522808500707_2_alg».proof.Proof.LibTRef
import proofs.«417221_j22522808500707_2_alg».proof.Proof.LibIdealDiv
import proofs.«417221_j22522808500707_2_alg».proof.Proof.Reg3
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.Bridge.Step3

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

/-! ## What the two host stretches write -/

/-- Every buffer the gather stretch writes: its own temporaries and the gathered rows. -/
def wrote11 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v37]

theorem wrote11_sub : (hostOps3 (F := Ideal) : List (HloOp τ sig (Elt Ideal))).Forall
    fun op => op.writes ⊆ (wrote11.map (Proc.devRef (τ := τ) .tc)).toFinset := by
  simp only [hostOps3, List.Forall, StableHlo.nullary_writes, StableHlo.unary_writes, StableHlo.binary_writes,
    StableHlo.ternary_writes, Finset.singleton_subset_iff]
  repeat' apply And.intro
  all_goals exact List.mem_toFinset.mpr (List.mem_map_of_mem (by decide))

/-- Every buffer the scatter stretch writes. -/
def wrote12 : List (Ref sig .tc) := [main_cst_9, main_v38, main_v39, main_v40, main_v41]

theorem wrote12_sub : (hostOps3_1 (F := Ideal) : List (HloOp τ sig (Elt Ideal))).Forall
    fun op => op.writes ⊆ (wrote12.map (Proc.devRef (τ := τ) .tc)).toFinset := by
  simp only [hostOps3_1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer the gather stretch does not write is as region 2 left it. -/
theorem keep11 (r : Ref sig .tc) (hr : r ∉ wrote11) :
    W11 (F := Ideal) m ρ c (Proc.devRef .tc r) = W10 (F := Ideal) m ρ c (Proc.devRef .tc r) :=
  StableHlo.after_of_writes_sub _ _ wrote11_sub hr

/-- A buffer the scatter stretch does not write is as the gather stretch left it. -/
theorem keep12 (r : Ref sig .tc) (hr : r ∉ wrote12) :
    W12 (F := Ideal) m ρ c (Proc.devRef .tc r) = W11 (F := Ideal) m ρ c (Proc.devRef .tc r) :=
  StableHlo.after_of_writes_sub _ _ wrote12_sub hr

/-- A buffer neither stretch writes enters region 3 as region 2 left it. -/
theorem keep (r : Ref sig .tc) (h11 : r ∉ wrote11) (h12 : r ∉ wrote12) :
    W12 (F := Ideal) m ρ c (Proc.devRef .tc r) = W10 (F := Ideal) m ρ c (Proc.devRef .tc r) :=
  (keep12 m ρ c r h12).trans (keep11 m ρ c r h11)

/-! ## The gather -/

/-- An index array equal to one whose entries all lie in [0, n) has its entries in [0, n). -/
theorem bounds_of_eq {s : Shape} (u v : IVec s 32) (n : Int) (e : u = v)
    (hv : ∀ i, 0 ≤ (v i).toInt ∧ (v i).toInt < n) : ∀ i, 0 ≤ (u i).toInt ∧ (u i).toInt < n := e ▸ hv

/-- The reference's wrapped sources are the sources: none is negative. -/
theorem wrap_src (hi : IdxOk m c) : val_main_v71 (F := Ideal) (a2 m c) = esrc m c := by
  unfold val_main_v71 val_main_v68 val_main_v70
  exact Take.wrap_id _ _ _ (fun i => by rw [val_main_v67_apply]; rfl) (fun i => (hi.src i).1)

/-- The first layer's document output gathered along the edges is the reference's. -/
theorem gathered_eq (h : Inv3 m ρ c) (hi : IdxOk m c) :
    W11 (F := Ideal) m ρ c (Proc.devRef .tc main_v37)
      = val_main_v73 (F := Ideal) (a0 m c) (a1 m c) (a2 m c) (a4 m c) (a5 m c) (a6 m c) (a10 m c) (a11 m c) (a12 m c) := by
  refine (Take.take_hD_src (V := W10 (F := Ideal) m ρ c) (bounds_of_eq _ _ 100000 h.src hi.src)).trans ?_
  rw [h.hD, h.src]
  unfold val_main_v73 val_main_v72
  rw [wrap_src m c hi]
  rfl

/-! ## The scatter stretch, from any contents -/

/-- The stretch sums the rows of `main_v37` into the rows of a zero array named by `main_v6`. -/
theorem summed_read (V : Valuation τ sig (Elt Ideal)) :
    StableHlo.after (hostOps3_1 (F := Ideal)) V (Proc.devRef .tc main_v40)
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 (V (Proc.devRef .tc main_v6)))
          (V (Proc.devRef .tc main_v37)) := by
  after_results

/-- The stretch reshapes the bias `main_arg14` to a row. -/
theorem row_read (V : Valuation τ sig (Elt Ideal)) :
    StableHlo.after (hostOps3_1 (F := Ideal)) V (Proc.devRef .tc main_v41)
      = shapeCast S1x128 (V (Proc.devRef .tc main_arg14)) shapeCasts_S128_S1x128 := by
  after_results; rfl

/-! ## The arrays region 3 is entered with -/

/-- The per-author sums of the gathered document outputs are the reference's. -/
theorem agg_eq (h : Inv3 m ρ c) (hi : IdxOk m c) :
    Reg3.agg (V12 (F := Ideal) m ρ) c
      = val_main_v76 (F := Ideal) (a0 m c) (a1 m c) (a2 m c) (a4 m c) (a5 m c) (a6 m c) (a10 m c) (a11 m c) (a12 m c) := by
  refine (summed_read (W11 (F := Ideal) m ρ c)).trans ?_
  rw [gathered_eq m ρ c h hi, keep11 m ρ c main_v6 (by decide), h.dst]
  rfl

/-- The reciprocal clamped degree of author p. -/
theorem rdeg_at (h : Inv3 m ρ c) (p : Fin 50000) :
    Reg3.rdeg (V12 (F := Ideal) m ρ) c (ix2 p (0 : Fin 1)) = Ideal.div 1 (degA m c (ix1 p)) :=
  (congrFun (keep m ρ c main_v15 (by decide) (by decide)) (ix2 p (0 : Fin 1))).trans (h.invA p)

/-- The first layer's author output, the two weights and the bias as a row. -/
theorem xd_eq (h : Inv3 m ρ c) : Reg3.xd (V12 (F := Ideal) m ρ) c = hA m c :=
  (keep m ρ c main_v30 (by decide) (by decide)).trans h.hA
theorem wl_eq (h : Inv3 m ρ c) : Reg3.wl (V12 (F := Ideal) m ρ) c = a13 m c :=
  (keep m ρ c main_arg13 (by decide) (by decide)).trans h.arg13
theorem wr_eq (h : Inv3 m ρ c) : Reg3.wr (V12 (F := Ideal) m ρ) c = a15 m c :=
  (keep m ρ c main_arg15 (by decide) (by decide)).trans h.arg15
theorem bias_eq (h : Inv3 m ρ c) :
    Reg3.bias (V12 (F := Ideal) m ρ) c = shapeCast S1x128 (a14 m c) shapeCasts_S128_S1x128 :=
  (row_read (W11 (F := Ideal) m ρ c)).trans
    (congrArg (fun x => shapeCast S1x128 x shapeCasts_S128_S1x128) ((keep11 m ρ c main_arg14 (by decide)).trans h.arg14))

/-! ## What region 3 leaves untouched -/

/-- A buffer that neither stretch writes and region 3 does not stage leaves region 3 as it left region 2. -/
theorem carried (r : Ref sig .tc) (hw : ∀ w, Pipeline.arrRef spec3 w ≠ r) (h11 : r ∉ wrote11) (h12 : r ∉ wrote12) :
    W13 (F := Ideal) m ρ c (Proc.devRef .tc r) = W10 (F := Ideal) m ρ c (Proc.devRef .tc r) :=
  (W13_of_ne m ρ c r hw).trans (keep m ρ c r h11 h12)

/-- The first layer's author output is staged as an input and leaves region 3 as it entered it. -/
theorem hA_carried :
    W13 (F := Ideal) m ρ c (Proc.devRef .tc main_v30) = W10 (F := Ideal) m ρ c (Proc.devRef .tc main_v30) :=
  ((W13_arr m ρ c 1).trans (((dat3 (V12 m ρ) c).arrAt_in 1 rfl _).trans (A_eq3 (V12 m ρ) c 1))).trans
    (keep m ρ c main_v30 (by decide) (by decide))

/-! ## The second layer's author output -/

/-- The reference counts the authors' edges a second time, by the same operations on the same argument. -/
theorem degA_again : val_main_v82 (F := Ideal) (a2 m c) = degA m c := by
  show val_main_v82 (F := Ideal) (a2 m c) = val_main_v30 (F := Ideal) (a2 m c)
  unfold val_main_v82 val_main_v30
  unfold val_main_v80 val_main_v28 val_main_v81 val_main_v29
  rfl

/-- A degree clamped below by one is not zero. -/
theorem degA_ne_zero (p : Fin 50000) : degA m c (ix1 p) ≠ 0 := by
  show val_main_v30 (F := Ideal) (a2 m c) (ix1 p) ≠ 0
  rw [val_main_v30_apply, val_main_v29_apply, val_main_cst_5_apply, Ideal.maximumf_def, Ideal.ofBits_def,
    Ideal.ofBits_one_f32]
  exact Ideal.max_one_ne_zero _

/-- An entry of the reference's scaled per-author sums: the sum's entry divided by the clamped degree of its row. -/
theorem scaled_at (p : Fin 50000) (k : Fin 128) :
    val_main_v85 (F := Ideal) (a0 m c) (a1 m c) (a2 m c) (a4 m c) (a5 m c) (a6 m c) (a10 m c) (a11 m c) (a12 m c) (ix2 p k)
      = Ideal.div (val_main_v76 (F := Ideal) (a0 m c) (a1 m c) (a2 m c) (a4 m c) (a5 m c) (a6 m c) (a10 m c) (a11 m c) (a12 m c) (ix2 p k)) (degA m c (ix1 p)) := by
  have ed : idx_main_v83 (idx_main_v84 (ix2 p k)) = ix1 p := funext fun a => Fin.ext (by
    match a with
    | ⟨0, _⟩ => rfl)
  rw [val_main_v85_apply, val_main_v84_apply, val_main_v83_apply, ed, degA_again m c, Ideal.hostDivf_def]

/-- The reference's second-layer author output at (p, q): row p of the per-author sums divided by the clamped degree
    against column q of the first weight, plus the bias at q, plus row p of the first layer's author output against
    column q of the second weight. -/
theorem oA_at (p : Fin 50000) (q : Fin 128) :
    oA m c (ix2 p q)
      = ((∑ k : Fin 128, Ideal.div (val_main_v76 (F := Ideal) (a0 m c) (a1 m c) (a2 m c) (a4 m c) (a5 m c) (a6 m c) (a10 m c) (a11 m c) (a12 m c) (ix2 p k)) (degA m c (ix1 p))
                * a13 m c (ix2 k q)) + a14 m c (ix1 q))
          + ∑ k : Fin 128, hA m c (ix2 p k) * a15 m c (ix2 k q) := by
  show val_main_v91 (F := Ideal) (a0 m c) (a1 m c) (a2 m c) (a4 m c) (a5 m c) (a6 m c) (a7 m c) (a8 m c) (a9 m c) (a10 m c) (a11 m c) (a12 m c) (a13 m c) (a14 m c) (a15 m c) (ix2 p q) = _
  rw [val_main_v91_apply, val_main_v89_apply, val_main_v86_apply, val_main_v90_apply, val_main_v88_apply,
    val_main_v87_apply]
  have el : ∀ k : Fin 128, lidx_main_v86 (ix2 p q) k = ix2 p k := fun k => funext fun a => Fin.ext (by
    match a with
    | ⟨0, _⟩ => rfl
    | ⟨1, _⟩ => rfl)
  have er : ∀ k : Fin 128, ridx_main_v86 (ix2 p q) k = ix2 k q := fun k => funext fun a => Fin.ext (by
    match a with
    | ⟨0, _⟩ => rfl
    | ⟨1, _⟩ => rfl)
  have el' : ∀ k : Fin 128, lidx_main_v90 (ix2 p q) k = ix2 p k := fun k => funext fun a => Fin.ext (by
    match a with
    | ⟨0, _⟩ => rfl
    | ⟨1, _⟩ => rfl)
  have er' : ∀ k : Fin 128, ridx_main_v90 (ix2 p q) k = ix2 k q := fun k => funext fun a => Fin.ext (by
    match a with
    | ⟨0, _⟩ => rfl
    | ⟨1, _⟩ => rfl)
  have eb : idx_main_v87 (idx_main_v88 (ix2 p q)) = ix1 q := funext fun a => Fin.ext (by
    match a with
    | ⟨0, _⟩ => rfl)
  simp only [el, er, el', er', eb, scaled_at m c p]
  rw [Ideal.addf_def, Ideal.addf_def]

/-- The second layer's author output at region 3's exit is the reference's. -/
theorem oA_eq (h : Inv3 m ρ c) (hi : IdxOk m c) :
    W13 (F := Ideal) m ρ c (Proc.devRef .tc main_v42) = oA m c := by
  refine (W13_arr m ρ c 6).trans ?_
  funext i
  obtain ⟨p, q, rfl⟩ : ∃ (p : Fin 50000) (q : Fin 128), i = ix2 p q := ⟨i 0, i 1, eq_ix2 i⟩
  refine (Cert.Bridge.Reg3.out_at (V12 (F := Ideal) m ρ) c p q).trans ?_
  rw [agg_eq m ρ c h hi, rdeg_at m ρ c h p, xd_eq m ρ c h, wl_eq m ρ c h, wr_eq m ρ c h, bias_eq m ρ c h]
  -- the reshaped bias at (0, q) is the bias at q: the two indices have the same row-major position
  have hb : shapeCast S1x128 (a14 m c) shapeCasts_S128_S1x128 (ix2 (0 : Fin 1) q) = a14 m c (ix1 q) :=
    shapeCast_apply _ _ _ (ix1 q) (by rw [Shape.rowMajor_val_one, Shape.rowMajor_val_two]; simp)
  rw [hb, oA_at m c p q]
  -- scaling by the reciprocal of the clamped degree is dividing by it
  simp only [fun x : EReal => Ideal.mul_div_one_eq_div x _ (degA_ne_zero m c p)]

theorem inv4 (h : Inv3 m ρ c) (hi : IdxOk m c) : Inv4 m ρ c where
  arg3 := (carried m ρ c main_arg3 (by decide) (by decide) (by decide)).trans h.arg3
  arg16 := (carried m ρ c main_arg16 (by decide) (by decide) (by decide)).trans h.arg16
  arg17 := (carried m ρ c main_arg17 (by decide) (by decide) (by decide)).trans h.arg17
  arg18 := (carried m ρ c main_arg18 (by decide) (by decide) (by decide)).trans h.arg18
  src := (carried m ρ c main_v4 (by decide) (by decide) (by decide)).trans h.src
  dst := (carried m ρ c main_v6 (by decide) (by decide) (by decide)).trans h.dst
  invD := fun p => (congrFun (carried m ρ c main_v24 (by decide) (by decide) (by decide)) (ix2 p (0 : Fin 1))).trans (h.invD p)
  hA := (hA_carried m ρ c).trans h.hA
  hD := (carried m ρ c main_v36 (by decide) (by decide) (by decide)).trans h.hD
  oA := oA_eq m ρ c h hi

end Cert.Bridge.Step3

end
-- ==== Proof.Reg4.lean ====
/-
  Region 4's output array after the region, entry by entry, from the arrays the region is entered with: a second-layer output.
  Every grid point writes one block of 5000 rows; the blocks tile the 100000 rows, and the block that holds row p is
  point p / 5000, so the array's entry (p, q) is the body's entry (p mod 5000, q) of the blocks at that point.
-/
import proofs.«417221_j22522808500707_2_alg».proof.Proof.Gen.KernelIdeal.Frame
import proofs.«417221_j22522808500707_2_alg».proof.Proof.Pay
import Idealize.ShloMosaic.Lib.ValueIdx
import Idealize.ShloMosaic.Lib.Pipeline.Value

set_option maxRecDepth 16384

noncomputable section

namespace Cert.Bridge.Reg4

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- `main_v46` as the region finds it. -/
abbrev agg (c : Dev nD) : Vec Ideal S100000x128 .f32 := V c main_v46
/-- `main_v24` as the region finds it. -/
abbrev rdeg (c : Dev nD) : Vec Ideal S100000x1 .f32 := V c main_v24
/-- `main_v36` as the region finds it. -/
abbrev xd (c : Dev nD) : Vec Ideal S100000x128 .f32 := V c main_v36
/-- `main_arg16` as the region finds it. -/
abbrev wl (c : Dev nD) : Vec Ideal S128x128 .f32 := V c main_arg16
/-- `main_arg18` as the region finds it. -/
abbrev wr (c : Dev nD) : Vec Ideal S128x128 .f32 := V c main_arg18
/-- `main_v47` as the region finds it. -/
abbrev bias (c : Dev nD) : Vec Ideal S1x128 .f32 := V c main_v47

/-- The output array after the region, at its literal type. -/
abbrev outArr (c : Dev nD) : Vec Ideal S100000x128 .f32 := (dat4 (F := Ideal) V c).arrAt 6 cfg4.N

/-! ## Which array each window stages -/

example : Pipeline.arrRef spec4 0 = main_v46 := rfl
example : Pipeline.arrRef spec4 1 = main_v36 := rfl
example : Pipeline.arrRef spec4 2 = main_v24 := rfl
example : Pipeline.arrRef spec4 3 = main_arg16 := rfl
example : Pipeline.arrRef spec4 4 = main_v47 := rfl
example : Pipeline.arrRef spec4 5 = main_arg18 := rfl

/-! ## The layer as one function of the whole arrays -/

/-- The second-layer sum at every entry of the 100000 x 128 array. -/
def layer (a : Vec Ideal S100000x128 .f32) (s : Vec Ideal S100000x1 .f32) (x : Vec Ideal S100000x128 .f32)
    (w₁ w₂ : Vec Ideal S128x128 .f32) (b : Vec Ideal S1x128 .f32) : Vec Ideal S100000x128 .f32 :=
  fun i => ((∑ k : Fin 128, (a (ix2 (i 0) k) * s (ix2 (i 0) (0 : Fin 1))) * w₁ (ix2 k (i 1))) + b (ix2 (0 : Fin 1) (i 1)))
    + ∑ k : Fin 128, x (ix2 (i 0) k) * w₂ (ix2 k (i 1))

/-! ## The index maps over the grid -/

/-- The body's whole-block rectangles start at zero on both axes. -/
theorem zero_offs : (![0, 0] : Fin 2 → Nat) = fun _ => 0 := funext fun a => by fin_cases a <;> rfl

/-- Decided once over the 20 points: a row-blocked window's block index is the point on the row axis and zero on the
    column axis; a whole-array window's block index is zero on both. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-! ## The blocks at a point, each at its literal type -/

/-- The aggregate's block at point t. -/
abbrev aggBlk (c : Dev nD) (t : Fin cfg4.N) : Vec Ideal S5000x128 .f32 := iblk4 (F := Ideal) V c 0 t
/-- The destination features' block at point t. -/
abbrev xdBlk (c : Dev nD) (t : Fin cfg4.N) : Vec Ideal S5000x128 .f32 := iblk4 (F := Ideal) V c 1 t
/-- The reciprocal degrees' block at point t. -/
abbrev rdegBlk (c : Dev nD) (t : Fin cfg4.N) : Vec Ideal S5000x1 .f32 := iblk4 (F := Ideal) V c 2 t
/-- The first weight's block at point t. -/
abbrev wlBlk (c : Dev nD) (t : Fin cfg4.N) : Vec Ideal S128x128 .f32 := iblk4 (F := Ideal) V c 3 t
/-- The bias's block at point t. -/
abbrev biasBlk (c : Dev nD) (t : Fin cfg4.N) : Vec Ideal S1x128 .f32 := iblk4 (F := Ideal) V c 4 t
/-- The second weight's block at point t. -/
abbrev wrBlk (c : Dev nD) (t : Fin cfg4.N) : Vec Ideal S128x128 .f32 := iblk4 (F := Ideal) V c 5 t

/-- Row r of the aggregate's block at point t is row 5000 t + r of the array. -/
theorem aggBlk_at (c : Dev nD) (t : Fin cfg4.N) (r : Fin 5000) (k : Fin 128) (p : Fin 100000)
    (hp : p.val = t.val * 5000 + r.val) : aggBlk V c t (ix2 r k) = agg V c (ix2 p k) := by
  obtain ⟨e0, e1, -⟩ := block_index t
  show V c main_v46 (((cfg4.win 0).blk t).view.emb (ix2 r k)) = V c main_v46 (ix2 p k)
  refine congrArg (V c main_v46) ?_
  funext a; apply Fin.ext
  match a with
  | ⟨0, _⟩ => show win4_0.index t (0 : Fin 2) * 5000 + 1 * r.val = p.val; omega
  | ⟨1, _⟩ => show win4_0.index t (1 : Fin 2) * 128 + 1 * k.val = k.val; omega

/-- Row r of the destination features' block at point t is row 5000 t + r of the array. -/
theorem xdBlk_at (c : Dev nD) (t : Fin cfg4.N) (r : Fin 5000) (k : Fin 128) (p : Fin 100000)
    (hp : p.val = t.val * 5000 + r.val) : xdBlk V c t (ix2 r k) = xd V c (ix2 p k) := by
  obtain ⟨-, -, e0, e1, -⟩ := block_index t
  show V c main_v36 (((cfg4.win 1).blk t).view.emb (ix2 r k)) = V c main_v36 (ix2 p k)
  refine congrArg (V c main_v36) ?_
  funext a; apply Fin.ext
  match a with
  | ⟨0, _⟩ => show win4_1.index t (0 : Fin 2) * 5000 + 1 * r.val = p.val; omega
  | ⟨1, _⟩ => show win4_1.index t (1 : Fin 2) * 128 + 1 * k.val = k.val; omega

/-- Row r of the reciprocal degrees' block at point t is row 5000 t + r of the array. -/
theorem rdegBlk_at (c : Dev nD) (t : Fin cfg4.N) (r : Fin 5000) (p : Fin 100000)
    (hp : p.val = t.val * 5000 + r.val) : rdegBlk V c t (ix2 r (0 : Fin 1)) = rdeg V c (ix2 p (0 : Fin 1)) := by
  obtain ⟨-, -, -, -, e0, e1, -⟩ := block_index t
  show V c main_v24 (((cfg4.win 2).blk t).view.emb (ix2 r (0 : Fin 1))) = V c main_v24 (ix2 p (0 : Fin 1))
  refine congrArg (V c main_v24) ?_
  funext a; apply Fin.ext
  match a with
  | ⟨0, _⟩ => show win4_2.index t (0 : Fin 2) * 5000 + 1 * r.val = p.val; omega
  | ⟨1, _⟩ => show win4_2.index t (1 : Fin 2) * 1 + 1 * 0 = 0; omega

/-- The first weight's block is the whole array at every point. -/
theorem wlBlk_eq (c : Dev nD) (t : Fin cfg4.N) : wlBlk V c t = wl V c := by
  obtain ⟨-, -, -, -, -, -, e0, e1, -⟩ := block_index t
  funext y
  show V c main_arg16 (((cfg4.win 3).blk t).view.emb y) = V c main_arg16 y
  refine congrArg (V c main_arg16) ?_
  funext a; apply Fin.ext
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- The bias's block is the whole array at every point. -/
theorem biasBlk_eq (c : Dev nD) (t : Fin cfg4.N) : biasBlk V c t = bias V c := by
  obtain ⟨-, -, -, -, -, -, -, -, e0, e1, -⟩ := block_index t
  funext y
  show V c main_v47 (((cfg4.win 4).blk t).view.emb y) = V c main_v47 y
  refine congrArg (V c main_v47) ?_
  funext a; apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- The second weight's block is the whole array at every point. -/
theorem wrBlk_eq (c : Dev nD) (t : Fin cfg4.N) : wrBlk V c t = wr V c := by
  obtain ⟨-, -, -, -, -, -, -, -, -, -, e0, e1, -⟩ := block_index t
  funext y
  show V c main_arg18 (((cfg4.win 5).blk t).view.emb y) = V c main_arg18 y
  refine congrArg (V c main_arg18) ?_
  funext a; apply Fin.ext
  match a with
  | ⟨0, _⟩ => show win4_5.index t (0 : Fin 2) * 128 + 1 * (y 0).val = (y 0).val; omega
  | ⟨1, _⟩ => show win4_5.index t (1 : Fin 2) * 128 + 1 * (y 1).val = (y 1).val; omega

/-! ## What a point writes back -/

/-- The body's entry j of the blocks at point t is the layer's entry at j's place in the array: row 5000 t + j's row,
    the same column. -/
theorem body_at (c : Dev nD) (t : Fin cfg4.N) (j : S5000x128.Idx) (i : S100000x128.Idx)
    (h0 : (i 0).val = t.val * 5000 + (j 0).val) (h1 : (i 1).val = (j 1).val) :
    k4_pay1 (F := Ideal) (aggBlk V c t) (rdegBlk V c t) (xdBlk V c t) (wlBlk V c t) (wrBlk V c t) (biasBlk V c t) j
      = layer (agg V c) (rdeg V c) (xd V c) (wl V c) (wr V c) (bias V c) i := by
  obtain ⟨r, q, rfl⟩ : ∃ (r : Fin 5000) (q : Fin 128), j = ix2 r q := ⟨j 0, j 1, eq_ix2 j⟩
  obtain ⟨p, q', rfl⟩ : ∃ (p : Fin 100000) (q' : Fin 128), i = ix2 p q' := ⟨i 0, i 1, eq_ix2 i⟩
  have hp : p.val = t.val * 5000 + r.val := h0
  have hq : q' = q := Fin.ext h1
  subst hq
  have h := Pay.sage_at (aggBlk V c t) (rdegBlk V c t) (xdBlk V c t) (wlBlk V c t) (wrBlk V c t) (biasBlk V c t) r q'
  rw [← Pay.k4_eq_k3] at h
  refine h.trans ?_
  show _ = ((∑ k : Fin 128, (agg V c (ix2 p k) * rdeg V c (ix2 p (0 : Fin 1))) * wl V c (ix2 k q')) + bias V c (ix2 (0 : Fin 1) q'))
    + ∑ k : Fin 128, xd V c (ix2 p k) * wr V c (ix2 k q')
  rw [wlBlk_eq V c t, wrBlk_eq V c t, biasBlk_eq V c t, rdegBlk_at V c t r p hp]
  simp only [aggBlk_at V c t r _ p hp, xdBlk_at V c t r _ p hp]

/-- What point t writes back is block t of the layer of the arrays the region is entered with. -/
theorem flushed_eq (c : Dev nD) (t : Fin cfg4.N) :
    (dat4 (F := Ideal) V c).flushed 6 t
      = ((cfg4.win 6).blk t).view.read (Elt Ideal) (layer (agg V c) (rdeg V c) (xd V c) (wl V c) (wr V c) (bias V c)) := by
  show (cfg4.win 6).cut (grid4.coords t) ((dat4 (F := Ideal) V c).after 6 t) = _
  rw [after4_6]
  unfold out4_6
  rw [View.canon_unit_zero zero_offs]
  simp only [View.ld_unit_zero (S := S5000x128) zero_offs, View.ld_unit_zero (S := S5000x1) zero_offs,
    View.ld_unit_zero (S := S128x128) zero_offs, View.ld_unit_zero (S := S1x128) zero_offs]
  obtain ⟨-, -, -, -, -, -, -, -, -, -, -, -, e0, e1⟩ := block_index t
  funext j
  refine body_at V c t j (((cfg4.win 6).blk t).view.emb j) ?_ ?_
  · show win4_6.index t (0 : Fin 2) * 5000 + 1 * (j 0).val = t.val * 5000 + (j 0).val; omega
  · show win4_6.index t (1 : Fin 2) * 128 + 1 * (j 1).val = (j 1).val; omega

/-! ## The blocks cover the array -/

/-- An index of the array is in point t's block iff each coordinate is in the block's range on its axis. -/
theorem mem_blk (t : Fin cfg4.N) (i : S100000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v48).slice (win4_6.rect t)).set ↔ _
  rw [View.set_slice_whole, Rect.mem_set_unit]
  exact Iff.rfl

/-- Row p lies in the block of point p / 5000, which is written back. -/
theorem covered (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : (i 0).val / 5000 < cfg4.N := by
    show (i 0).val / 5000 < grid4.N
    rw [N_4]; omega
  obtain ⟨-, -, -, -, -, -, -, -, -, -, -, -, e0, e1⟩ := block_index ⟨(i 0).val / 5000, hN⟩
  have e0' : win4_6.index ⟨(i 0).val / 5000, hN⟩ (0 : Fin 2) = (i 0).val / 5000 := e0
  refine ⟨⟨(i 0).val / 5000, hN⟩, flush4_6 _, ?_⟩
  rw [mem_blk]
  intro a
  match a with
  | ⟨0, _⟩ =>
    show win4_6.index ⟨(i 0).val / 5000, hN⟩ (0 : Fin 2) * 5000 ≤ (i 0).val
      ∧ (i 0).val < win4_6.index ⟨(i 0).val / 5000, hN⟩ (0 : Fin 2) * 5000 + 5000
    omega
  | ⟨1, _⟩ =>
    show win4_6.index ⟨(i 0).val / 5000, hN⟩ (1 : Fin 2) * 128 ≤ (i 1).val
      ∧ (i 1).val < win4_6.index ⟨(i 0).val / 5000, hN⟩ (1 : Fin 2) * 128 + 128
    omega

/-! ## The array after the region -/

/-- The output array after the region is the layer of the arrays the region is entered with. -/
theorem out_eq (c : Dev nD) :
    outArr V c = layer (agg V c) (rdeg V c) (xd V c) (wl V c) (wr V c) (bias V c) :=
  (dat4 (F := Ideal) V c).arrAt_eq_of_cover 6 (layer (agg V c) (rdeg V c) (xd V c) (wl V c) (wr V c) (bias V c))
    (fun t _ => flushed_eq V c t) covered

/-- The output array at (p, q). -/
theorem out_at (c : Dev nD) (p : Fin 100000) (q : Fin 128) :
    outArr V c (ix2 p q) = ((∑ k : Fin 128, (agg V c (ix2 p k) * rdeg V c (ix2 p (0 : Fin 1))) * wl V c (ix2 k q)) + bias V c (ix2 (0 : Fin 1) q)) + ∑ k : Fin 128, xd V c (ix2 p k) * wr V c (ix2 k q) :=
  congrFun (out_eq V c) (ix2 p q)

end Cert.Bridge.Reg4

end
-- ==== Proof.Step4.lean ====
/-
  From region 3's exit to region 4's: the first layer's author output gathered along the edges and summed per document,
  then the second layer's document output. Entry (p, q) of the output is the summed row p scaled by the reciprocal
  clamped document degree against the first weight, plus the bias at q, plus layer one's document row p against the
  second weight. The reference divides the summed row by the clamped degree instead: the degree is at least one, so it
  is not zero, and the quotient is that product.
-/
import proofs.«417221_j22522808500707_2_alg».proof.Proof.Inv
import proofs.«417221_j22522808500707_2_alg».proof.Proof.Step3
import proofs.«417221_j22522808500707_2_alg».proof.Proof.Take
import proofs.«417221_j22522808500707_2_alg».proof.Proof.LibTRef
import proofs.«417221_j22522808500707_2_alg».proof.Proof.Reg4
import proofs.«417221_j22522808500707_2_alg».proof.Proof.LibIdealDiv
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.Bridge.Step4

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

/-- No operation of the stretch writes the buffer: one inequality of buffer names per operation. -/
local macro "unwritten" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Buffers the two stretches leave alone -/

/-- A buffer no operation of the gather stretch writes is as region 3 left it. -/
theorem keep14 (b : Ref sig .tc) (hb : ∀ op ∈ (hostOps4 (F := Ideal)), Proc.devRef .tc b ∉ op.writes) :
    W14 (F := Ideal) m ρ c (Proc.devRef .tc b) = W13 (F := Ideal) m ρ c (Proc.devRef .tc b) :=
  StableHlo.after_of_forall_not_mem (b := Proc.devRef .tc b) _ _ hb

/-- A buffer neither stretch writes is, at region 4's entry, as region 3 left it. -/
theorem keep15 (b : Ref sig .tc) (hb : ∀ op ∈ (hostOps4 (F := Ideal)), Proc.devRef .tc b ∉ op.writes)
    (hb' : ∀ op ∈ (hostOps4_1 (F := Ideal)), Proc.devRef .tc b ∉ op.writes) :
    W15 (F := Ideal) m ρ c (Proc.devRef .tc b) = W13 (F := Ideal) m ρ c (Proc.devRef .tc b) :=
  (StableHlo.after_of_forall_not_mem (b := Proc.devRef .tc b) _ _ hb').trans (keep14 m ρ c b hb)

/-! ## What region 4 is entered with -/

/-- Every edge destination is non-negative, so the reference's wrap of the destinations changes nothing. -/
theorem edst_wrap (hi : IdxOk m c) : val_main_v96 (F := Ideal) (a2 m c) = edst m c := by
  unfold val_main_v96 val_main_v93 val_main_v95
  exact Take.wrap_id _ _ _ (fun i => by rw [val_main_v92_apply]; rfl) (fun i => (hi.dst i).1)

/-- The first layer's author output gathered along the edges: the stretch leaves exactly the rows at the edge
    destinations, and the reference gathers the same rows at its wrapped, hence unchanged, destinations. -/
theorem gathered_eq (h : Inv4 m ρ c) (hi : IdxOk m c) :
    W14 (F := Ideal) m ρ c (Proc.devRef .tc main_v43)
      = val_main_v98 (F := Ideal) (a0 m c) (a1 m c) (a2 m c) (a4 m c) (a5 m c) (a6 m c) (a7 m c) (a8 m c) (a9 m c) := by
  refine (Take.take_hA_dst (V := W13 (F := Ideal) m ρ c) ?_).trans ?_
  · intro i; rw [h.dst]; exact hi.dst i
  · rw [h.hA, h.dst]
    unfold val_main_v98 val_main_v97
    rw [edst_wrap m c hi]
    rfl

/-! ## The second stretch, read at its two results over any contents it starts from -/

/-- The stretch sums the gathered rows per document into zeros. -/
theorem summed_of (V : Valuation τ sig (Elt Ideal)) :
    StableHlo.after (hostOps4_1 (F := Ideal)) V (Proc.devRef .tc main_v46)
      = Host.scatterAdd (F := Ideal) scatter_S100000x128_S500000x1_S500000x128_1_0_0_1
          (broadcastInDim S100000x128 ![] bcast_S_S100000x128 (constant (F := Ideal) S_ .f32 0x00000000#32))
          (broadcastInDim S500000x1 ![0] bcast_S500000_S500000x1_0 (V (Proc.devRef .tc main_v4)))
          (V (Proc.devRef .tc main_v43)) := by
  after_results

/-- The stretch reshapes the second layer's bias to a row. -/
theorem bias_row_of (V : Valuation τ sig (Elt Ideal)) :
    StableHlo.after (hostOps4_1 (F := Ideal)) V (Proc.devRef .tc main_v47)
      = shapeCast S1x128 (V (Proc.devRef .tc main_arg17)) shapeCasts_S128_S1x128 := by
  after_results; rfl

/-- The per-document sum of the gathered rows, as region 4 finds it, is the reference's. -/
theorem agg_eq (h : Inv4 m ρ c) (hi : IdxOk m c) :
    Cert.Bridge.Reg4.agg (V15 (F := Ideal) m ρ) c
      = val_main_v101 (F := Ideal) (a0 m c) (a1 m c) (a2 m c) (a4 m c) (a5 m c) (a6 m c) (a7 m c) (a8 m c) (a9 m c) := by
  dsimp only [Cert.Bridge.Reg4.agg, V15, W15]
  refine (summed_of (W14 (F := Ideal) m ρ c)).trans ?_
  rw [gathered_eq m ρ c h hi, keep14 m ρ c main_v4 (by unwritten hostOps4), h.src]
  rfl

/-- The reciprocal clamped document degrees, as region 4 finds them. -/
theorem rdeg_at (h : Inv4 m ρ c) (p : Fin 100000) :
    Cert.Bridge.Reg4.rdeg (V15 (F := Ideal) m ρ) c (ix2 p (0 : Fin 1)) = Ideal.div 1 (degD m c (ix1 p)) := by
  dsimp only [Cert.Bridge.Reg4.rdeg, V15]
  rw [keep15 m ρ c main_v24 (by unwritten hostOps4) (by unwritten hostOps4_1)]
  exact h.invD p

/-- Layer one's document output, as region 4 finds it. -/
theorem xd_eq (h : Inv4 m ρ c) : Cert.Bridge.Reg4.xd (V15 (F := Ideal) m ρ) c = hD m c := by
  dsimp only [Cert.Bridge.Reg4.xd, V15]
  exact (keep15 m ρ c main_v36 (by unwritten hostOps4) (by unwritten hostOps4_1)).trans h.hD

/-- The two weights, as region 4 finds them. -/
theorem wl_eq (h : Inv4 m ρ c) : Cert.Bridge.Reg4.wl (V15 (F := Ideal) m ρ) c = a16 m c := by
  dsimp only [Cert.Bridge.Reg4.wl, V15]
  exact (keep15 m ρ c main_arg16 (by unwritten hostOps4) (by unwritten hostOps4_1)).trans h.arg16
theorem wr_eq (h : Inv4 m ρ c) : Cert.Bridge.Reg4.wr (V15 (F := Ideal) m ρ) c = a18 m c := by
  dsimp only [Cert.Bridge.Reg4.wr, V15]
  exact (keep15 m ρ c main_arg18 (by unwritten hostOps4) (by unwritten hostOps4_1)).trans h.arg18

/-- The bias as a row, as region 4 finds it. -/
theorem bias_eq (h : Inv4 m ρ c) :
    Cert.Bridge.Reg4.bias (V15 (F := Ideal) m ρ) c = shapeCast S1x128 (a17 m c) shapeCasts_S128_S1x128 := by
  dsimp only [Cert.Bridge.Reg4.bias, V15, W15]
  refine (bias_row_of (W14 (F := Ideal) m ρ c)).trans ?_
  rw [keep14 m ρ c main_arg17 (by unwritten hostOps4), h.arg17]

/-! ## The second layer's document output -/

/-- The reference counts the document degrees a second time by the same operations. -/
theorem degD_again : val_main_v107 (F := Ideal) (a2 m c) = degD m c := rfl

/-- A clamped degree is not zero. -/
theorem degD_ne_zero (p : Fin 100000) : degD m c (ix1 p) ≠ 0 := by
  show val_main_v55 (F := Ideal) (a2 m c) (ix1 p) ≠ 0
  rw [val_main_v55_apply, val_main_v54_apply, val_main_cst_11_apply, Ideal.maximumf_def]
  show max _ (Ideal.ofBits .f32 0x3F800000#32) ≠ 0
  rw [Ideal.ofBits_one_f32]
  exact Ideal.max_one_ne_zero _

/-- An entry of the reference's scaled per-document sums: the sum's entry divided by the clamped degree of its row, which
    is the product with the reciprocal, the clamped degree not being zero. -/
theorem scaled_at (p : Fin 100000) (k : Fin 128) :
    val_main_v110 (F := Ideal) (a0 m c) (a1 m c) (a2 m c) (a4 m c) (a5 m c) (a6 m c) (a7 m c) (a8 m c) (a9 m c) (ix2 p k)
      = val_main_v101 (F := Ideal) (a0 m c) (a1 m c) (a2 m c) (a4 m c) (a5 m c) (a6 m c) (a7 m c) (a8 m c) (a9 m c) (ix2 p k)
          * Ideal.div 1 (degD m c (ix1 p)) := by
  have ed : idx_main_v108 (idx_main_v109 (ix2 p k)) = ix1 p := funext fun a => Fin.ext (by
    match a with
    | ⟨0, _⟩ => rfl)
  rw [val_main_v110_apply, val_main_v109_apply, val_main_v108_apply, ed, degD_again m c, Ideal.hostDivf_def]
  exact (Ideal.mul_div_one_eq_div _ _ (degD_ne_zero m c p)).symm

/-- Region 4's output is the reference's second-layer document output. -/
theorem oD_eq (h : Inv4 m ρ c) (hi : IdxOk m c) :
    W16 (F := Ideal) m ρ c (Proc.devRef .tc main_v48) = oD m c := by
  refine (W16_arr m ρ c 6).trans ?_
  funext i
  obtain ⟨p, q, rfl⟩ : ∃ (p : Fin 100000) (q : Fin 128), i = ix2 p q := ⟨i 0, i 1, eq_ix2 i⟩
  refine (Cert.Bridge.Reg4.out_at (V15 (F := Ideal) m ρ) c p q).trans ?_
  rw [agg_eq m ρ c h hi, rdeg_at m ρ c h p, xd_eq m ρ c h, wl_eq m ρ c h, wr_eq m ρ c h, bias_eq m ρ c h]
  -- the reshaped bias at (0, q) is the bias at q
  have hb : shapeCast S1x128 (a17 m c) shapeCasts_S128_S1x128 (ix2 (0 : Fin 1) q) = a17 m c (ix1 q) :=
    shapeCast_apply _ _ _ (ix1 q) (by rw [Shape.rowMajor_val_one, Shape.rowMajor_val_two]; simp)
  rw [hb]
  show _ = val_main_v116 (F := Ideal) (a0 m c) (a1 m c) (a2 m c) (a4 m c) (a5 m c) (a6 m c) (a7 m c) (a8 m c) (a9 m c) (a10 m c) (a11 m c) (a12 m c) (a16 m c) (a17 m c) (a18 m c) (ix2 p q)
  rw [val_main_v116_apply, val_main_v114_apply, val_main_v111_apply, val_main_v115_apply, val_main_v113_apply, val_main_v112_apply]
  have el : ∀ k : Fin 128, lidx_main_v111 (ix2 p q) k = ix2 p k := fun k => funext fun a => Fin.ext (by
    match a with
    | ⟨0, _⟩ => rfl
    | ⟨1, _⟩ => rfl)
  have er : ∀ k : Fin 128, ridx_main_v111 (ix2 p q) k = ix2 k q := fun k => funext fun a => Fin.ext (by
    match a with
    | ⟨0, _⟩ => rfl
    | ⟨1, _⟩ => rfl)
  have el' : ∀ k : Fin 128, lidx_main_v115 (ix2 p q) k = ix2 p k := fun k => funext fun a => Fin.ext (by
    match a with
    | ⟨0, _⟩ => rfl
    | ⟨1, _⟩ => rfl)
  have er' : ∀ k : Fin 128, ridx_main_v115 (ix2 p q) k = ix2 k q := fun k => funext fun a => Fin.ext (by
    match a with
    | ⟨0, _⟩ => rfl
    | ⟨1, _⟩ => rfl)
  have eb : idx_main_v112 (idx_main_v113 (ix2 p q)) = ix1 q := funext fun a => Fin.ext (by
    match a with
    | ⟨0, _⟩ => rfl)
  -- the reference divides by the clamped degree; the kernel multiplies by its reciprocal; the degree is not zero
  simp only [el, er, el', er', eb, scaled_at m c p]
  rw [Ideal.addf_def, Ideal.addf_def]

/-! ## The two buffers carried to the last stretch -/

/-- The label list: neither stretch writes it and region 4 does not stage it. -/
theorem arg3_eq (h : Inv4 m ρ c) : W16 (F := Ideal) m ρ c (Proc.devRef .tc main_arg3) = a3 m c :=
  (W16_of_ne m ρ c main_arg3 (by decide)).trans
    ((keep15 m ρ c main_arg3 (by unwritten hostOps4) (by unwritten hostOps4_1)).trans h.arg3)

/-- The second layer's author output: neither stretch writes it and region 4 does not stage it. -/
theorem oA_eq (h : Inv4 m ρ c) : W16 (F := Ideal) m ρ c (Proc.devRef .tc main_v42) = oA m c :=
  (W16_of_ne m ρ c main_v42 (by decide)).trans
    ((keep15 m ρ c main_v42 (by unwritten hostOps4) (by unwritten hostOps4_1)).trans h.oA)

theorem inv5 (h : Inv4 m ρ c) (hi : IdxOk m c) : Inv5 m ρ c where
  arg3 := arg3_eq m ρ c h
  oA := oA_eq m ρ c h
  oD := oD_eq m ρ c h hi

end Cert.Bridge.Step4

end
-- ==== Proof.Step5.lean ====
/-
  From region 4's exit to the return: the two rows of the label list, the second layer's outputs gathered at them, their
  product entry by entry and its sum along the feature axis: the reference's score.
-/
import proofs.«417221_j22522808500707_2_alg».proof.Proof.Inv
import proofs.«417221_j22522808500707_2_alg».proof.Proof.Take
import proofs.«417221_j22522808500707_2_alg».proof.Proof.LibTRef
import Idealize.ShloMosaic.Lib.StableHlo.Run
import Idealize.ShloMosaic.Lib.ValueIdx
import Idealize.ShloMosaic.Lib.Pipeline.Value
import Idealize.ShloMosaic.PureOps.Ideal.Laws
import proofs.«417221_j22522808500707_2_alg».proof.Proof.LibIdealDiv

set_option maxRecDepth 16384

noncomputable section

namespace Cert.Bridge.Step5

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

/-- No operation of the named stretch writes the buffer the goal reads, so the buffer holds what it held. -/
local macro "untouched_by " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

variable (h : Inv5 m ρ c) (hi : IdxOk m c)
include h

/-- Row 0 of the label list, as the first gather's stretch finds it. -/
theorem lab0_at17 : W17 (F := Ideal) m ρ c (Proc.devRef .tc main_v50) = lab0 m c := by
  dsimp only [W17]
  after_results
  rw [h.arg3]
  rfl

/-- The second layer's document output is not written by the slice. -/
theorem oD_at17 : W17 (F := Ideal) m ρ c (Proc.devRef .tc main_v48) = oD m c := by
  dsimp only [W17]
  after_results
  exact h.oD

/-- The author output and the label list are untouched by the first slice and the first gather. -/
theorem oA_at18 : W18 (F := Ideal) m ρ c (Proc.devRef .tc main_v42) = oA m c := by
  have e : W18 (F := Ideal) m ρ c (Proc.devRef .tc main_v42) = W17 (F := Ideal) m ρ c (Proc.devRef .tc main_v42) := by
    untouched_by hostOps5_1
  rw [e]
  dsimp only [W17]
  after_results
  exact h.oA
theorem labels_at18 : W18 (F := Ideal) m ρ c (Proc.devRef .tc main_arg3) = a3 m c := by
  have e : W18 (F := Ideal) m ρ c (Proc.devRef .tc main_arg3) = W17 (F := Ideal) m ρ c (Proc.devRef .tc main_arg3) := by
    untouched_by hostOps5_1
  rw [e]
  dsimp only [W17]
  after_results
  exact h.arg3

/-- The author output past the second slice; row 1 of the label list. -/
theorem oA_at19 : W19 (F := Ideal) m ρ c (Proc.devRef .tc main_v42) = oA m c := by
  dsimp only [W19]
  after_results
  exact oA_at18 m ρ c h
theorem lab1_at19 : W19 (F := Ideal) m ρ c (Proc.devRef .tc main_v53) = lab1 m c := by
  dsimp only [W19]
  after_results
  rw [h.arg3]
  rfl

include hi

/-- The document output's rows at the first label row. -/
theorem rows0_at18 : W18 (F := Ideal) m ρ c (Proc.devRef .tc main_v51)
    = Host.gather gather_S100000x128_S200000x1_S200000x128_1_0_n_n_0_1_1128 (oD m c)
        (broadcastInDim S200000x1 ![0] bcast_S200000_S200000x1_0 (lab0 m c)) := by
  dsimp only [W18]
  rw [Take.take_oD_lab0 (W17 (F := Ideal) m ρ c) (by rw [lab0_at17 m ρ c h]; exact hi.lab0), oD_at17 m ρ c h, lab0_at17 m ρ c h]

/-- The author output's rows at the second label row. -/
theorem rows1_at20 : W20 (F := Ideal) m ρ c (Proc.devRef .tc main_v54)
    = Host.gather gather_S50000x128_S200000x1_S200000x128_1_0_n_n_0_1_1128 (oA m c)
        (broadcastInDim S200000x1 ![0] bcast_S200000_S200000x1_0 (lab1 m c)) := by
  dsimp only [W20]
  rw [Take.take_oA_lab1 (W19 (F := Ideal) m ρ c) (by rw [lab1_at19 m ρ c h]; exact hi.lab1), oA_at19 m ρ c h, lab1_at19 m ρ c h]

/-- The document rows are untouched by the second slice and the second gather. -/
theorem rows0_at20 : W20 (F := Ideal) m ρ c (Proc.devRef .tc main_v51)
    = Host.gather gather_S100000x128_S200000x1_S200000x128_1_0_n_n_0_1_1128 (oD m c)
        (broadcastInDim S200000x1 ![0] bcast_S200000_S200000x1_0 (lab0 m c)) := by
  have e : W20 (F := Ideal) m ρ c (Proc.devRef .tc main_v51) = W19 (F := Ideal) m ρ c (Proc.devRef .tc main_v51) := by
    untouched_by hostOps5_3
  have e' : W19 (F := Ideal) m ρ c (Proc.devRef .tc main_v51) = W18 (F := Ideal) m ρ c (Proc.devRef .tc main_v51) := by
    untouched_by hostOps5_2
  rw [e, e']
  exact rows0_at18 m ρ c h hi

omit h hi in
/-- The last stretch from any contents: the two gathered arrays multiplied entry by entry and summed along the features. -/
theorem last_stretch (V : Valuation τ sig (Elt Ideal)) :
    StableHlo.after (hostOps5_4 (F := Ideal)) V (Proc.devRef .tc main_v56)
      = Host.reduceAdd (F := Ideal) (mulf (F := Ideal) (V (Proc.devRef .tc main_v51) : FVec Ideal S200000x128 .f32)
            (V (Proc.devRef .tc main_v54) : FVec Ideal S200000x128 .f32)) (constant (F := Ideal) S_ .f32 0x00000000#32)
          reducesTo_S200000x128_S200000_d1 h_S_ := by
  after_results

omit h in
/-- With every label in range the reference's wrap of negative labels changes nothing. -/
theorem wrap0 : val_main_v123 (F := Ideal) (a3 m c) = lab0 m c := by
  unfold val_main_v123 val_main_v120 val_main_v122
  exact Take.wrap_id _ _ _ (fun i => rfl) (fun i => (hi.lab0 i).1)
omit h in
theorem wrap1 : val_main_v132 (F := Ideal) (a3 m c) = lab1 m c := by
  unfold val_main_v132 val_main_v129 val_main_v131
  exact Take.wrap_id _ _ _ (fun i => rfl) (fun i => (hi.lab1 i).1)

/-- The product of the two gathers summed along the features is the reference's score. -/
theorem final : Final m ρ c := by
  unfold Final
  dsimp only [W21]
  rw [last_stretch (W20 (F := Ideal) m ρ c), rows0_at20 m ρ c h hi, rows1_at20 m ρ c h hi]
  show _ = val_main_v136 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)
  unfold val_main_v136 val_main_v135 val_main_v125 val_main_v134 val_main_v124 val_main_v133
  rw [wrap0 m c hi, wrap1 m c hi]
  -- the same operations on the same arrays: the two programs' dimension records are equal field by field
  rfl

end Cert.Bridge.Step5

end
-- ==== Proof.Chain.lean ====
/-
  The steps composed: from the launch through the five regions to the return, the result buffer holds the
  reference's scores whenever every index names a row of the array it indexes.
-/
import proofs.«417221_j22522808500707_2_alg».proof.Proof.Step0
import proofs.«417221_j22522808500707_2_alg».proof.Proof.Step1
import proofs.«417221_j22522808500707_2_alg».proof.Proof.Step2
import proofs.«417221_j22522808500707_2_alg».proof.Proof.Step3
import proofs.«417221_j22522808500707_2_alg».proof.Proof.Step4
import proofs.«417221_j22522808500707_2_alg».proof.Proof.Step5

set_option maxRecDepth 16384

noncomputable section

namespace Cert.Bridge.Chain

open Cert.KernelIdeal Cert.KernelIdeal.Gen Idealize.ShloMosaic Idealize.ShloMosaic.TcCoe Idealize.SL.Sem Idealize.ShloMosaic.StableHlo Idealize.ShloMosaic.ValueIdx
open Cert.ReferenceIdeal.Read

variable (m : Cert.Bridge.KMem) (ρ : Dev nD → PrngReg) (c : Dev nD)

theorem kernel_final (hi : IdxOk m c) : Final m ρ c :=
  Step5.final m ρ c (Step4.inv5 m ρ c (Step3.inv4 m ρ c (Step2.inv3 m ρ c (Step1.inv2 m ρ c (Step0.inv1 m ρ c) hi) hi) hi) hi) hi

end Cert.Bridge.Chain

end
-- ==== Proof.PreIdx.lean ====
/-
  The precondition, beside the finiteness of every float argument, says of each index argument that all its entries
  lie between zero and the height of the table they index. Read entry by entry, that is the index facts.
-/
import proofs.«417221_j22522808500707_2_alg».proof.Defs
import proofs.«417221_j22522808500707_2_alg».proof.Proof.Inv
import proofs.«417221_j22522808500707_2_alg».proof.Proof.Gen.Pre_finite_inputs
import Idealize.ShloMosaic.Lib.ReduceAll
import Idealize.ShloMosaic.Lib.StableHlo.Predicate

set_option maxRecDepth 16384

noncomputable section

namespace Cert.Bridge.PreIdx

open Idealize.ShloMosaic Idealize.ShloMosaic.TcCoe Idealize.SL.Sem Idealize.ShloMosaic.ValueIdx

/-- A conjunction of one-bit words that is one has both its members one; a reduction by conjunction, from one, of the
    entrywise test "at least lo and below hi" that came out one says that of every entry, as signed integers. -/
theorem range_of_all {s : Shape} {axes : List (Fin s.rank)} (x : IVec s 32) (lo hi : BitVec 32) (L H : ℤ)
    (hL : lo.toInt = L) (hH : hi.toInt = H)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
          (andi (cmpi .sge x (broadcastInDim s ![] hb (constantI ⟨0, ![]⟩ 32 lo)))
                (cmpi .slt x (broadcastInDim s ![] hb (constantI ⟨0, ![]⟩ 32 hi))))
          (constantI ⟨0, ![]⟩ 1 1#1) hr h0 ix0 = 1#1) (i : s.Idx) :
    L ≤ (x i).toInt ∧ (x i).toInt < H := by
  haveI : Subsingleton (⟨0, ![]⟩ : Shape).Idx := ⟨fun a b => funext fun d => d.elim0⟩
  have hi' := Host.reduce_andi_all _ _ hr h0 ix0 e i
  obtain ⟨h1, h2⟩ := IntOp.andi_eq_one.1 hi'
  have h1' : BitVec.ofBool (lo.sle (x i)) = 1#1 := h1
  have h2' : BitVec.ofBool ((x i).slt hi) = 1#1 := h2
  rw [StableHlo.Predicate.ofBool_eq_one_iff] at h1' h2'
  simp only [BitVec.sle, BitVec.slt, decide_eq_true_eq] at h1' h2'
  subst hL hH
  exact ⟨h1', h2'⟩

/-- Under the precondition every index names a row of the array it indexes. -/
theorem idxOk [hPre : Cert.Pre_finite_inputs.Facts] (m : Cert.Bridge.KMem) (h : Cert.Pre_KernelIdeal m) (c : Dev Cert.KernelIdeal.nD) :
    Cert.Bridge.IdxOk m c := by
  -- the predicate at its one index, its chain of operations written out
  have e := congrFun (h c) ValueIdx.ix0
  unfold Cert.Pre_finite_inputs.fn Cert.Pre_finite_inputs.fn_part1 Cert.Pre_finite_inputs.fn_part2
    Cert.Pre_finite_inputs.fn_part3 Cert.Pre_finite_inputs.fn_part4 Cert.Pre_finite_inputs.fn_part5
    Cert.Pre_finite_inputs.fn_part6 Cert.Pre_finite_inputs.fn_part7 at e
  dsimp only at e
  -- the last five conjuncts are the index ranges; what is left over is the finiteness of the float arguments
  obtain ⟨e, l1⟩ := IntOp.andi_eq_one.1 e
  obtain ⟨e, l0⟩ := IntOp.andi_eq_one.1 e
  obtain ⟨e, dst⟩ := IntOp.andi_eq_one.1 e
  obtain ⟨e, src⟩ := IntOp.andi_eq_one.1 e
  obtain ⟨_, au⟩ := IntOp.andi_eq_one.1 e
  refine ⟨fun i => range_of_all _ _ _ _ _ (by decide) (by decide) _ _ _ au i, fun i => ?_, fun i => ?_, fun i => ?_, fun i => ?_⟩
  · -- row 0 of the edge index: the reference's slice and reshape are the predicate's
    show 0 ≤ (Cert.ReferenceIdeal.Read.val_main_v12 (F := Ideal) (a2 m c) i).toInt ∧ _
    unfold Cert.ReferenceIdeal.Read.val_main_v12 Cert.ReferenceIdeal.Read.val_main_v11
    exact range_of_all _ _ _ _ _ (by decide) (by decide) _ _ _ src i
  · show 0 ≤ (Cert.ReferenceIdeal.Read.val_main_v14 (F := Ideal) (a2 m c) i).toInt ∧ _
    unfold Cert.ReferenceIdeal.Read.val_main_v14 Cert.ReferenceIdeal.Read.val_main_v13
    exact range_of_all _ _ _ _ _ (by decide) (by decide) _ _ _ dst i
  · show 0 ≤ (Cert.ReferenceIdeal.Read.val_main_v118 (F := Ideal) (a3 m c) i).toInt ∧ _
    unfold Cert.ReferenceIdeal.Read.val_main_v118 Cert.ReferenceIdeal.Read.val_main_v117
    exact range_of_all _ _ _ _ _ (by decide) (by decide) _ _ _ l0 i
  · show 0 ≤ (Cert.ReferenceIdeal.Read.val_main_v127 (F := Ideal) (a3 m c) i).toInt ∧ _
    unfold Cert.ReferenceIdeal.Read.val_main_v127 Cert.ReferenceIdeal.Read.val_main_v126
    exact range_of_all _ _ _ _ _ (by decide) (by decide) _ _ _ l1 i

end Cert.Bridge.PreIdx

end
-- ==== Proof.Claims.lean ====
/-
  The five claims. The two kernel programs' frames are the generated frame certificates; the reference has no kernel,
  and its frame is its run with the result dropped. The idealization rewrote nothing, so there is nothing to preserve.
  For the value claim both programs are run from memories that agree on the arguments. The kernel's program ends with
  every buffer at the composition, through its host stretches and five regions, of the launch memory, and under the
  precondition's index facts that composition, at the result buffer, is the reference's last stage of the arguments;
  the reference's run ends at that same stage of its own arguments, which are the kernel's.
-/
import proofs.«417221_j22522808500707_2_alg».proof.Defs
import proofs.«417221_j22522808500707_2_alg».proof.Proof.Gen.Kernel.Frame
import proofs.«417221_j22522808500707_2_alg».proof.Proof.Gen.KernelIdeal.Frame
import proofs.«417221_j22522808500707_2_alg».proof.Proof.Gen.ReferenceIdeal.Run
import proofs.«417221_j22522808500707_2_alg».proof.Proof.Gen.ReferenceIdeal.Read
import proofs.«417221_j22522808500707_2_alg».proof.Proof.Gen.Pre_finite_inputs
import proofs.«417221_j22522808500707_2_alg».proof.Proof.KRun
import proofs.«417221_j22522808500707_2_alg».proof.Proof.Chain
import proofs.«417221_j22522808500707_2_alg».proof.Proof.PreIdx

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reference's scores of the kernel's arguments. -/
theorem algebraic : Cert.algebraic_KernelIdeal_ReferenceIdeal := by
  intro m ρ m' ρ' hpre hagree
  refine ⟨fun c => Cert.Bridge.score m c, ?_, ?_⟩
  · -- the kernel's program: every buffer at the last boundary's contents; the result buffer by the chain of steps
    open Cert.KernelIdeal Cert.KernelIdeal.Gen in
    refine (θ_run Cert.KernelIdeal.defs _ _).mono (fun r h c => ?_) (Cert.KernelIdeal.ValueRun.run_all (F := Ideal) m ρ)
    have hf : Cert.Bridge.Final m ρ c := Cert.Bridge.Chain.kernel_final m ρ c (Cert.Bridge.PreIdx.idxOk m hpre c)
    exact ⟨(h c _ (mem_uc main_v56 (by decide))).trans hf,
      (h c _ (mem_uc main_arg0 (by decide))).trans (W21_main_arg0 m ρ c),
      (h c _ (mem_uc main_arg1 (by decide))).trans (W21_main_arg1 m ρ c),
      (h c _ (mem_uc main_arg2 (by decide))).trans (W21_main_arg2 m ρ c),
      (h c _ (mem_uc main_arg3 (by decide))).trans (W21_main_arg3 m ρ c),
      (h c _ (mem_uc main_arg4 (by decide))).trans (W21_main_arg4 m ρ c),
      (h c _ (mem_uc main_arg5 (by decide))).trans (W21_main_arg5 m ρ c),
      (h c _ (mem_uc main_arg6 (by decide))).trans (W21_main_arg6 m ρ c),
      (h c _ (mem_uc main_arg7 (by decide))).trans (W21_main_arg7 m ρ c),
      (h c _ (mem_uc main_arg8 (by decide))).trans (W21_main_arg8 m ρ c),
      (h c _ (mem_uc main_arg9 (by decide))).trans (W21_main_arg9 m ρ c),
      (h c _ (mem_uc main_arg10 (by decide))).trans (W21_main_arg10 m ρ c),
      (h c _ (mem_uc main_arg11 (by decide))).trans (W21_main_arg11 m ρ c),
      (h c _ (mem_uc main_arg12 (by decide))).trans (W21_main_arg12 m ρ c),
      (h c _ (mem_uc main_arg13 (by decide))).trans (W21_main_arg13 m ρ c),
      (h c _ (mem_uc main_arg14 (by decide))).trans (W21_main_arg14 m ρ c),
      (h c _ (mem_uc main_arg15 (by decide))).trans (W21_main_arg15 m ρ c),
      (h c _ (mem_uc main_arg16 (by decide))).trans (W21_main_arg16 m ρ c),
      (h c _ (mem_uc main_arg17 (by decide))).trans (W21_main_arg17 m ρ c),
      (h c _ (mem_uc main_arg18 (by decide))).trans (W21_main_arg18 m ρ c)⟩
  · -- the reference: its run's term is its last stage of its own arguments, which agree with the kernel's
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v136_eq]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

end Cert.Proof.Claims

end
-- ==== Proof.lean ====
/-
  A two-layer mean-aggregation graph network over documents and authors, scored on labelled edges. The kernel projects
  the document features, gathers and sums neighbours' features on the host, and runs each layer's two matrix products
  with the division by the clamped degree fused in as a product with its reciprocal; the reference divides. Over the
  extended reals, for indices that name rows of the arrays they index, the two compute the same scores: a change of
  float format is the identity, a matrix product into a zero accumulator is the plain sum, the product with one over a
  number that is at least one is the quotient by it, and with every index in range the kernel's fill of out-of-range
  rows never fires and the wrap of negative indices changes nothing.
-/
import proofs.«417221_j22522808500707_2_alg».proof.Defs
import proofs.«417221_j22522808500707_2_alg».proof.Proof.Gen.Kernel
import proofs.«417221_j22522808500707_2_alg».proof.Proof.Gen.Kernel.Skeleton
import proofs.«417221_j22522808500707_2_alg».proof.Proof.Gen.Kernel.Launch
import proofs.«417221_j22522808500707_2_alg».proof.Proof.Gen.Kernel.Points
import proofs.«417221_j22522808500707_2_alg».proof.Proof.Gen.Kernel.Frame
import proofs.«417221_j22522808500707_2_alg».proof.Proof.Gen.KernelIdeal
import proofs.«417221_j22522808500707_2_alg».proof.Proof.Gen.KernelIdeal.Skeleton
import proofs.«417221_j22522808500707_2_alg».proof.Proof.Gen.KernelIdeal.Launch
import proofs.«417221_j22522808500707_2_alg».proof.Proof.Gen.KernelIdeal.Points
import proofs.«417221_j22522808500707_2_alg».proof.Proof.Gen.KernelIdeal.Frame
import proofs.«417221_j22522808500707_2_alg».proof.Proof.Gen.ReferenceIdeal
import proofs.«417221_j22522808500707_2_alg».proof.Proof.Gen.Pre_finite_inputs
import proofs.«417221_j22522808500707_2_alg».proof.Proof.Gen.ReferenceIdeal.Run
import proofs.«417221_j22522808500707_2_alg».proof.Proof.Gen.ReferenceIdeal.Read
import proofs.«417221_j22522808500707_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
